-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_v177) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S512x128 : Shape := ⟨2, ![512, 128]⟩
abbrev S4x262144 : Shape := ⟨2, ![4, 262144]⟩
abbrev S2x262144 : Shape := ⟨2, ![2, 262144]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S4x262144 : S_.BroadcastsInDim S4x262144 (![] : Fin 0 → Fin S4x262144.rank)
  reducesTo_S4x262144_S_d0_1 : S4x262144.ReducesTo [0, 1] S_
  bcast_S_S2x262144 : S_.BroadcastsInDim S2x262144 (![] : Fin 0 → Fin S2x262144.rank)
  reducesTo_S2x262144_S_d0_1 : S2x262144.ReducesTo [0, 1] S_

variable [Facts]

def fn_part1 {F : FTy → Type} [FloatOps F] (main_arg3 : IVec S2x262144 32) (main_v13 : IVec S_ 1) (main_v15 : IVec S2x262144 1) (main_c_5 : IVec S_ 32) : IVec S_ 1 :=
  let main_v16 : IVec S2x262144 32 := broadcastInDim S2x262144 ![] bcast_S_S2x262144 main_c_5
  let main_v17 : IVec S2x262144 1 := cmpi .slt main_arg3 main_v16
  let main_v18 : IVec S2x262144 1 := andi main_v15 main_v17
  let main_c_6 : IVec S_ 1 := constantI S_ 1 1#1
  let main_v19 : IVec S_ 1 := (fun x v => Host.reduce IntOp.andi x v reducesTo_S2x262144_S_d0_1 h_S_) main_v18 main_c_6
  let main_v20 : IVec S_ 1 := andi main_v13 main_v19
  main_v20

def fn {F : FTy → Type} [FloatOps F] (main_arg0 : FVec F S4096x512 .f32) (main_arg1 : FVec F S512x128 .f32) (main_arg2 : FVec F S4x262144 .f32) (main_arg3 : IVec S2x262144 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S4x262144 .f32 := Host.absf main_arg2
  let main_cst_2 : FVec F S_ .f32 := constant S_ .f32 0x7F800000#32
  let main_v10 : FVec F S4x262144 .f32 := broadcastInDim S4x262144 ![] bcast_S_S4x262144 main_cst_2
  let main_v11 : IVec S4x262144 1 := cmpf .olt main_v9 main_v10
  let main_c_3 : IVec S_ 1 := constantI S_ 1 1#1
  let main_v12 : IVec S_ 1 := (fun x v => Host.reduce IntOp.andi x v reducesTo_S4x262144_S_d0_1 h_S_) main_v11 main_c_3
  let main_v13 : IVec S_ 1 := andi main_v8 main_v12
  let main_c_4 : IVec S_ 32 := constantI S_ 32 0#32
  let main_v14 : IVec S2x262144 32 := broadcastInDim S2x262144 ![] bcast_S_S2x262144 main_c_4
  let main_v15 : IVec S2x262144 1 := cmpi .sge main_arg3 main_v14
  let main_c_5 : IVec S_ 32 := constantI S_ 32 4096#32
  fn_part1 (F := F) main_arg3 main_v13 main_v15 main_c_5
-- ==== Kernel.lean ====
abbrev S4096x512 : Shape := ⟨2, ![4096, 512]⟩
abbrev S512x128 : Shape := ⟨2, ![512, 128]⟩
abbrev S4x262144 : Shape := ⟨2, ![4, 262144]⟩
abbrev S2x262144 : Shape := ⟨2, ![2, 262144]⟩
abbrev S1x262144 : Shape := ⟨2, ![1, 262144]⟩
abbrev S262144 : Shape := ⟨1, ![262144]⟩
abbrev S4096x128 : Shape := ⟨2, ![4096, 128]⟩
abbrev S_ : Shape := ⟨0, ![]⟩
abbrev S4096 : Shape := ⟨1, ![4096]⟩
abbrev S262144x1 : Shape := ⟨2, ![262144, 1]⟩
abbrev S4x4096 : Shape := ⟨2, ![4, 4096]⟩
abbrev S4x16777216 : Shape := ⟨2, ![4, 16777216]⟩
abbrev S4x4096x4096 : Shape := ⟨3, ![4, 4096, 4096]⟩
abbrev S4x256x4096 : Shape := ⟨3, ![4, 256, 4096]⟩
abbrev S256x512 : Shape := ⟨2, ![256, 512]⟩
abbrev S1x256x4096 : Shape := ⟨3, ![1, 256, 4096]⟩
abbrev S256x4096 : Shape := ⟨2, ![256, 4096]⟩
abbrev S256x128 : Shape := ⟨2, ![256, 128]⟩

abbrev nBuf : Space → Nat
  | .hbm => 68
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S512x128, .f32⟩
  | .hbm, ⟨2, _⟩ => ⟨S4x262144, .f32⟩
  | .hbm, ⟨3, _⟩ => ⟨S2x262144, .i32⟩
  | .hbm, ⟨4, _⟩ => ⟨S1x262144, .i32⟩
  | .hbm, ⟨5, _⟩ => ⟨S262144, .i32⟩
  | .hbm, ⟨6, _⟩ => ⟨S1x262144, .i32⟩
  | .hbm, ⟨7, _⟩ => ⟨S262144, .i32⟩
  | .hbm, ⟨8, _⟩ => ⟨S4096x128, .f32⟩
  | .hbm, ⟨9, _⟩ => ⟨S_, .f32⟩
  | .hbm, ⟨10, _⟩ => ⟨S4x262144, .f32⟩
  | .hbm, ⟨11, _⟩ => ⟨S4x262144, .i1⟩
  | .hbm, ⟨12, _⟩ => ⟨S_, .f32⟩
  | .hbm, ⟨13, _⟩ => ⟨S4x262144, .f32⟩
  | .hbm, ⟨14, _⟩ => ⟨S4x262144, .f32⟩
  | .hbm, ⟨15, _⟩ => ⟨S4x262144, .f32⟩
  | .hbm, ⟨16, _⟩ => ⟨S4x262144, .i1⟩
  | .hbm, ⟨17, _⟩ => ⟨S_, .f32⟩
  | .hbm, ⟨18, _⟩ => ⟨S4x262144, .f32⟩
  | .hbm, ⟨19, _⟩ => ⟨S4x262144, .i1⟩
  | .hbm, ⟨20, _⟩ => ⟨S4x262144, .i1⟩
  | .hbm, ⟨21, _⟩ => ⟨S_, .f32⟩
  | .hbm, ⟨22, _⟩ => ⟨S_, .f32⟩
  | .hbm, ⟨23, _⟩ => ⟨S4x262144, .f32⟩
  | .hbm, ⟨24, _⟩ => ⟨S4x262144, .f32⟩
  | .hbm, ⟨25, _⟩ => ⟨S4x262144, .f32⟩
  | .hbm, ⟨26, _⟩ => ⟨S_, .f32⟩
  | .hbm, ⟨27, _⟩ => ⟨S4x262144, .f32⟩
  | .hbm, ⟨28, _⟩ => ⟨S4x262144, .f32⟩
  | .hbm, ⟨29, _⟩ => ⟨S_, .f32⟩
  | .hbm, ⟨30, _⟩ => ⟨S4096, .f32⟩
  | .hbm, ⟨31, _⟩ => ⟨S262144x1, .i32⟩
  | .hbm, ⟨32, _⟩ => ⟨S4x4096, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S4x4096, .i1⟩
  | .hbm, ⟨37, _⟩ => ⟨S_, .f32⟩
  | .hbm, ⟨38, _⟩ => ⟨S_, .f32⟩
  | .hbm, ⟨39, _⟩ => ⟨S4x4096, .f32⟩
  | .hbm, ⟨40, _⟩ => ⟨S4x4096, .f32⟩
  | .hbm, ⟨41, _⟩ => ⟨S_, .i32⟩
  | .hbm, ⟨42, _⟩ => ⟨S262144, .i32⟩
  | .hbm, ⟨43, _⟩ => ⟨S262144, .i1⟩
  | .hbm, ⟨44, _⟩ => ⟨S_, .i32⟩
  | .hbm, ⟨45, _⟩ => ⟨S262144, .i32⟩
  | .hbm, ⟨46, _⟩ => ⟨S262144, .i32⟩
  | .hbm, ⟨47, _⟩ => ⟨S262144, .i32⟩
  | .hbm, ⟨48, _⟩ => ⟨S262144x1, .i32⟩
  | .hbm, ⟨49, _⟩ => ⟨S4x262144, .f32⟩
  | .hbm, ⟨50, _⟩ => ⟨S4x262144, .f32⟩
  | .hbm, ⟨51, _⟩ => ⟨S_, .i32⟩
  | .hbm, ⟨52, _⟩ => ⟨S262144, .i32⟩
  | .hbm, ⟨53, _⟩ => ⟨S262144, .i32⟩
  | .hbm, ⟨54, _⟩ => ⟨S262144, .i32⟩
  | .hbm, ⟨55, _⟩ => ⟨S_, .f32⟩
  | .hbm, ⟨56, _⟩ => ⟨S4x16777216, .f32⟩
  | .hbm, ⟨57, _⟩ => ⟨S_, .i32⟩
  | .hbm, ⟨58, _⟩ => ⟨S262144, .i32⟩
  | .hbm, ⟨59, _⟩ => ⟨S262144, .i1⟩
  | .hbm, ⟨60, _⟩ => ⟨S_, .i32⟩
  | .hbm, ⟨61, _⟩ => ⟨S262144, .i32⟩
  | .hbm, ⟨62, _⟩ => ⟨S262144, .i32⟩
  | .hbm, ⟨63, _⟩ => ⟨S262144, .i32⟩
  | .hbm, ⟨64, _⟩ => ⟨S262144x1, .i32⟩
  | .hbm, ⟨65, _⟩ => ⟨S4x16777216, .f32⟩
  | .hbm, ⟨66, _⟩ => ⟨S4x4096x4096, .f32⟩
  | .hbm, ⟨67, _⟩ => ⟨S4096x512, .f32⟩
  | .local _ .vmem, ⟨0, _⟩ => ⟨S4096x512, .f32⟩
  | .local _ .vmem, ⟨1, _⟩ => ⟨S512x128, .f32⟩
  | .local _ .vmem, ⟨2, _⟩ => ⟨S4096x128, .f32⟩
  | .local _ .vmem, ⟨3, _⟩ => ⟨S4x256x4096, .f32⟩
  | .local _ .vmem, ⟨4, _⟩ => ⟨S4x256x4096, .f32⟩
  | .local _ .vmem, ⟨5, _⟩ => ⟨S4096x128, .f32⟩
  | .local _ .vmem, ⟨6, _⟩ => ⟨S256x512, .f32⟩
  | .local _ .vmem, ⟨7, _⟩ => ⟨S256x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_call0_v6 : Ref sig .tc := ⟨.hbm, 11, rfl⟩
abbrev main_call0_cst_0 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_cst_1 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_cst_2 : Ref sig .tc := ⟨.hbm, 21, rfl⟩
abbrev main_call0_call1_v0 : Ref sig .tc := ⟨.hbm, 22, rfl⟩
abbrev main_call0_call1_v1 : Ref sig .tc := ⟨.hbm, 23, rfl⟩
abbrev main_call0_v14 : Ref sig .tc := ⟨.hbm, 24, rfl⟩
abbrev main_call0_v15 : Ref sig .tc := ⟨.hbm, 25, rfl⟩
abbrev main_call0_cst_3 : Ref sig .tc := ⟨.hbm, 26, rfl⟩
abbrev main_call0_v16 : Ref sig .tc := ⟨.hbm, 27, rfl⟩
abbrev main_call0_v17 : Ref sig .tc := ⟨.hbm, 28, rfl⟩
abbrev main_call0_cst_4 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_cst_5 : Ref sig .tc := ⟨.hbm, 34, rfl⟩
abbrev main_call0_v22 : Ref sig .tc := ⟨.hbm, 35, rfl⟩
abbrev main_call0_v23 : Ref sig .tc := ⟨.hbm, 36, rfl⟩
abbrev main_call0_cst_6 : Ref sig .tc := ⟨.hbm, 37, rfl⟩
abbrev main_call0_call2_v0 : Ref sig .tc := ⟨.hbm, 38, rfl⟩
abbrev main_call0_call2_v1 : Ref sig .tc := ⟨.hbm, 39, rfl⟩
abbrev main_call0_v24 : Ref sig .tc := ⟨.hbm, 40, rfl⟩
abbrev main_call0_c : Ref sig .tc := ⟨.hbm, 41, rfl⟩
abbrev main_call0_v25 : Ref sig .tc := ⟨.hbm, 42, rfl⟩
abbrev main_call0_v26 : Ref sig .tc := ⟨.hbm, 43, rfl⟩
abbrev main_call0_c_7 : Ref sig .tc := ⟨.hbm, 44, rfl⟩
abbrev main_call0_v27 : Ref sig .tc := ⟨.hbm, 45, rfl⟩
abbrev main_call0_v28 : Ref sig .tc := ⟨.hbm, 46, rfl⟩
abbrev main_call0_v29 : Ref sig .tc := ⟨.hbm, 47, rfl⟩
abbrev main_call0_v30 : Ref sig .tc := ⟨.hbm, 48, rfl⟩
abbrev main_call0_v31 : Ref sig .tc := ⟨.hbm, 49, rfl⟩
abbrev main_call0_v32 : Ref sig .tc := ⟨.hbm, 50, rfl⟩
abbrev main_call0_c_8 : Ref sig .tc := ⟨.hbm, 51, rfl⟩
abbrev main_call0_v33 : Ref sig .tc := ⟨.hbm, 52, rfl⟩
abbrev main_call0_v34 : Ref sig .tc := ⟨.hbm, 53, rfl⟩
abbrev main_call0_v35 : Ref sig .tc := ⟨.hbm, 54, rfl⟩
abbrev main_call0_cst_9 : Ref sig .tc := ⟨.hbm, 55, rfl⟩
abbrev main_call0_v36 : Ref sig .tc := ⟨.hbm, 56, rfl⟩
abbrev main_call0_c_10 : Ref sig .tc := ⟨.hbm, 57, rfl⟩
abbrev main_call0_v37 : Ref sig .tc := ⟨.hbm, 58, rfl⟩
abbrev main_call0_v38 : Ref sig .tc := ⟨.hbm, 59, rfl⟩
abbrev main_call0_c_11 : Ref sig .tc := ⟨.hbm, 60, rfl⟩
abbrev main_call0_v39 : Ref sig .tc := ⟨.hbm, 61, rfl⟩
abbrev main_call0_v40 : Ref sig .tc := ⟨.hbm, 62, rfl⟩
abbrev main_call0_v41 : Ref sig .tc := ⟨.hbm, 63, rfl⟩
abbrev main_call0_v42 : Ref sig .tc := ⟨.hbm, 64, rfl⟩
abbrev main_call0_v43 : Ref sig .tc := ⟨.hbm, 65, rfl⟩
abbrev main_v0_1 : Ref sig .tc := ⟨.hbm, 66, rfl⟩
abbrev main_v0_0 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S4x262144 : S_.BroadcastsInDim S4x262144 (![] : Fin 0 → Fin S4x262144.rank)
  bcast_S_S4096 : S_.BroadcastsInDim S4096 (![] : Fin 0 → Fin S4096.rank)
  bcast_S262144_S262144x1_0 : S262144.BroadcastsInDim S262144x1 (![0] : Fin 1 → Fin S262144x1.rank)
  bcast_S4096_S4x4096_1 : S4096.BroadcastsInDim S4x4096 (![1] : Fin 1 → Fin S4x4096.rank)
  bcast_S_S4x4096 : S_.BroadcastsInDim S4x4096 (![] : Fin 0 → Fin S4x4096.rank)
  bcast_S_S262144 : S_.BroadcastsInDim S262144 (![] : Fin 0 → Fin S262144.rank)
  bcast_S_S4x16777216 : S_.BroadcastsInDim S4x16777216 (![] : Fin 0 → Fin S4x16777216.rank)
  shapeCasts_S4x16777216_S4x4096x4096 : S4x16777216.ShapeCasts S4x4096x4096
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4x256x4096_S1x256x4096_0_0_0 : ∀ a, (![0, 0, 0] : Fin 3 → Nat) a + S1x256x4096.size a ≤ S4x256x4096.size a
  h_S1x256x4096 : 0 < S1x256x4096.numel
  shapeCasts_S1x256x4096_S256x4096 : S1x256x4096.ShapeCasts S256x4096
  inb_S256x512_S256x128_0_0 : ∀ a, (![0, 0] : Fin 2 → Nat) a + S256x128.size a ≤ S256x512.size a
  h_S256x128 : 0 < S256x128.numel
  inb_S4x256x4096_S1x256x4096_1_0_0 : ∀ a, (![1, 0, 0] : Fin 3 → Nat) a + S1x256x4096.size a ≤ S4x256x4096.size a
  inb_S256x512_S256x128_0_128 : ∀ a, (![0, 128] : Fin 2 → Nat) a + S256x128.size a ≤ S256x512.size a
  inb_S4x256x4096_S1x256x4096_2_0_0 : ∀ a, (![2, 0, 0] : Fin 3 → Nat) a + S1x256x4096.size a ≤ S4x256x4096.size a
  inb_S256x512_S256x128_0_256 : ∀ a, (![0, 256] : Fin 2 → Nat) a + S256x128.size a ≤ S256x512.size a
  inb_S4x256x4096_S1x256x4096_3_0_0 : ∀ a, (![3, 0, 0] : Fin 3 → Nat) a + S1x256x4096.size a ≤ S4x256x4096.size a
  inb_S256x512_S256x128_0_384 : ∀ a, (![0, 384] : Fin 2 → Nat) a + S256x128.size a ≤ S256x512.size a
  scatter_S4x4096_S262144x1_S4x262144_0_1_1_1_wf : ScatterDims.WF S4x4096 S262144x1 S4x262144 [0] [1] [1] 1
  gather_S4x4096_S262144x1_S4x262144_0_1_n_n_1_1_41_wf : GatherDims.WF S4x4096 S262144x1 S4x262144 [0] [1] [] [1] [] 1 ![4, 1]
  scatter_S4x16777216_S262144x1_S4x262144_0_1_1_1_wf : ScatterDims.WF S4x16777216 S262144x1 S4x262144 [0] [1] [1] 1
  dot_S4096x512_S512x128_S4096x128_1_0_0_1_n_n_wf : DotDims.WF S4096x512 S512x128 S4096x128 [1] [0] [0] [1] [] []
  dot_S256x4096_S4096x128_S256x128_1_0_0_1_n_n_wf : DotDims.WF S256x4096 S4096x128 S256x128 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x512.size a
  hwx0_0 : ∀ i : grid0.Coords, EltTy.bits .f32 = 32 ∨ (Rect.block (s := S4096x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x128.size a
  hwx0_2 : ∀ i : grid0.Coords, EltTy.bits .f32 = 32 ∨ (Rect.block (s := S4096x128) S4096x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x256x4096.size a ≤ S4x4096x4096.size a
  hwx1_0 : ∀ i : grid1.Coords, EltTy.bits .f32 = 32 ∨ (Rect.block (s := S4x4096x4096) S4x256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .f32 = 32 ∨ (Rect.block (s := S4096x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S4096x512.size a
  hwx1_2 : ∀ i : grid1.Coords, EltTy.bits .f32 = 32 ∨ (Rect.block (s := S4096x512) S256x512.size (cc1_transform_2 i) (hinb1_2 i)).WholeWords (EltTy.packing .f32)

variable [Facts₀]

def scatter_S4x4096_S262144x1_S4x262144_0_1_1_1 : ScatterDims S4x4096 S262144x1 S4x262144 where
  updateWindowDims := [0]
  insertedWindowDims := [1]
  scatterDimsToOperandDims := [1]
  indexVectorDim := 1
  wf := scatter_S4x4096_S262144x1_S4x262144_0_1_1_1_wf
def gather_S4x4096_S262144x1_S4x262144_0_1_n_n_1_1_41 : GatherDims S4x4096 S262144x1 S4x262144 where
  offsetDims := [0]
  collapsedSliceDims := [1]
  operandBatchingDims := []
  startIndicesBatchingDims := []
  startIndexMap := [1]
  indexVectorDim := 1
  sliceSizes := ![4, 1]
  wf := gather_S4x4096_S262144x1_S4x262144_0_1_n_n_1_1_41_wf
def scatter_S4x16777216_S262144x1_S4x262144_0_1_1_1 : ScatterDims S4x16777216 S262144x1 S4x262144 where
  updateWindowDims := [0]
  insertedWindowDims := [1]
  scatterDimsToOperandDims := [1]
  indexVectorDim := 1
  wf := scatter_S4x16777216_S262144x1_S4x262144_0_1_1_1_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_arg0) S4096x512.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S4096x128.size cc0_transform_2 reads0_2 true false 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0_1) S4x256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v4) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S256x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x512 : Shape := ⟨2, ![4096, 512]⟩
abbrev S512x128 : Shape := ⟨2, ![512, 128]⟩
abbrev S4x262144 : Shape := ⟨2, ![4, 262144]⟩
abbrev S2x262144 : Shape := ⟨2, ![2, 262144]⟩
abbrev S4096x128 : Shape := ⟨2, ![4096, 128]⟩
abbrev S1x262144 : Shape := ⟨2, ![1, 262144]⟩
abbrev S262144 : Shape := ⟨1, ![262144]⟩
abbrev S_ : Shape := ⟨0, ![]⟩
abbrev S4096 : Shape := ⟨1, ![4096]⟩
abbrev S262144x1 : Shape := ⟨2, ![262144, 1]⟩
abbrev S4x4096 : Shape := ⟨2, ![4, 4096]⟩
abbrev S262144x128 : Shape := ⟨2, ![262144, 128]⟩
abbrev S1x4096 : Shape := ⟨2, ![1, 4096]⟩
abbrev S4096x1 : Shape := ⟨2, ![4096, 1]⟩
abbrev S4096x4096 : Shape := ⟨2, ![4096, 4096]⟩
abbrev S262144x2 : Shape := ⟨2, ![262144, 2]⟩
abbrev S1x4096x4096 : Shape := ⟨3, ![1, 4096, 4096]⟩
abbrev S4x4096x4096 : Shape := ⟨3, ![4, 4096, 4096]⟩

abbrev nBuf : Space → Nat
  | .hbm => 281
  | .vmem => 0
  | .smem => 0
  | _ => 0

abbrev hbmTy0_0 (i : Nat) : BufTy := match i % 128 with
  | 0 => ⟨S4096x512, .f32⟩
  | 1 => ⟨S512x128, .f32⟩
  | 2 => ⟨S4x262144, .f32⟩
  | 3 => ⟨S2x262144, .i32⟩
  | 4 => ⟨S4096x128, .f32⟩
  | 5 => ⟨S1x262144, .i32⟩
  | 6 => ⟨S262144, .i32⟩
  | 7 => ⟨S1x262144, .i32⟩
  | 8 => ⟨S262144, .i32⟩
  | 9 => ⟨S_, .f32⟩
  | 10 => ⟨S_, .f32⟩
  | 11 => ⟨S4x262144, .f32⟩
  | 12 => ⟨S4x262144, .i1⟩
  | 13 => ⟨S_, .f32⟩
  | 14 => ⟨S4x262144, .f32⟩
  | 15 => ⟨S4x262144, .f32⟩
  | 16 => ⟨S4x262144, .f32⟩
  | 17 => ⟨S4x262144, .i1⟩
  | 18 => ⟨S_, .f32⟩
  | 19 => ⟨S4x262144, .f32⟩
  | 20 => ⟨S4x262144, .i1⟩
  | 21 => ⟨S4x262144, .i1⟩
  | 22 => ⟨S_, .f32⟩
  | 23 => ⟨S_, .f32⟩
  | 24 => ⟨S4x262144, .f32⟩
  | 25 => ⟨S4x262144, .f32⟩
  | 26 => ⟨S4x262144, .f32⟩
  | 27 => ⟨S_, .f32⟩
  | 28 => ⟨S4x262144, .f32⟩
  | 29 => ⟨S4x262144, .f32⟩
  | 30 => ⟨S_, .f32⟩
  | 31 => ⟨S4096, .f32⟩
  | 32 => ⟨S262144x1, .i32⟩
  | 33 => ⟨S4x4096, .f32⟩
  | 34 => ⟨S4x4096, .f32⟩
  | 35 => ⟨S_, .f32⟩
  | 36 => ⟨S4x4096, .f32⟩
  | 37 => ⟨S4x4096, .i1⟩
  | 38 => ⟨S_, .f32⟩
  | 39 => ⟨S_, .f32⟩
  | 40 => ⟨S4x4096, .f32⟩
  | 41 => ⟨S4x4096, .f32⟩
  | 42 => ⟨S_, .i32⟩
  | 43 => ⟨S262144, .i32⟩
  | 44 => ⟨S262144, .i1⟩
  | 45 => ⟨S_, .i32⟩
  | 46 => ⟨S262144, .i32⟩
  | 47 => ⟨S262144, .i32⟩
  | 48 => ⟨S262144, .i32⟩
  | 49 => ⟨S262144x1, .i32⟩
  | 50 => ⟨S262144x128, .f32⟩
  | 51 => ⟨S1x262144, .f32⟩
  | 52 => ⟨S262144, .f32⟩
  | 53 => ⟨S262144x1, .f32⟩
  | 54 => ⟨S262144x128, .f32⟩
  | 55 => ⟨S262144x128, .f32⟩
  | 56 => ⟨S_, .f32⟩
  | 57 => ⟨S4096x128, .f32⟩
  | 58 => ⟨S262144x1, .i32⟩
  | 59 => ⟨S4096x128, .f32⟩
  | 60 => ⟨S1x4096, .f32⟩
  | 61 => ⟨S4096, .f32⟩
  | 62 => ⟨S4096x1, .f32⟩
  | 63 => ⟨S4096x128, .f32⟩
  | 64 => ⟨S4096x128, .f32⟩
  | 65 => ⟨S_, .f32⟩
  | 66 => ⟨S4096x128, .f32⟩
  | 67 => ⟨S4096x128, .i1⟩
  | 68 => ⟨S_, .f32⟩
  | 69 => ⟨S4096x128, .f32⟩
  | 70 => ⟨S4096x128, .i1⟩
  | 71 => ⟨S_, .f32⟩
  | 72 => ⟨S_, .f32⟩
  | 73 => ⟨S4096x128, .f32⟩
  | 74 => ⟨S4096x128, .f32⟩
  | 75 => ⟨S4096x128, .f32⟩
  | 76 => ⟨S_, .f32⟩
  | 77 => ⟨S4096x128, .f32⟩
  | 78 => ⟨S4096x128, .f32⟩
  | 79 => ⟨S4096x128, .f32⟩
  | 80 => ⟨S_, .f32⟩
  | 81 => ⟨S4096x4096, .f32⟩
  | 82 => ⟨S1x262144, .f32⟩
  | 83 => ⟨S262144, .f32⟩
  | 84 => ⟨S_, .i32⟩
  | 85 => ⟨S262144, .i32⟩
  | 86 => ⟨S262144, .i1⟩
  | 87 => ⟨S_, .i32⟩
  | 88 => ⟨S262144, .i32⟩
  | 89 => ⟨S262144, .i32⟩
  | 90 => ⟨S262144, .i32⟩
  | 91 => ⟨S_, .i32⟩
  | 92 => ⟨S262144, .i32⟩
  | 93 => ⟨S262144, .i1⟩
  | 94 => ⟨S_, .i32⟩
  | 95 => ⟨S262144, .i32⟩
  | 96 => ⟨S262144, .i32⟩
  | 97 => ⟨S262144, .i32⟩
  | 98 => ⟨S262144x1, .i32⟩
  | 99 => ⟨S262144x1, .i32⟩
  | 100 => ⟨S262144x2, .i32⟩
  | 101 => ⟨S4096x4096, .f32⟩
  | 102 => ⟨S1x4096, .f32⟩
  | 103 => ⟨S4096, .f32⟩
  | 104 => ⟨S4096x1, .f32⟩
  | 105 => ⟨S4096x4096, .f32⟩
  | 106 => ⟨S4096x4096, .f32⟩
  | 107 => ⟨S1x262144, .f32⟩
  | 108 => ⟨S262144, .f32⟩
  | 109 => ⟨S262144x1, .f32⟩
  | 110 => ⟨S262144x128, .f32⟩
  | 111 => ⟨S262144x128, .f32⟩
  | 112 => ⟨S_, .f32⟩
  | 113 => ⟨S4096x128, .f32⟩
  | 114 => ⟨S262144x1, .i32⟩
  | 115 => ⟨S4096x128, .f32⟩
  | 116 => ⟨S1x4096, .f32⟩
  | 117 => ⟨S4096, .f32⟩
  | 118 => ⟨S4096x1, .f32⟩
  | 119 => ⟨S4096x128, .f32⟩
  | 120 => ⟨S4096x128, .f32⟩
  | 121 => ⟨S_, .f32⟩
  | 122 => ⟨S4096x128, .f32⟩
  | 123 => ⟨S4096x128, .i1⟩
  | 124 => ⟨S_, .f32⟩
  | 125 => ⟨S4096x128, .f32⟩
  | 126 => ⟨S4096x128, .i1⟩
  | 127 => ⟨S_, .f32⟩
  | _ => ⟨S4096x512, .f32⟩

abbrev hbmTy0_1 (i : Nat) : BufTy := match i % 128 with
  | 0 => ⟨S_, .f32⟩
  | 1 => ⟨S4096x128, .f32⟩
  | 2 => ⟨S4096x128, .f32⟩
  | 3 => ⟨S4096x128, .f32⟩
  | 4 => ⟨S_, .f32⟩
  | 5 => ⟨S4096x128, .f32⟩
  | 6 => ⟨S4096x128, .f32⟩
  | 7 => ⟨S4096x128, .f32⟩
  | 8 => ⟨S_, .f32⟩
  | 9 => ⟨S4096x4096, .f32⟩
  | 10 => ⟨S1x262144, .f32⟩
  | 11 => ⟨S262144, .f32⟩
  | 12 => ⟨S_, .i32⟩
  | 13 => ⟨S262144, .i32⟩
  | 14 => ⟨S262144, .i1⟩
  | 15 => ⟨S_, .i32⟩
  | 16 => ⟨S262144, .i32⟩
  | 17 => ⟨S262144, .i32⟩
  | 18 => ⟨S262144, .i32⟩
  | 19 => ⟨S_, .i32⟩
  | 20 => ⟨S262144, .i32⟩
  | 21 => ⟨S262144, .i1⟩
  | 22 => ⟨S_, .i32⟩
  | 23 => ⟨S262144, .i32⟩
  | 24 => ⟨S262144, .i32⟩
  | 25 => ⟨S262144, .i32⟩
  | 26 => ⟨S262144x1, .i32⟩
  | 27 => ⟨S262144x1, .i32⟩
  | 28 => ⟨S262144x2, .i32⟩
  | 29 => ⟨S4096x4096, .f32⟩
  | 30 => ⟨S1x4096, .f32⟩
  | 31 => ⟨S4096, .f32⟩
  | 32 => ⟨S4096x1, .f32⟩
  | 33 => ⟨S4096x4096, .f32⟩
  | 34 => ⟨S4096x4096, .f32⟩
  | 35 => ⟨S1x262144, .f32⟩
  | 36 => ⟨S262144, .f32⟩
  | 37 => ⟨S262144x1, .f32⟩
  | 38 => ⟨S262144x128, .f32⟩
  | 39 => ⟨S262144x128, .f32⟩
  | 40 => ⟨S_, .f32⟩
  | 41 => ⟨S4096x128, .f32⟩
  | 42 => ⟨S262144x1, .i32⟩
  | 43 => ⟨S4096x128, .f32⟩
  | 44 => ⟨S1x4096, .f32⟩
  | 45 => ⟨S4096, .f32⟩
  | 46 => ⟨S4096x1, .f32⟩
  | 47 => ⟨S4096x128, .f32⟩
  | 48 => ⟨S4096x128, .f32⟩
  | 49 => ⟨S_, .f32⟩
  | 50 => ⟨S4096x128, .f32⟩
  | 51 => ⟨S4096x128, .i1⟩
  | 52 => ⟨S_, .f32⟩
  | 53 => ⟨S4096x128, .f32⟩
  | 54 => ⟨S4096x128, .i1⟩
  | 55 => ⟨S_, .f32⟩
  | 56 => ⟨S_, .f32⟩
  | 57 => ⟨S4096x128, .f32⟩
  | 58 => ⟨S4096x128, .f32⟩
  | 59 => ⟨S4096x128, .f32⟩
  | 60 => ⟨S_, .f32⟩
  | 61 => ⟨S4096x128, .f32⟩
  | 62 => ⟨S4096x128, .f32⟩
  | 63 => ⟨S4096x128, .f32⟩
  | 64 => ⟨S_, .f32⟩
  | 65 => ⟨S4096x4096, .f32⟩
  | 66 => ⟨S1x262144, .f32⟩
  | 67 => ⟨S262144, .f32⟩
  | 68 => ⟨S_, .i32⟩
  | 69 => ⟨S262144, .i32⟩
  | 70 => ⟨S262144, .i1⟩
  | 71 => ⟨S_, .i32⟩
  | 72 => ⟨S262144, .i32⟩
  | 73 => ⟨S262144, .i32⟩
  | 74 => ⟨S262144, .i32⟩
  | 75 => ⟨S_, .i32⟩
  | 76 => ⟨S262144, .i32⟩
  | 77 => ⟨S262144, .i1⟩
  | 78 => ⟨S_, .i32⟩
  | 79 => ⟨S262144, .i32⟩
  | 80 => ⟨S262144, .i32⟩
  | 81 => ⟨S262144, .i32⟩
  | 82 => ⟨S262144x1, .i32⟩
  | 83 => ⟨S262144x1, .i32⟩
  | 84 => ⟨S262144x2, .i32⟩
  | 85 => ⟨S4096x4096, .f32⟩
  | 86 => ⟨S1x4096, .f32⟩
  | 87 => ⟨S4096, .f32⟩
  | 88 => ⟨S4096x1, .f32⟩
  | 89 => ⟨S4096x4096, .f32⟩
  | 90 => ⟨S4096x4096, .f32⟩
  | 91 => ⟨S1x262144, .f32⟩
  | 92 => ⟨S262144, .f32⟩
  | 93 => ⟨S262144x1, .f32⟩
  | 94 => ⟨S262144x128, .f32⟩
  | 95 => ⟨S262144x128, .f32⟩
  | 96 => ⟨S_, .f32⟩
  | 97 => ⟨S4096x128, .f32⟩
  | 98 => ⟨S262144x1, .i32⟩
  | 99 => ⟨S4096x128, .f32⟩
  | 100 => ⟨S1x4096, .f32⟩
  | 101 => ⟨S4096, .f32⟩
  | 102 => ⟨S4096x1, .f32⟩
  | 103 => ⟨S4096x128, .f32⟩
  | 104 => ⟨S4096x128, .f32⟩
  | 105 => ⟨S_, .f32⟩
  | 106 => ⟨S4096x128, .f32⟩
  | 107 => ⟨S4096x128, .i1⟩
  | 108 => ⟨S_, .f32⟩
  | 109 => ⟨S4096x128, .f32⟩
  | 110 => ⟨S4096x128, .i1⟩
  | 111 => ⟨S_, .f32⟩
  | 112 => ⟨S_, .f32⟩
  | 113 => ⟨S4096x128, .f32⟩
  | 114 => ⟨S4096x128, .f32⟩
  | 115 => ⟨S4096x128, .f32⟩
  | 116 => ⟨S_, .f32⟩
  | 117 => ⟨S4096x128, .f32⟩
  | 118 => ⟨S4096x128, .f32⟩
  | 119 => ⟨S4096x128, .f32⟩
  | 120 => ⟨S_, .f32⟩
  | 121 => ⟨S4096x4096, .f32⟩
  | 122 => ⟨S1x262144, .f32⟩
  | 123 => ⟨S262144, .f32⟩
  | 124 => ⟨S_, .i32⟩
  | 125 => ⟨S262144, .i32⟩
  | 126 => ⟨S262144, .i1⟩
  | 127 => ⟨S_, .i32⟩
  | _ => ⟨S4096x512, .f32⟩

abbrev hbmTy0_2 (i : Nat) : BufTy := match i % 128 with
  | 0 => ⟨S262144, .i32⟩
  | 1 => ⟨S262144, .i32⟩
  | 2 => ⟨S262144, .i32⟩
  | 3 => ⟨S_, .i32⟩
  | 4 => ⟨S262144, .i32⟩
  | 5 => ⟨S262144, .i1⟩
  | 6 => ⟨S_, .i32⟩
  | 7 => ⟨S262144, .i32⟩
  | 8 => ⟨S262144, .i32⟩
  | 9 => ⟨S262144, .i32⟩
  | 10 => ⟨S262144x1, .i32⟩
  | 11 => ⟨S262144x1, .i32⟩
  | 12 => ⟨S262144x2, .i32⟩
  | 13 => ⟨S4096x4096, .f32⟩
  | 14 => ⟨S1x4096, .f32⟩
  | 15 => ⟨S4096, .f32⟩
  | 16 => ⟨S4096x1, .f32⟩
  | 17 => ⟨S4096x4096, .f32⟩
  | 18 => ⟨S4096x4096, .f32⟩
  | 19 => ⟨S4096x512, .f32⟩
  | 20 => ⟨S1x4096x4096, .f32⟩
  | 21 => ⟨S1x4096x4096, .f32⟩
  | 22 => ⟨S1x4096x4096, .f32⟩
  | 23 => ⟨S1x4096x4096, .f32⟩
  | 24 => ⟨S4x4096x4096, .f32⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_call1_v0 : Ref sig .tc := ⟨.hbm, 23, rfl⟩
abbrev main_call1_v1 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_call2_v0 : Ref sig .tc := ⟨.hbm, 39, rfl⟩
abbrev main_call2_v1 : Ref sig .tc := ⟨.hbm, 40, rfl⟩
abbrev main_v20 : Ref sig .tc := ⟨.hbm, 41, rfl⟩
abbrev main_c : Ref sig .tc := ⟨.hbm, 42, rfl⟩
abbrev main_v21 : Ref sig .tc := ⟨.hbm, 43, rfl⟩
abbrev main_v22 : Ref sig .tc := ⟨.hbm, 44, rfl⟩
abbrev main_c_6 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call3_cst : Ref sig .tc := ⟨.hbm, 65, rfl⟩
abbrev main_call3_v0 : Ref sig .tc := ⟨.hbm, 66, rfl⟩
abbrev main_call3_v1 : Ref sig .tc := ⟨.hbm, 67, rfl⟩
abbrev main_call3_cst_0 : Ref sig .tc := ⟨.hbm, 68, rfl⟩
abbrev main_call3_v2 : Ref sig .tc := ⟨.hbm, 69, rfl⟩
abbrev main_call3_v3 : Ref sig .tc := ⟨.hbm, 70, rfl⟩
abbrev main_call3_cst_1 : Ref sig .tc := ⟨.hbm, 71, rfl⟩
abbrev main_call3_call0_v0 : Ref sig .tc := ⟨.hbm, 72, rfl⟩
abbrev main_call3_call0_v1 : Ref sig .tc := ⟨.hbm, 73, rfl⟩
abbrev main_call3_v4 : Ref sig .tc := ⟨.hbm, 74, rfl⟩
abbrev main_call3_v5 : Ref sig .tc := ⟨.hbm, 75, rfl⟩
abbrev main_call3_cst_2 : Ref sig .tc := ⟨.hbm, 76, rfl⟩
abbrev main_call3_v6 : Ref sig .tc := ⟨.hbm, 77, rfl⟩
abbrev main_call3_v7 : Ref sig .tc := ⟨.hbm, 78, rfl⟩
abbrev main_v41 : Ref sig .tc := ⟨.hbm, 79, rfl⟩
abbrev main_cst_8 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_c_9 : Ref sig .tc := ⟨.hbm, 84, rfl⟩
abbrev main_v45 : Ref sig .tc := ⟨.hbm, 85, rfl⟩
abbrev main_v46 : Ref sig .tc := ⟨.hbm, 86, rfl⟩
abbrev main_c_10 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_c_11 : Ref sig .tc := ⟨.hbm, 91, rfl⟩
abbrev main_v50 : Ref sig .tc := ⟨.hbm, 92, rfl⟩
abbrev main_v51 : Ref sig .tc := ⟨.hbm, 93, rfl⟩
abbrev main_c_12 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_13 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_call4_cst : Ref sig .tc := ⟨.hbm, 121, rfl⟩
abbrev main_call4_v0 : Ref sig .tc := ⟨.hbm, 122, rfl⟩
abbrev main_call4_v1 : Ref sig .tc := ⟨.hbm, 123, rfl⟩
abbrev main_call4_cst_0 : Ref sig .tc := ⟨.hbm, 124, rfl⟩
abbrev main_call4_v2 : Ref sig .tc := ⟨.hbm, 125, rfl⟩
abbrev main_call4_v3 : Ref sig .tc := ⟨.hbm, 126, rfl⟩
abbrev main_call4_cst_1 : Ref sig .tc := ⟨.hbm, 127, rfl⟩
abbrev main_call4_call0_v0 : Ref sig .tc := ⟨.hbm, 128, rfl⟩
abbrev main_call4_call0_v1 : Ref sig .tc := ⟨.hbm, 129, rfl⟩
abbrev main_call4_v4 : Ref sig .tc := ⟨.hbm, 130, rfl⟩
abbrev main_call4_v5 : Ref sig .tc := ⟨.hbm, 131, rfl⟩
abbrev main_call4_cst_2 : Ref sig .tc := ⟨.hbm, 132, rfl⟩
abbrev main_call4_v6 : Ref sig .tc := ⟨.hbm, 133, rfl⟩
abbrev main_call4_v7 : Ref sig .tc := ⟨.hbm, 134, rfl⟩
abbrev main_v77 : Ref sig .tc := ⟨.hbm, 135, rfl⟩
abbrev main_cst_14 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_c_15 : Ref sig .tc := ⟨.hbm, 140, rfl⟩
abbrev main_v81 : Ref sig .tc := ⟨.hbm, 141, rfl⟩
abbrev main_v82 : Ref sig .tc := ⟨.hbm, 142, rfl⟩
abbrev main_c_16 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_c_17 : Ref sig .tc := ⟨.hbm, 147, rfl⟩
abbrev main_v86 : Ref sig .tc := ⟨.hbm, 148, rfl⟩
abbrev main_v87 : Ref sig .tc := ⟨.hbm, 149, rfl⟩
abbrev main_c_18 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_cst_19 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_call5_cst : Ref sig .tc := ⟨.hbm, 177, rfl⟩
abbrev main_call5_v0 : Ref sig .tc := ⟨.hbm, 178, rfl⟩
abbrev main_call5_v1 : Ref sig .tc := ⟨.hbm, 179, rfl⟩
abbrev main_call5_cst_0 : Ref sig .tc := ⟨.hbm, 180, rfl⟩
abbrev main_call5_v2 : Ref sig .tc := ⟨.hbm, 181, rfl⟩
abbrev main_call5_v3 : Ref sig .tc := ⟨.hbm, 182, rfl⟩
abbrev main_call5_cst_1 : Ref sig .tc := ⟨.hbm, 183, rfl⟩
abbrev main_call5_call0_v0 : Ref sig .tc := ⟨.hbm, 184, rfl⟩
abbrev main_call5_call0_v1 : Ref sig .tc := ⟨.hbm, 185, rfl⟩
abbrev main_call5_v4 : Ref sig .tc := ⟨.hbm, 186, rfl⟩
abbrev main_call5_v5 : Ref sig .tc := ⟨.hbm, 187, rfl⟩
abbrev main_call5_cst_2 : Ref sig .tc := ⟨.hbm, 188, rfl⟩
abbrev main_call5_v6 : Ref sig .tc := ⟨.hbm, 189, rfl⟩
abbrev main_call5_v7 : Ref sig .tc := ⟨.hbm, 190, rfl⟩
abbrev main_v113 : Ref sig .tc := ⟨.hbm, 191, rfl⟩
abbrev main_cst_20 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_c_21 : Ref sig .tc := ⟨.hbm, 196, rfl⟩
abbrev main_v117 : Ref sig .tc := ⟨.hbm, 197, rfl⟩
abbrev main_v118 : Ref sig .tc := ⟨.hbm, 198, rfl⟩
abbrev main_c_22 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_c_23 : Ref sig .tc := ⟨.hbm, 203, rfl⟩
abbrev main_v122 : Ref sig .tc := ⟨.hbm, 204, rfl⟩
abbrev main_v123 : Ref sig .tc := ⟨.hbm, 205, rfl⟩
abbrev main_c_24 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_cst_25 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_call6_cst : Ref sig .tc := ⟨.hbm, 233, rfl⟩
abbrev main_call6_v0 : Ref sig .tc := ⟨.hbm, 234, rfl⟩
abbrev main_call6_v1 : Ref sig .tc := ⟨.hbm, 235, rfl⟩
abbrev main_call6_cst_0 : Ref sig .tc := ⟨.hbm, 236, rfl⟩
abbrev main_call6_v2 : Ref sig .tc := ⟨.hbm, 237, rfl⟩
abbrev main_call6_v3 : Ref sig .tc := ⟨.hbm, 238, rfl⟩
abbrev main_call6_cst_1 : Ref sig .tc := ⟨.hbm, 239, rfl⟩
abbrev main_call6_call0_v0 : Ref sig .tc := ⟨.hbm, 240, rfl⟩
abbrev main_call6_call0_v1 : Ref sig .tc := ⟨.hbm, 241, rfl⟩
abbrev main_call6_v4 : Ref sig .tc := ⟨.hbm, 242, rfl⟩
abbrev main_call6_v5 : Ref sig .tc := ⟨.hbm, 243, rfl⟩
abbrev main_call6_cst_2 : Ref sig .tc := ⟨.hbm, 244, rfl⟩
abbrev main_call6_v6 : Ref sig .tc := ⟨.hbm, 245, rfl⟩
abbrev main_call6_v7 : Ref sig .tc := ⟨.hbm, 246, rfl⟩
abbrev main_v149 : Ref sig .tc := ⟨.hbm, 247, rfl⟩
abbrev main_cst_26 : Ref sig .tc := ⟨.hbm, 248, rfl⟩
abbrev main_v150 : Ref sig .tc := ⟨.hbm, 249, rfl⟩
abbrev main_v151 : Ref sig .tc := ⟨.hbm, 250, rfl⟩
abbrev main_v152 : Ref sig .tc := ⟨.hbm, 251, rfl⟩
abbrev main_c_27 : Ref sig .tc := ⟨.hbm, 252, rfl⟩
abbrev main_v153 : Ref sig .tc := ⟨.hbm, 253, rfl⟩
abbrev main_v154 : Ref sig .tc := ⟨.hbm, 254, rfl⟩
abbrev main_c_28 : Ref sig .tc := ⟨.hbm, 255, rfl⟩
abbrev main_v155 : Ref sig .tc := ⟨.hbm, 256, rfl⟩
abbrev main_v156 : Ref sig .tc := ⟨.hbm, 257, rfl⟩
abbrev main_v157 : Ref sig .tc := ⟨.hbm, 258, rfl⟩
abbrev main_c_29 : Ref sig .tc := ⟨.hbm, 259, rfl⟩
abbrev main_v158 : Ref sig .tc := ⟨.hbm, 260, rfl⟩
abbrev main_v159 : Ref sig .tc := ⟨.hbm, 261, rfl⟩
abbrev main_c_30 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_v169 : Ref sig .tc := ⟨.hbm, 272, rfl⟩
abbrev main_v170 : Ref sig .tc := ⟨.hbm, 273, rfl⟩
abbrev main_v171 : Ref sig .tc := ⟨.hbm, 274, rfl⟩
abbrev main_v172 : Ref sig .tc := ⟨.hbm, 275, rfl⟩
abbrev main_v173 : Ref sig .tc := ⟨.hbm, 276, rfl⟩
abbrev main_v174 : Ref sig .tc := ⟨.hbm, 277, rfl⟩
abbrev main_v175 : Ref sig .tc := ⟨.hbm, 278, rfl⟩
abbrev main_v176 : Ref sig .tc := ⟨.hbm, 279, rfl⟩
abbrev main_v177 : Ref sig .tc := ⟨.hbm, 280, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S4x262144 : S_.BroadcastsInDim S4x262144 (![] : Fin 0 → Fin S4x262144.rank)
  bcast_S_S4096 : S_.BroadcastsInDim S4096 (![] : Fin 0 → Fin S4096.rank)
  bcast_S262144_S262144x1_0 : S262144.BroadcastsInDim S262144x1 (![0] : Fin 1 → Fin S262144x1.rank)
  bcast_S4096_S4x4096_1 : S4096.BroadcastsInDim S4x4096 (![1] : Fin 1 → Fin S4x4096.rank)
  bcast_S_S4x4096 : S_.BroadcastsInDim S4x4096 (![] : Fin 0 → Fin S4x4096.rank)
  bcast_S_S262144 : S_.BroadcastsInDim S262144 (![] : Fin 0 → Fin S262144.rank)
  slices_S4x262144_S1x262144_0_0 : S4x262144.Slices ![0, 0] S1x262144
  bcast_S262144x1_S262144x128_0_1 : S262144x1.BroadcastsInDim S262144x128 (![0, 1] : Fin 2 → Fin S262144x128.rank)
  bcast_S_S4096x128 : S_.BroadcastsInDim S4096x128 (![] : Fin 0 → Fin S4096x128.rank)
  slices_S4x4096_S1x4096_0_0 : S4x4096.Slices ![0, 0] S1x4096
  shapeCasts_S1x4096_S4096 : S1x4096.ShapeCasts S4096
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S_S4096x4096 : S_.BroadcastsInDim S4096x4096 (![] : Fin 0 → Fin S4096x4096.rank)
  concatenates_S262144x1_S262144x1_S262144x2_d1 : Shape.Concatenates [S262144x1, S262144x1] S262144x2 1
  bcast_S4096x1_S4096x4096_0_1 : S4096x1.BroadcastsInDim S4096x4096 (![0, 1] : Fin 2 → Fin S4096x4096.rank)
  slices_S4x262144_S1x262144_1_0 : S4x262144.Slices ![1, 0] S1x262144
  slices_S4x4096_S1x4096_1_0 : S4x4096.Slices ![1, 0] S1x4096
  slices_S4x262144_S1x262144_2_0 : S4x262144.Slices ![2, 0] S1x262144
  slices_S4x4096_S1x4096_2_0 : S4x4096.Slices ![2, 0] S1x4096
  slices_S4x262144_S1x262144_3_0 : S4x262144.Slices ![3, 0] S1x262144
  slices_S4x4096_S1x4096_3_0 : S4x4096.Slices ![3, 0] S1x4096
  concatenates_S4096x128_S4096x128_S4096x128_S4096x128_S4096x512_d1 : Shape.Concatenates [S4096x128, S4096x128, S4096x128, S4096x128] S4096x512 1
  bcast_S4096x4096_S1x4096x4096_1_2 : S4096x4096.BroadcastsInDim S1x4096x4096 (![1, 2] : Fin 2 → Fin S1x4096x4096.rank)
  concatenates_S1x4096x4096_S1x4096x4096_S1x4096x4096_S1x4096x4096_S4x4096x4096_d0 : Shape.Concatenates [S1x4096x4096, S1x4096x4096, S1x4096x4096, S1x4096x4096] S4x4096x4096 0
  dot_S4096x512_S512x128_S4096x128_1_0_0_1_n_n_wf : DotDims.WF S4096x512 S512x128 S4096x128 [1] [0] [0] [1] [] []
  scatter_S4x4096_S262144x1_S4x262144_0_1_1_1_wf : ScatterDims.WF S4x4096 S262144x1 S4x262144 [0] [1] [1] 1
  gather_S4096x128_S262144x1_S262144x128_1_0_n_n_0_1_1128_wf : GatherDims.WF S4096x128 S262144x1 S262144x128 [1] [0] [] [0] [] 1 ![1, 128]
  scatter_S4096x128_S262144x1_S262144x128_1_0_0_1_wf : ScatterDims.WF S4096x128 S262144x1 S262144x128 [1] [0] [0] 1
  scatter_S4096x4096_S262144x2_S262144_n_01_01_1_wf : ScatterDims.WF S4096x4096 S262144x2 S262144 [] [0, 1] [0, 1] 1

variable [Facts₀]

def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def scatter_S4x4096_S262144x1_S4x262144_0_1_1_1 : ScatterDims S4x4096 S262144x1 S4x262144 where
  updateWindowDims := [0]
  insertedWindowDims := [1]
  scatterDimsToOperandDims := [1]
  indexVectorDim := 1
  wf := scatter_S4x4096_S262144x1_S4x262144_0_1_1_1_wf
def gather_S4096x128_S262144x1_S262144x128_1_0_n_n_0_1_1128 : GatherDims S4096x128 S262144x1 S262144x128 where
  offsetDims := [1]
  collapsedSliceDims := [0]
  operandBatchingDims := []
  startIndicesBatchingDims := []
  startIndexMap := [0]
  indexVectorDim := 1
  sliceSizes := ![1, 128]
  wf := gather_S4096x128_S262144x1_S262144x128_1_0_n_n_0_1_1128_wf
def scatter_S4096x128_S262144x1_S262144x128_1_0_0_1 : ScatterDims S4096x128 S262144x1 S262144x128 where
  updateWindowDims := [1]
  insertedWindowDims := [0]
  scatterDimsToOperandDims := [0]
  indexVectorDim := 1
  wf := scatter_S4096x128_S262144x1_S262144x128_1_0_0_1_wf
def scatter_S4096x4096_S262144x2_S262144_n_01_01_1 : ScatterDims S4096x4096 S262144x2 S262144 where
  updateWindowDims := []
  insertedWindowDims := [0, 1]
  scatterDimsToOperandDims := [0, 1]
  indexVectorDim := 1
  wf := scatter_S4096x4096_S262144x2_S262144_n_01_01_1_wf

class Facts : Prop extends Facts₀ where

variable [Facts]
-- ==== Proof.Spec.lean ====
/-
  The mathematics both programs compute, index by index, over the extended reals.

  A graph of 4096 nodes carries 262144 directed edges `(row e, col e)`; each of 4 channels gives every edge a logit.
  A logit becomes a weight `v` (leaky-relu, zeros sent far down, exponential, capped), a node's divisor `d` is the sum
  of the weights of the edges that leave it (1 where there is none), and the dense attention array holds, at
  `(channel, n, m)`, the summed weights of the edges `n → m` over `d` of `n`. The features `h = x · W` are then
  averaged along the edges with these normalised weights and passed through ELU.
  The two programs differ in WHERE they divide: one divides every edge weight by its row's divisor before it sums
  (and multiplies the dense attention array with `h`), the other sums first and divides once.  `attnK` / `outK` and
  `attnR` / `outR` spell the two orders; that they agree is a statement about finite sums of reals.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## Shapes -/

abbrev SX : Shape := ⟨2, ![4096, 512]⟩
abbrev SW : Shape := ⟨2, ![512, 128]⟩
abbrev SEV : Shape := ⟨2, ![4, 262144]⟩
abbrev SEI : Shape := ⟨2, ![2, 262144]⟩
abbrev SH : Shape := ⟨2, ![4096, 128]⟩
abbrev SA : Shape := ⟨3, ![4, 4096, 4096]⟩
abbrev SO : Shape := ⟨2, ![4096, 512]⟩

/-! ## The four float literals, as both programs print them -/

/-- the leaky-relu slope, 0.2 as an f32 word -/
abbrev litSlope : EReal := Ideal.ofBits .f32 0x3E4CCCCD#32
/-- −9·10¹⁵ as an f32 word -/
abbrev litNegBig : EReal := Ideal.ofBits .f32 0xD9FFCB9E#32
/-- 9·10¹⁵ as an f32 word -/
abbrev litBig : EReal := Ideal.ofBits .f32 0x59FFCB9E#32
/-- 1 as an f32 word -/
abbrev litOne : EReal := Ideal.ofBits .f32 0x3F800000#32

/-! ## One edge, one node -/

/-- leaky-relu on an extended real -/
def leaky (a : EReal) : EReal := if (0 : EReal) ≤ a then a else litSlope * a

/-- A logit to its weight: leaky-relu, a zero replaced by `litNegBig` (an extended real is never a NaN), the
    exponential, capped at `litBig`. -/
def vfun (a : EReal) : EReal := min (Ideal.exp (if leaky a = 0 then litNegBig else leaky a)) litBig

/-- ELU on an extended real. -/
def eluS (a : EReal) : EReal := if (0 : EReal) < a then a else Ideal.exp a - 1

/-- every entry of the edge table is a node number -/
def InRange (ei : IVec SEI 32) : Prop := ∀ i : SEI.Idx, (ei i).toNat < 4096

/-- the node an edge leaves -/
def rowN (ei : IVec SEI 32) (e : Fin 262144) : ℕ := (ei (ix2 (0 : Fin 2) e)).toNat
/-- the node an edge enters -/
def colN (ei : IVec SEI 32) (e : Fin 262144) : ℕ := (ei (ix2 (1 : Fin 2) e)).toNat
/-- the node an edge leaves, as a node (the last node for a number that is none) -/
def rowF (ei : IVec SEI 32) (e : Fin 262144) : Fin 4096 := ⟨min (rowN ei e) 4095, by omega⟩
/-- the node an edge enters, as a node (the last node for a number that is none) -/
def colF (ei : IVec SEI 32) (e : Fin 262144) : Fin 4096 := ⟨min (colN ei e) 4095, by omega⟩

/-- channel `c`'s weight of edge `e` -/
def vS (ev : SEV.Idx → EReal) (c : Fin 4) (e : Fin 262144) : EReal := vfun (ev (ix2 c e))

/-- the weights of the edges leaving node `n`, summed -/
def sumRow (ev : SEV.Idx → EReal) (ei : IVec SEI 32) (c : Fin 4) (n : Fin 4096) : EReal :=
  ∑ e ∈ Finset.univ.filter (fun e : Fin 262144 => rowN ei e = n.val), vS ev c e

/-- node `n`'s divisor: that sum, or one where it is zero -/
def dS (ev : SEV.Idx → EReal) (ei : IVec SEI 32) (c : Fin 4) (n : Fin 4096) : EReal :=
  if sumRow ev ei c n = 0 then litOne else sumRow ev ei c n

/-- the projected features: row `n` of `x` against column `o` of `W` -/
def hS (x : SX.Idx → EReal) (w : SW.Idx → EReal) (n : Fin 4096) (o : Fin 128) : EReal :=
  ∑ k : Fin 512, x (ix2 n k) * w (ix2 k o)

/-! ## Divide first, then sum -/

/-- the dense attention entry, each edge weight divided by its own row's divisor before the sum -/
def attnK (ev : SEV.Idx → EReal) (ei : IVec SEI 32) (c : Fin 4) (n m : Fin 4096) : EReal :=
  ∑ e ∈ Finset.univ.filter (fun e : Fin 262144 => rowN ei e = n.val ∧ colN ei e = m.val),
    Ideal.div (vS ev c e) (dS ev ei c (rowF ei e))

/-- the aggregated feature: the dense attention row against a column of `h`, before ELU -/
def aggK (x : SX.Idx → EReal) (w : SW.Idx → EReal) (ev : SEV.Idx → EReal) (ei : IVec SEI 32)
    (c : Fin 4) (n : Fin 4096) (o : Fin 128) : EReal :=
  ∑ m : Fin 4096, attnK ev ei c n m * hS x w m o

/-! ## Sum first, then divide -/

/-- the dense attention entry, the summed weights of the edges `n → m` over the divisor of `n` -/
def attnR (ev : SEV.Idx → EReal) (ei : IVec SEI 32) (c : Fin 4) (n m : Fin 4096) : EReal :=
  Ideal.div (∑ e ∈ Finset.univ.filter (fun e : Fin 262144 => rowN ei e = n.val ∧ colN ei e = m.val), vS ev c e)
    (dS ev ei c n)

/-- the aggregated feature: the weighted features of the edges leaving `n`, summed, over the divisor of `n` -/
def aggR (x : SX.Idx → EReal) (w : SW.Idx → EReal) (ev : SEV.Idx → EReal) (ei : IVec SEI 32)
    (c : Fin 4) (n : Fin 4096) (o : Fin 128) : EReal :=
  Ideal.div (∑ e ∈ Finset.univ.filter (fun e : Fin 262144 => rowN ei e = n.val), vS ev c e * hS x w (colF ei e) o)
    (dS ev ei c n)

/-! ## The output's columns: channel and feature -/

/-- the channel of output column `j` (four blocks of 128 columns) -/
def chanOf (j : Fin 512) : Fin 4 := ⟨j.val / 128, by have := j.isLt; omega⟩
/-- the feature of output column `j` -/
def featOf (j : Fin 512) : Fin 128 := ⟨j.val % 128, Nat.mod_lt _ (by decide)⟩

end Cert.Spec

end
-- ==== Proof.PreFacts.lean ====
/-
  The precondition, read back.  The printed predicate says, entry by entry, that the absolute value of every entry of
  `x`, of `W` and of the edge logits lies below `+∞`, and that every entry of the edge table is, read signed, at
  least 0 and below 4096; each "for all entries" is a conjunction over the whole array.  Over the extended reals an
  entry whose absolute value is below `+∞` is neither infinity, so it is a real number; a 32-bit word between 0 and
  4095 read signed has that same value read unsigned.
-/
import proofs.«412460_j8796093022366_3_alg».proof.Pre_finite_inputs
import proofs.«412460_j8796093022366_3_alg».proof.Proof.Spec
import Idealize.ShloMosaic.Lib.ReduceAll
import Idealize.ShloMosaic.Lib.StableHlo.Predicate
import Idealize.ShloMosaic.Lib.ValueIdx
import Idealize.ShloMosaic.PureOps.Ideal
import Idealize.ShloMosaic.PureOps.Ideal.Laws

noncomputable section

namespace Cert.PreFacts

open Idealize.ShloMosaic

/-- An extended real whose absolute value lies strictly below `+∞` is a real number. -/
theorem real_of_abs_lt_top (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a using EReal.rec with
  | bot => simp [Ideal.cmp] at h
  | coe r => exact ⟨r, rfl⟩
  | top => simp [Ideal.cmp] at h

/-- A 32-bit word that is, read signed, at least 0 and below 4096 has a value below 4096. -/
theorem toNat_lt_of_cmp (z : BitVec 32) (h0 : IntOp.cmpi .sge z 0#32 = 1#1)
    (h1 : IntOp.cmpi .slt z 4096#32 = 1#1) : z.toNat < 4096 := by
  simp only [IntOp.cmpi, StableHlo.Predicate.ofBool_eq_one_iff, BitVec.sle, BitVec.slt, decide_eq_true_eq] at h0 h1
  have e0 : (0#32 : BitVec 32).toInt = 0 := by decide
  have e1 : (4096#32 : BitVec 32).toInt = 4096 := by decide
  rw [e0] at h0; rw [e1] at h1
  rw [BitVec.toInt_eq_toNat_cond] at h0 h1
  split_ifs at h0 h1 <;> omega

/-- The shape of a scalar has exactly one index. -/
instance : Subsingleton Cert.Pre_finite_inputs.S_.Idx := ⟨fun a b => funext fun d => d.elim0⟩

/-- The precondition read back: where it holds, every entry of `x` and of `W` is a real number and every entry of
    the edge table is a node number. -/
theorem facts_of_pre [Cert.Pre_finite_inputs.Facts]
    (x : FVec Ideal Cert.Pre_finite_inputs.S4096x512 .f32) (w : FVec Ideal Cert.Pre_finite_inputs.S512x128 .f32)
    (ev : FVec Ideal Cert.Pre_finite_inputs.S4x262144 .f32) (ei : IVec Cert.Pre_finite_inputs.S2x262144 32)
    (h : Cert.Pre_finite_inputs.fn (F := Ideal) x w ev ei = fun _ => 1#1) :
    (∀ i, ∃ r : ℝ, x i = (r : EReal)) ∧ (∀ i, ∃ r : ℝ, w i = (r : EReal)) ∧ Cert.Spec.InRange ei := by
  have h0 := congrFun h ValueIdx.ix0
  dsimp only [Cert.Pre_finite_inputs.fn, Cert.Pre_finite_inputs.fn_part1] at h0
  -- a conjunction of scalars, read at the one index, is the conjunction of the words
  have andi_at : ∀ (a b : IVec Cert.Pre_finite_inputs.S_ 1) (j : Cert.Pre_finite_inputs.S_.Idx),
      andi a b j = IntOp.andi (a j) (b j) := fun _ _ _ => rfl
  simp only [andi_at, IntOp.andi_eq_one] at h0
  obtain ⟨⟨⟨hx, hw⟩, _⟩, hei⟩ := h0
  refine ⟨fun i => ?_, fun i => ?_, fun i => ?_⟩
  · exact real_of_abs_lt_top (x i) (Host.reduce_andi_all _ _ _ _ _ hx i)
  · exact real_of_abs_lt_top (w i) (Host.reduce_andi_all _ _ _ _ _ hw i)
  · have hi : IntOp.andi (IntOp.cmpi .sge (ei i) 0#32) (IntOp.cmpi .slt (ei i) 4096#32) = 1#1 :=
      Host.reduce_andi_all _ _ _ _ _ hei i
    obtain ⟨a, b⟩ := IntOp.andi_eq_one.1 hi
    exact toNat_lt_of_cmp (ei i) a b

end Cert.PreFacts

end
-- ==== Proof.Bridge.lean ====
/-
  Dividing each edge weight by its row's divisor before the sum, or summing first and dividing once: the two agree,
  because every weight is a nonnegative real, every divisor a nonzero real, and every projected feature a real, so
  both sides are finite sums of reals, where the reciprocal of the divisor is a common factor.
-/
import Idealize.ShloMosaic.PureOps.Ideal
import Idealize.ShloMosaic.PureOps.Ideal.Laws
import Idealize.ShloMosaic.Lib.ValueIdx
import Mathlib.Algebra.BigOperators.Group.Finset.Basic
import Mathlib.Algebra.BigOperators.Ring.Finset
import Mathlib.Data.EReal.Basic
import proofs.«412460_j8796093022366_3_alg».proof.Proof.Spec

noncomputable section

open scoped BigOperators

namespace Cert.Bridge

open Idealize.ShloMosaic Idealize.ShloMosaic.ValueIdx Cert.Spec

/-! ## The two literals -/

/-- the word `0x3F800000` denotes one -/
theorem litOne_eq : litOne = 1 := by
  simp [litOne, Ideal.ofBits, Ideal.ieee, -EReal.coe_mul]; norm_num

/-- the cap `0x59FFCB9E` denotes a positive real -/
theorem litBig_real : ∃ b : ℝ, 0 < b ∧ litBig = (b : EReal) := by
  simp [litBig, Ideal.ofBits, Ideal.ieee, -EReal.coe_mul]

/-! ## Reals inside the extended reals -/

/-- the coercion of a finite sum of reals is the sum of the coercions -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-- the exponential is nowhere negative -/
theorem exp_nonneg (a : EReal) : 0 ≤ Ideal.exp a := by
  induction a using EReal.rec with
  | bot => rw [Ideal.exp_bot]
  | top => rw [Ideal.exp_top]; exact le_top
  | coe r => rw [Ideal.exp_coe]; exact_mod_cast (Real.exp_pos r).le

/-- a weight is a nonnegative real: the exponential is at least zero, the cap a positive real -/
theorem vfun_real (a : EReal) : ∃ r : ℝ, 0 ≤ r ∧ vfun a = (r : EReal) := by
  obtain ⟨b, hb, hB⟩ := litBig_real
  have h0 : 0 ≤ vfun a := by
    unfold vfun
    refine le_min (exp_nonneg _) ?_
    rw [hB]; exact_mod_cast hb.le
  have h1 : vfun a ≤ (b : EReal) := by
    unfold vfun
    rw [← hB]; exact min_le_right _ _
  have hT : vfun a ≠ ⊤ := ne_top_of_le_ne_top (EReal.coe_ne_top b) h1
  have hB' : vfun a ≠ ⊥ := ne_bot_of_le_ne_bot EReal.zero_ne_bot h0
  exact ⟨(vfun a).toReal, EReal.toReal_nonneg h0, (EReal.coe_toReal hT hB').symm⟩

/-- channel `c`'s weight of edge `e`, as a real -/
def vR (ev : SEV.Idx → EReal) (c : Fin 4) (e : Fin 262144) : ℝ := (vS ev c e).toReal

/-- the weight is the coercion of its real value -/
theorem vS_eq (ev : SEV.Idx → EReal) (c : Fin 4) (e : Fin 262144) : vS ev c e = (vR ev c e : EReal) := by
  obtain ⟨r, _, hr⟩ := vfun_real (ev (ix2 c e))
  unfold vR vS
  rw [hr, EReal.toReal_coe]

/-- the weight is not negative -/
theorem vR_nonneg (ev : SEV.Idx → EReal) (c : Fin 4) (e : Fin 262144) : 0 ≤ vR ev c e := by
  obtain ⟨r, h0, hr⟩ := vfun_real (ev (ix2 c e))
  unfold vR vS
  rw [hr, EReal.toReal_coe]; exact h0

/-- the row sum is the coercion of the real row sum -/
theorem sumRow_eq (ev : SEV.Idx → EReal) (ei : IVec SEI 32) (c : Fin 4) (n : Fin 4096) :
    sumRow ev ei c n
      = ((∑ e ∈ Finset.univ.filter (fun e : Fin 262144 => rowN ei e = n.val), vR ev c e : ℝ) : EReal) := by
  unfold sumRow
  rw [← coe_sum]
  exact Finset.sum_congr rfl (fun e _ => vS_eq ev c e)

/-- a node's divisor is a real different from zero: one where the row sum vanishes, the row sum elsewhere -/
theorem dS_real (ev : SEV.Idx → EReal) (ei : IVec SEI 32) (c : Fin 4) (n : Fin 4096) :
    ∃ d : ℝ, d ≠ 0 ∧ dS ev ei c n = (d : EReal) := by
  unfold dS
  split_ifs with h
  · exact ⟨1, one_ne_zero, by rw [litOne_eq, EReal.coe_one]⟩
  · rw [sumRow_eq] at h ⊢
    refine ⟨_, ?_, rfl⟩
    intro h'
    apply h
    rw [h', EReal.coe_zero]

/-- a projected feature is a real when every entry of `x` and of `W` is -/
theorem hS_real (x : SX.Idx → EReal) (w : SW.Idx → EReal)
    (hx : ∀ i, ∃ r : ℝ, x i = (r : EReal)) (hw : ∀ i, ∃ r : ℝ, w i = (r : EReal)) (n : Fin 4096) (o : Fin 128) :
    ∃ r : ℝ, hS x w n o = (r : EReal) := by
  choose xr hxr using hx
  choose wr hwr using hw
  refine ⟨∑ k : Fin 512, xr (ix2 n k) * wr (ix2 k o), ?_⟩
  unfold hS
  rw [← coe_sum]
  refine Finset.sum_congr rfl (fun k _ => ?_)
  rw [hxr, hwr, EReal.coe_mul]

/-- dividing by a nonzero real is multiplying by its reciprocal -/
theorem div_real (a : EReal) {d : ℝ} (hd : d ≠ 0) : Ideal.div a (d : EReal) = a * ((d⁻¹ : ℝ) : EReal) := by
  rw [Ideal.div_coe hd, one_div]

/-! ## The edges of one row -/

/-- an edge that leaves node `n` leaves it as a node too -/
theorem rowF_eq (ei : IVec SEI 32) (e : Fin 262144) (n : Fin 4096) (h : rowN ei e = n.val) : rowF ei e = n := by
  apply Fin.ext
  show min (rowN ei e) 4095 = n.val
  have := n.isLt
  omega

/-- with every entry of the edge table a node number, an edge enters node `m` exactly when its number is `m` -/
theorem colF_eq_iff (ei : IVec SEI 32) (hR : InRange ei) (e : Fin 262144) (m : Fin 4096) :
    colF ei e = m ↔ colN ei e = m.val := by
  have h : colN ei e < 4096 := hR _
  rw [Fin.ext_iff]
  show min (colN ei e) 4095 = m.val ↔ _
  omega

/-! ## The dense attention entry, in both orders, as one real -/

/-- sum first, divide once: the real sum times the reciprocal of the divisor -/
theorem attnR_eq (ev : SEV.Idx → EReal) (ei : IVec SEI 32) (c : Fin 4) (n m : Fin 4096) {d : ℝ} (hd : d ≠ 0)
    (hdS : dS ev ei c n = (d : EReal)) :
    attnR ev ei c n m
      = (((∑ e ∈ Finset.univ.filter (fun e : Fin 262144 => rowN ei e = n.val ∧ colN ei e = m.val), vR ev c e)
            * d⁻¹ : ℝ) : EReal) := by
  have hs : ∑ e ∈ Finset.univ.filter (fun e : Fin 262144 => rowN ei e = n.val ∧ colN ei e = m.val), vS ev c e
      = ((∑ e ∈ Finset.univ.filter (fun e : Fin 262144 => rowN ei e = n.val ∧ colN ei e = m.val), vR ev c e : ℝ)
          : EReal) := by
    rw [← coe_sum]
    exact Finset.sum_congr rfl (fun e _ => vS_eq ev c e)
  unfold attnR
  rw [hs, hdS, div_real _ hd, EReal.coe_mul]

/-- divide first, then sum: every edge of the sum leaves `n`, so all divide by the same divisor, a common factor -/
theorem attnK_eq (ev : SEV.Idx → EReal) (ei : IVec SEI 32) (c : Fin 4) (n m : Fin 4096) {d : ℝ} (hd : d ≠ 0)
    (hdS : dS ev ei c n = (d : EReal)) :
    attnK ev ei c n m
      = (((∑ e ∈ Finset.univ.filter (fun e : Fin 262144 => rowN ei e = n.val ∧ colN ei e = m.val), vR ev c e)
            * d⁻¹ : ℝ) : EReal) := by
  unfold attnK
  rw [Finset.sum_mul, ← coe_sum]
  refine Finset.sum_congr rfl (fun e he => ?_)
  rw [Finset.mem_filter] at he
  rw [rowF_eq ei e n he.2.1, hdS, div_real _ hd, vS_eq, EReal.coe_mul]

/-- The dense attention entry does not depend on where the division happens. -/
theorem attn_bridge (ev : Cert.Spec.SEV.Idx → EReal) (ei : IVec Cert.Spec.SEI 32) (hR : Cert.Spec.InRange ei)
    (c : Fin 4) (n m : Fin 4096) :
    Cert.Spec.attnK ev ei c n m = Cert.Spec.attnR ev ei c n m := by
  have _ := hR
  obtain ⟨d, hd, hdS⟩ := dS_real ev ei c n
  rw [attnK_eq ev ei c n m hd hdS, attnR_eq ev ei c n m hd hdS]

/-! ## The aggregated feature -/

/-- Over the reals: the edges leaving `n` split by the node they enter; on each part the feature of that node and
    the reciprocal of the divisor are common factors. -/
theorem agg_real (ev : SEV.Idx → EReal) (ei : IVec SEI 32) (hR : InRange ei) (c : Fin 4) (n : Fin 4096) (d : ℝ)
    (hr : Fin 4096 → ℝ) :
    ∑ m : Fin 4096,
        (∑ e ∈ Finset.univ.filter (fun e : Fin 262144 => rowN ei e = n.val ∧ colN ei e = m.val), vR ev c e)
          * d⁻¹ * hr m
      = (∑ e ∈ Finset.univ.filter (fun e : Fin 262144 => rowN ei e = n.val), vR ev c e * hr (colF ei e)) * d⁻¹ := by
  rw [← Finset.sum_fiberwise_of_maps_to (s := Finset.univ.filter (fun e : Fin 262144 => rowN ei e = n.val))
    (t := Finset.univ) (g := colF ei) (fun _ _ => Finset.mem_univ _), Finset.sum_mul]
  refine Finset.sum_congr rfl (fun m _ => ?_)
  rw [Finset.filter_filter]
  have hF : Finset.univ.filter (fun e : Fin 262144 => rowN ei e = n.val ∧ colF ei e = m)
      = Finset.univ.filter (fun e : Fin 262144 => rowN ei e = n.val ∧ colN ei e = m.val) := by
    refine Finset.filter_congr (fun e _ => ?_)
    rw [colF_eq_iff ei hR e m]
  rw [hF, Finset.sum_mul, Finset.sum_mul, Finset.sum_mul]
  refine Finset.sum_congr rfl (fun e he => ?_)
  rw [Finset.mem_filter] at he
  rw [(colF_eq_iff ei hR e m).2 he.2.2]
  ring

/-- divide first: the aggregated feature as one real -/
theorem aggK_eq (x : SX.Idx → EReal) (w : SW.Idx → EReal) (ev : SEV.Idx → EReal) (ei : IVec SEI 32)
    (c : Fin 4) (n : Fin 4096) (o : Fin 128) {d : ℝ} (hd : d ≠ 0) (hdS : dS ev ei c n = (d : EReal))
    (hr : Fin 4096 → ℝ) (hhr : ∀ m, hS x w m o = (hr m : EReal)) :
    aggK x w ev ei c n o
      = ((∑ m : Fin 4096,
            (∑ e ∈ Finset.univ.filter (fun e : Fin 262144 => rowN ei e = n.val ∧ colN ei e = m.val), vR ev c e)
              * d⁻¹ * hr m : ℝ) : EReal) := by
  unfold aggK
  rw [← coe_sum]
  refine Finset.sum_congr rfl (fun m _ => ?_)
  rw [attnK_eq ev ei c n m hd hdS, hhr, ← EReal.coe_mul]

/-- divide once: the aggregated feature as one real -/
theorem aggR_eq (x : SX.Idx → EReal) (w : SW.Idx → EReal) (ev : SEV.Idx → EReal) (ei : IVec SEI 32)
    (c : Fin 4) (n : Fin 4096) (o : Fin 128) {d : ℝ} (hd : d ≠ 0) (hdS : dS ev ei c n = (d : EReal))
    (hr : Fin 4096 → ℝ) (hhr : ∀ m, hS x w m o = (hr m : EReal)) :
    aggR x w ev ei c n o
      = (((∑ e ∈ Finset.univ.filter (fun e : Fin 262144 => rowN ei e = n.val), vR ev c e * hr (colF ei e))
            * d⁻¹ : ℝ) : EReal) := by
  have hs : ∑ e ∈ Finset.univ.filter (fun e : Fin 262144 => rowN ei e = n.val), vS ev c e * hS x w (colF ei e) o
      = ((∑ e ∈ Finset.univ.filter (fun e : Fin 262144 => rowN ei e = n.val), vR ev c e * hr (colF ei e) : ℝ)
          : EReal) := by
    rw [← coe_sum]
    refine Finset.sum_congr rfl (fun e _ => ?_)
    rw [vS_eq, hhr, EReal.coe_mul]
  unfold aggR
  rw [hs, hdS, div_real _ hd, EReal.coe_mul]

/-- The aggregated feature does not depend on where the division happens. -/
theorem agg_bridge (x : Cert.Spec.SX.Idx → EReal) (w : Cert.Spec.SW.Idx → EReal) (ev : Cert.Spec.SEV.Idx → EReal)
    (ei : IVec Cert.Spec.SEI 32)
    (hx : ∀ i, ∃ r : ℝ, x i = (r : EReal)) (hw : ∀ i, ∃ r : ℝ, w i = (r : EReal)) (hR : Cert.Spec.InRange ei)
    (c : Fin 4) (n : Fin 4096) (o : Fin 128) :
    Cert.Spec.aggK x w ev ei c n o = Cert.Spec.aggR x w ev ei c n o := by
  obtain ⟨d, hd, hdS⟩ := dS_real ev ei c n
  choose hr hhr using fun m => hS_real x w hx hw m o
  rw [aggK_eq x w ev ei c n o hd hdS hr hhr, aggR_eq x w ev ei c n o hd hdS hr hhr, agg_real ev ei hR c n d hr]

end Cert.Bridge

end
-- ==== Proof.KerFold.lean ====
/-
  The kernel program's buffer contents at the segment boundaries, read at the buffers the value proof needs:
  the second result is an input of the last region, so it leaves the program as the host operations before that
  region wrote it; the projected features pass from the first region's output through the host operations
  untouched; the edge table's two rows are sliced before the first region and nothing writes them afterwards.
-/
import proofs.«412460_j8796093022366_3_alg».proof.Proof.Gen.KernelIdeal.Frame

set_option maxRecDepth 16384

noncomputable section

namespace Cert.KernelIdeal.Fold

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- The first result is the last region's output array. -/
theorem W4_out (c : Dev nD) : W4 m ρ c (Proc.devRef .tc main_v0_0) = (dat1 (V3 m ρ) c).arrAt 2 cfg1.N :=
  W4_arr m ρ c 2

/-- The second result is read, not written, by the last region. -/
theorem W4_attn (c : Dev nD) : W4 m ρ c (Proc.devRef .tc main_v0_1) = W3 m ρ c (Proc.devRef .tc main_v0_1) :=
  (W4_arr m ρ c 0).trans (((dat1 (V3 m ρ) c).arrAt_in 0 rfl _).trans (A_eq1 (V3 m ρ) c 0))

/-- The projected features reach the last region as the first region left them. -/
theorem W3_h (c : Dev nD) : W3 m ρ c (Proc.devRef .tc main_call0_v4) = (dat0 (V1 m ρ) c).arrAt 2 cfg0.N :=
  (StableHlo.after_of_forall_not_mem (b := Proc.devRef .tc main_call0_v4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W2_arr m ρ c 2)

/-- The edge weights' logits at the second host stretch are the launch contents. -/
theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The two sliced rows of the edge table at the second host stretch are what the first stretch wrote. -/
theorem W2_row (c : Dev nD) : W2 m ρ c (Proc.devRef .tc main_call0_v1) = StableHlo.after hostOps0 (W0 m ρ c) (Proc.devRef .tc main_call0_v1) :=
  W2_of_ne m ρ c main_call0_v1 (by decide)
theorem W2_col (c : Dev nD) : W2 m ρ c (Proc.devRef .tc main_call0_v3) = StableHlo.after hostOps0 (W0 m ρ c) (Proc.devRef .tc main_call0_v3) :=
  W2_of_ne m ρ c main_call0_v3 (by decide)

/-- The first region's inputs are the launch contents. -/
theorem V1_arg0 (c : Dev nD) : V1 m ρ c main_arg0 = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem V1_arg1 (c : Dev nD) : V1 m ρ c main_arg1 = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- The edge table at launch, as the first stretch reads it. -/
theorem W0_arg3 (c : Dev nD) : W0 m ρ c (Proc.devRef .tc main_arg3) = m ((c : Thread nD τ).loc main_arg3) := rfl

end Cert.KernelIdeal.Fold

end
-- ==== Proof.LibScatterRead.lean ====
/-
  The accumulating scatter read at one index.

  A scatter with an additive body leaves, at every element of its operand, that element plus the sum of the updates
  that land on it.  Where an update lands is fixed by the dimension numbers: on each operand axis the landing
  coordinate is a START (a component of the index vector the update reads, taken as a SIGNED integer, or zero on an
  axis the index vector does not address) plus a WINDOW coordinate (one of the update's own coordinates, or zero on an
  inserted axis); an update whose landing point leaves the operand on some axis is dropped.

  For three layouts of the dimension numbers this file turns "the updates that land on (a, b)" into a condition on
  the update's coordinates, and the sum over the update index set into a sum over the one coordinate that remains
  free: the scattered axis is the operand's minor axis, its major axis, or both axes at once.
-/
import Idealize.ShloMosaic.PureOps.Ideal
import Idealize.ShloMosaic.PureOps.Ideal.Laws
import Idealize.ShloMosaic.Lib.ValueIdx

noncomputable section

open scoped BigOperators

namespace Cert.IndexedRead

open Idealize.ShloMosaic Idealize.ShloMosaic.ValueIdx

/-- An update index lands at operand index `i` exactly when, on every operand axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    rw [Option.some.injEq]
    constructor
    · intro hf a
      have h1 : (d.start j idx a + d.window j a).toNat = (i a).val := congrArg Fin.val (congrFun hf a)
      have h2 := h a
      omega
    · intro hf
      funext a
      apply Fin.ext
      show (d.start j idx a + d.window j a).toNat = (i a).val
      have := hf a; omega
  · next h =>
    constructor
    · intro hf; cases hf
    · intro hf; exfalso; apply h; intro a
      have := hf a; have := (i a).isLt; omega

/-- THE MINOR AXIS SCATTERED. Operand `[C, N]`, index table `[E, 1]`, updates `[C, E]`: update `(c, e)` keeps its
    row `c` and lands in the column the table names at `e`, read as a signed integer; outside `[0, N)` it is
    dropped. So the result at `(c, n)` is the operand there plus the sum, over the `e` whose table entry is `n`, of
    update `(c, e)`. -/
theorem scatterAdd_minor_apply {C N E w : Nat} (d : ScatterDims ⟨2, ![C, N]⟩ ⟨2, ![E, 1]⟩ ⟨2, ![C, E]⟩)
    (huw : d.updateWindowDims = [0]) (hins : d.insertedWindowDims = [1]) (hsd : d.scatterDimsToOperandDims = [1]) (hiv : d.indexVectorDim = 1)
    (x : (⟨2, ![C, N]⟩ : Shape).Idx → EReal) (idx : IVec ⟨2, ![E, 1]⟩ w) (upd : (⟨2, ![C, E]⟩ : Shape).Idx → EReal) (c : Fin C) (n : Fin N) :
    Host.scatterAdd (F := Ideal) (φ := .f32) d x idx upd (ix2 c n)
      = x (ix2 c n) + ∑ e ∈ Finset.univ.filter (fun e : Fin E => (idx (ix2 e (0 : Fin 1))).toInt = (n.val : ℤ)), upd (ix2 c e) := by
  have key : (∀ j, d.start j idx 0 = 0) ∧ (∀ j, d.window j 0 = (j 0).val)
      ∧ (∀ j, d.start j idx 1 = (idx (ix2 (j 1) (0 : Fin 1))).toInt) ∧ (∀ j, d.window j 1 = 0) := by
    obtain ⟨uw, ins, sd, iv, wf⟩ := d
    simp only at huw hins hsd hiv
    subst huw hins hsd hiv
    refine ⟨fun _ => rfl, fun _ => rfl, fun j => ?_, fun _ => rfl⟩
    unfold ScatterDims.start
    rw [dif_pos (List.mem_singleton.mpr rfl)]
    congr 2
    funext b
    refine Fin.ext ?_
    match b with
    | ⟨0, _⟩ => rfl
    | ⟨1, _⟩ => rfl
  obtain ⟨hs0, hw0, hs1, hw1⟩ := key
  have hchar : ∀ j : (⟨2, ![C, E]⟩ : Shape).Idx,
      d.resultIdx? j idx = some (ix2 c n) ↔ j 0 = c ∧ (idx (ix2 (j 1) (0 : Fin 1))).toInt = (n.val : ℤ) := by
    intro j
    rw [resultIdx?_eq_some_iff]
    constructor
    · intro h
      have h0 : d.start j idx 0 + (d.window j 0 : ℤ) = (c.val : ℤ) := h 0
      have h1 : d.start j idx 1 + (d.window j 1 : ℤ) = (n.val : ℤ) := h 1
      rw [hs0, hw0] at h0
      rw [hs1, hw1] at h1
      refine ⟨Fin.ext ?_, ?_⟩
      · have : ((j 0).val : ℤ) = (c.val : ℤ) := by simpa using h0
        exact_mod_cast this
      · simpa using h1
    · rintro ⟨h0, h1⟩ a
      match a with
      | ⟨0, _⟩ =>
        show d.start j idx 0 + (d.window j 0 : ℤ) = (c.val : ℤ)
        rw [hs0, hw0, h0]; simp
      | ⟨1, _⟩ =>
        show d.start j idx 1 + (d.window j 1 : ℤ) = (n.val : ℤ)
        rw [hs1, hw1, h1]; simp
  have hback : ∀ j : (⟨2, ![C, E]⟩ : Shape).Idx, j 0 = c → ix2 c (j 1) = j := fun j h0 => by
    rw [← h0]; exact (eq_ix2 j).symm
  show x (ix2 c n) + ∑ j ∈ Finset.univ.filter (fun j => d.resultIdx? j idx = some (ix2 c n)), upd j = _
  congr 1
  refine Finset.sum_bij' (fun j _ => j 1) (fun e _ => ix2 c e) ?_ ?_ ?_ ?_ ?_
  · intro j hj
    exact Finset.mem_filter.2 ⟨Finset.mem_univ _, ((hchar j).1 (Finset.mem_filter.1 hj).2).2⟩
  · intro e he
    exact Finset.mem_filter.2 ⟨Finset.mem_univ _, (hchar _).2 ⟨rfl, (Finset.mem_filter.1 he).2⟩⟩
  · intro j hj
    exact hback j ((hchar j).1 (Finset.mem_filter.1 hj).2).1
  · intro e _; rfl
  · intro j hj
    exact congrArg upd (hback j ((hchar j).1 (Finset.mem_filter.1 hj).2).1).symm

/-- THE MAJOR AXIS SCATTERED. Operand `[N, O]`, index table `[E, 1]`, updates `[E, O]`: update `(e, o)` keeps its
    column `o` and lands in the row the table names at `e`, read as a signed integer; outside `[0, N)` it is dropped.
    So the result at `(n, o)` is the operand there plus the sum, over the `e` whose table entry is `n`, of update
    `(e, o)`. -/
theorem scatterAdd_major_apply {N O E w : Nat} (d : ScatterDims ⟨2, ![N, O]⟩ ⟨2, ![E, 1]⟩ ⟨2, ![E, O]⟩)
    (huw : d.updateWindowDims = [1]) (hins : d.insertedWindowDims = [0]) (hsd : d.scatterDimsToOperandDims = [0]) (hiv : d.indexVectorDim = 1)
    (x : (⟨2, ![N, O]⟩ : Shape).Idx → EReal) (idx : IVec ⟨2, ![E, 1]⟩ w) (upd : (⟨2, ![E, O]⟩ : Shape).Idx → EReal) (n : Fin N) (o : Fin O) :
    Host.scatterAdd (F := Ideal) (φ := .f32) d x idx upd (ix2 n o)
      = x (ix2 n o) + ∑ e ∈ Finset.univ.filter (fun e : Fin E => (idx (ix2 e (0 : Fin 1))).toInt = (n.val : ℤ)), upd (ix2 e o) := by
  have key : (∀ j, d.start j idx 0 = (idx (ix2 (j 0) (0 : Fin 1))).toInt) ∧ (∀ j, d.window j 0 = 0)
      ∧ (∀ j, d.start j idx 1 = 0) ∧ (∀ j, d.window j 1 = (j 1).val) := by
    obtain ⟨uw, ins, sd, iv, wf⟩ := d
    simp only at huw hins hsd hiv
    subst huw hins hsd hiv
    refine ⟨fun j => ?_, fun _ => rfl, fun _ => rfl, fun _ => rfl⟩
    unfold ScatterDims.start
    rw [dif_pos (List.mem_singleton.mpr rfl)]
    congr 2
    funext b
    refine Fin.ext ?_
    match b with
    | ⟨0, _⟩ => rfl
    | ⟨1, _⟩ => rfl
  obtain ⟨hs0, hw0, hs1, hw1⟩ := key
  have hchar : ∀ j : (⟨2, ![E, O]⟩ : Shape).Idx,
      d.resultIdx? j idx = some (ix2 n o) ↔ (idx (ix2 (j 0) (0 : Fin 1))).toInt = (n.val : ℤ) ∧ j 1 = o := by
    intro j
    rw [resultIdx?_eq_some_iff]
    constructor
    · intro h
      have h0 : d.start j idx 0 + (d.window j 0 : ℤ) = (n.val : ℤ) := h 0
      have h1 : d.start j idx 1 + (d.window j 1 : ℤ) = (o.val : ℤ) := h 1
      rw [hs0, hw0] at h0
      rw [hs1, hw1] at h1
      refine ⟨?_, Fin.ext ?_⟩
      · simpa using h0
      · have : ((j 1).val : ℤ) = (o.val : ℤ) := by simpa using h1
        exact_mod_cast this
    · rintro ⟨h0, h1⟩ a
      match a with
      | ⟨0, _⟩ =>
        show d.start j idx 0 + (d.window j 0 : ℤ) = (n.val : ℤ)
        rw [hs0, hw0, h0]; simp
      | ⟨1, _⟩ =>
        show d.start j idx 1 + (d.window j 1 : ℤ) = (o.val : ℤ)
        rw [hs1, hw1, h1]; simp
  have hback : ∀ j : (⟨2, ![E, O]⟩ : Shape).Idx, j 1 = o → ix2 (j 0) o = j := fun j h1 => by
    rw [← h1]; exact (eq_ix2 j).symm
  show x (ix2 n o) + ∑ j ∈ Finset.univ.filter (fun j => d.resultIdx? j idx = some (ix2 n o)), upd j = _
  congr 1
  refine Finset.sum_bij' (fun j _ => j 0) (fun e _ => ix2 e o) ?_ ?_ ?_ ?_ ?_
  · intro j hj
    exact Finset.mem_filter.2 ⟨Finset.mem_univ _, ((hchar j).1 (Finset.mem_filter.1 hj).2).1⟩
  · intro e he
    exact Finset.mem_filter.2 ⟨Finset.mem_univ _, (hchar _).2 ⟨(Finset.mem_filter.1 he).2, rfl⟩⟩
  · intro j hj
    exact hback j ((hchar j).1 (Finset.mem_filter.1 hj).2).2
  · intro e _; rfl
  · intro j hj
    exact congrArg upd (hback j ((hchar j).1 (Finset.mem_filter.1 hj).2).2).symm

/-- BOTH AXES SCATTERED. Operand `[N, M]`, index table `[E, 2]`, updates `[E]`: update `e` is one number and lands at
    the point whose row and column are the two entries of the table's row `e`, each read as a signed integer; it is
    dropped when either leaves its range. So the result at `(n, m)` is the operand there plus the sum of the updates
    `e` whose table row is `(n, m)`. -/
theorem scatterAdd_pair_apply {N M E w : Nat} (d : ScatterDims ⟨2, ![N, M]⟩ ⟨2, ![E, 2]⟩ ⟨1, ![E]⟩)
    (huw : d.updateWindowDims = []) (hins : d.insertedWindowDims = [0, 1]) (hsd : d.scatterDimsToOperandDims = [0, 1]) (hiv : d.indexVectorDim = 1)
    (x : (⟨2, ![N, M]⟩ : Shape).Idx → EReal) (idx : IVec ⟨2, ![E, 2]⟩ w) (upd : (⟨1, ![E]⟩ : Shape).Idx → EReal) (n : Fin N) (m : Fin M) :
    Host.scatterAdd (F := Ideal) (φ := .f32) d x idx upd (ix2 n m)
      = x (ix2 n m) + ∑ e ∈ Finset.univ.filter (fun e : Fin E => (idx (ix2 e (0 : Fin 2))).toInt = (n.val : ℤ) ∧ (idx (ix2 e (1 : Fin 2))).toInt = (m.val : ℤ)), upd (ix1 e) := by
  have key : (∀ j, d.start j idx 0 = (idx (ix2 (j 0) (0 : Fin 2))).toInt) ∧ (∀ j, d.window j 0 = 0)
      ∧ (∀ j, d.start j idx 1 = (idx (ix2 (j 0) (1 : Fin 2))).toInt) ∧ (∀ j, d.window j 1 = 0) := by
    obtain ⟨uw, ins, sd, iv, wf⟩ := d
    simp only at huw hins hsd hiv
    subst huw hins hsd hiv
    refine ⟨fun j => ?_, fun _ => rfl, fun j => ?_, fun _ => rfl⟩
    · unfold ScatterDims.start
      rw [dif_pos (List.mem_cons_self)]
      congr 2
      funext b
      refine Fin.ext ?_
      match b with
      | ⟨0, _⟩ => rfl
      | ⟨1, _⟩ => rfl
    · unfold ScatterDims.start
      rw [dif_pos (List.mem_cons_of_mem _ (List.mem_singleton.mpr rfl))]
      congr 2
      funext b
      refine Fin.ext ?_
      match b with
      | ⟨0, _⟩ => rfl
      | ⟨1, _⟩ => rfl
  obtain ⟨hs0, hw0, hs1, hw1⟩ := key
  have hchar : ∀ j : (⟨1, ![E]⟩ : Shape).Idx,
      d.resultIdx? j idx = some (ix2 n m)
        ↔ (idx (ix2 (j 0) (0 : Fin 2))).toInt = (n.val : ℤ) ∧ (idx (ix2 (j 0) (1 : Fin 2))).toInt = (m.val : ℤ) := by
    intro j
    rw [resultIdx?_eq_some_iff]
    constructor
    · intro h
      have h0 : d.start j idx 0 + (d.window j 0 : ℤ) = (n.val : ℤ) := h 0
      have h1 : d.start j idx 1 + (d.window j 1 : ℤ) = (m.val : ℤ) := h 1
      rw [hs0, hw0] at h0
      rw [hs1, hw1] at h1
      exact ⟨by simpa using h0, by simpa using h1⟩
    · rintro ⟨h0, h1⟩ a
      match a with
      | ⟨0, _⟩ =>
        show d.start j idx 0 + (d.window j 0 : ℤ) = (n.val : ℤ)
        rw [hs0, hw0, h0]; simp
      | ⟨1, _⟩ =>
        show d.start j idx 1 + (d.window j 1 : ℤ) = (m.val : ℤ)
        rw [hs1, hw1, h1]; simp
  show x (ix2 n m) + ∑ j ∈ Finset.univ.filter (fun j => d.resultIdx? j idx = some (ix2 n m)), upd j = _
  congr 1
  refine Finset.sum_bij' (fun j _ => j 0) (fun e _ => ix1 e) ?_ ?_ ?_ ?_ ?_
  · intro j hj
    exact Finset.mem_filter.2 ⟨Finset.mem_univ _, (hchar j).1 (Finset.mem_filter.1 hj).2⟩
  · intro e he
    exact Finset.mem_filter.2 ⟨Finset.mem_univ _, (hchar _).2 (Finset.mem_filter.1 he).2⟩
  · intro j _
    exact (eq_ix1 j).symm
  · intro e _; rfl
  · intro j _
    exact congrArg upd (eq_ix1 j)

end Cert.IndexedRead

end
-- ==== Proof.LibGatherRead.lean ====
/-
  Reading an indexed take of a rank-2 table at one position.

  A table of `C` rows and `N` columns taken at a list of `E` column numbers gives the `C × E` array whose
  `(c, e)` entry is the table's `(c, k e)` entry; a table of `N` rows and `O` columns taken at a list of `E` row
  numbers gives the `E × O` array whose `(e, o)` entry is the table's `(k e, o)` entry.  In both, `k e` is the
  `e`-th listed number read as a SIGNED integer and CLAMPED into `[0, N − 1]`: a negative number reads position `0`,
  a number past the end reads the last position.

  Both are instances of the general indexed read, whose operand position is, axis by axis, a clamped start plus a
  batching coordinate plus an offset coordinate.  On the indexed axis the slice has size one, there is no batching
  and no offset, so only the clamped start remains; on the other axis the start and the batching coordinate are
  zero and the offset is the result's own coordinate.
-/
import Idealize.ShloMosaic.PureOps.Ideal
import Idealize.ShloMosaic.Lib.ValueIdx

namespace Cert.IndexedRead

open Idealize.ShloMosaic Idealize.ShloMosaic.ValueIdx

/-- THE TAKE ALONG THE MINOR AXIS.  Operand `[C, N]`, start indices `[E, 1]`, result `[C, E]`; the operand's
    axis 1 is the collapsed, start-indexed one (slice size 1), its axis 0 is carried whole to the result's offset
    axis 0, and the index vector lies on axis 1 of the start indices.  Then the result at `(c, e)` is the operand
    at `(c, k)`, where `k` is the start index `idx[e, 0]` read signed and clamped into `[0, N − 1]`. -/
theorem gather_minor_apply {α : Type} {C N E w : Nat} (hN : 0 < N) (d : GatherDims ⟨2, ![C, N]⟩ ⟨2, ![E, 1]⟩ ⟨2, ![C, E]⟩)
    (hoff : d.offsetDims = [0]) (hcoll : d.collapsedSliceDims = [1]) (hob : d.operandBatchingDims = []) (hsim : d.startIndexMap = [1]) (hiv : d.indexVectorDim = 1)
    (hss : d.sliceSizes = ![C, 1])
    (x : (⟨2, ![C, N]⟩ : Shape).Idx → α) (idx : IVec ⟨2, ![E, 1]⟩ w) (c : Fin C) (e : Fin E) :
    Host.gather d x idx (ix2 c e) = x (ix2 c ⟨min (idx (ix2 e (0 : Fin 1))).toInt.toNat (N - 1), by omega⟩) := by
  -- name the dimension numbers' fields and replace each by its stated value
  obtain ⟨od, cd, ob, sb, sm, iv, ss, wf⟩ := d
  simp only at hoff hcoll hob hsim hiv hss
  subst hoff hcoll hob hsim hiv hss
  have h01 : (0 : Fin 2) ∉ ([1] : List (Fin 2)) := by decide
  have h11 : (1 : Fin 2) ∈ ([1] : List (Fin 2)) := by decide
  unfold Host.gather
  congr 1
  funext a
  apply Fin.ext
  match a with
  | ⟨0, _⟩ =>
    -- axis 0 is not start-indexed and not batching: the position is the offset coordinate, the result's axis 0
    show GatherDims.start _ _ _ 0 + GatherDims.batchCoord _ _ 0 + GatherDims.offCoord _ _ 0 = c.val
    rw [GatherDims.batchCoord_eq_zero _ _ _ List.not_mem_nil]
    unfold GatherDims.start
    rw [dif_neg h01]
    unfold GatherDims.offCoord
    rw [dif_pos ((GatherDims.mem_sKept _ _).2 ⟨h01, List.not_mem_nil⟩)]
    simp only [Nat.zero_add]
    rfl
  | ⟨1, _⟩ =>
    -- axis 1 is collapsed and start-indexed: the position is the clamped start alone
    show GatherDims.start _ _ _ 1 + GatherDims.batchCoord _ _ 1 + GatherDims.offCoord _ _ 1 = min _ _
    rw [GatherDims.batchCoord_eq_zero _ _ _ List.not_mem_nil,
      GatherDims.offCoord_eq_zero _ _ _ (fun h => ((GatherDims.mem_sKept _ _).1 h).1 h11)]
    unfold GatherDims.start
    rw [dif_pos h11]
    show min (idx _).toInt.toNat (N - 1) = min (idx (ix2 e 0)).toInt.toNat (N - 1)
    -- the start index is read at (e, 0): the result's batch coordinate, and component 0 of the index vector
    congr 3
    congr 1
    funext b
    match b with
    | ⟨0, _⟩ => rfl
    | ⟨1, _⟩ => rfl

/-- THE TAKE ALONG THE MAJOR AXIS.  Operand `[N, O]`, start indices `[E, 1]`, result `[E, O]`; the operand's
    axis 0 is the collapsed, start-indexed one (slice size 1), its axis 1 is carried whole to the result's offset
    axis 1, and the index vector lies on axis 1 of the start indices.  Then the result at `(e, o)` is the operand
    at `(k, o)`, where `k` is the start index `idx[e, 0]` read signed and clamped into `[0, N − 1]`. -/
theorem gather_major_apply {α : Type} {N O E w : Nat} (hN : 0 < N) (d : GatherDims ⟨2, ![N, O]⟩ ⟨2, ![E, 1]⟩ ⟨2, ![E, O]⟩)
    (hoff : d.offsetDims = [1]) (hcoll : d.collapsedSliceDims = [0]) (hob : d.operandBatchingDims = []) (hsim : d.startIndexMap = [0]) (hiv : d.indexVectorDim = 1)
    (hss : d.sliceSizes = ![1, O])
    (x : (⟨2, ![N, O]⟩ : Shape).Idx → α) (idx : IVec ⟨2, ![E, 1]⟩ w) (e : Fin E) (o : Fin O) :
    Host.gather d x idx (ix2 e o) = x (ix2 ⟨min (idx (ix2 e (0 : Fin 1))).toInt.toNat (N - 1), by omega⟩ o) := by
  obtain ⟨od, cd, ob, sb, sm, iv, ss, wf⟩ := d
  simp only at hoff hcoll hob hsim hiv hss
  subst hoff hcoll hob hsim hiv hss
  have h10 : (1 : Fin 2) ∉ ([0] : List (Fin 2)) := by decide
  have h00 : (0 : Fin 2) ∈ ([0] : List (Fin 2)) := by decide
  unfold Host.gather
  congr 1
  funext a
  apply Fin.ext
  match a with
  | ⟨0, _⟩ =>
    -- axis 0 is collapsed and start-indexed: the position is the clamped start alone
    show GatherDims.start _ _ _ 0 + GatherDims.batchCoord _ _ 0 + GatherDims.offCoord _ _ 0 = min _ _
    rw [GatherDims.batchCoord_eq_zero _ _ _ List.not_mem_nil,
      GatherDims.offCoord_eq_zero _ _ _ (fun h => ((GatherDims.mem_sKept _ _).1 h).1 h00)]
    unfold GatherDims.start
    rw [dif_pos h00]
    show min (idx _).toInt.toNat (N - 1) = min (idx (ix2 e 0)).toInt.toNat (N - 1)
    congr 3
    congr 1
    funext b
    match b with
    | ⟨0, _⟩ => rfl
    | ⟨1, _⟩ => rfl
  | ⟨1, _⟩ =>
    -- axis 1 is not start-indexed and not batching: the position is the offset coordinate, the result's axis 1
    show GatherDims.start _ _ _ 1 + GatherDims.batchCoord _ _ 1 + GatherDims.offCoord _ _ 1 = o.val
    rw [GatherDims.batchCoord_eq_zero _ _ _ List.not_mem_nil]
    unfold GatherDims.start
    rw [dif_neg h10]
    unfold GatherDims.offCoord
    rw [dif_pos ((GatherDims.mem_sKept _ _).2 ⟨h10, List.not_mem_nil⟩)]
    simp only [Nat.zero_add]
    rfl

end Cert.IndexedRead
-- ==== Proof.KerHost.lean ====
/-
  The host operations around the first launch, read index by index over the extended reals.

  Before the first launch the edge table is cut into its two rows: the node each edge leaves and the node it enters.
  After it, every logit becomes a weight (leaky-relu, a zero sent far down, the exponential, a cap); the weights are added
  up by leaving node to give each node a divisor (one where the sum is zero); every edge reads its own row's divisor back
  and divides its weight by it; and the quotients are added up at the flat position `row · 4096 + col` of a
  4096 × 4096 matrix per channel, whose flat axis is then split into rows and columns.

  Three facts carry the argument. A node number is below 4096, so as a signed word it is not negative and the
  subscript normalisation ("a negative index counts from the end") leaves it alone, and so does the clamp of a read.
  Row times 4096 plus column stays below 2²⁴, so the word arithmetic does not wrap. And for columns below 4096 two
  edges share a flat position exactly when they share row and column. With these the accumulating scatters are the
  specification's sums over the edges that leave a node, and over the edges `n → m`.
-/
import proofs.«412460_j8796093022366_3_alg».proof.Proof.Gen.KernelIdeal.Launch
import proofs.«412460_j8796093022366_3_alg».proof.Proof.Spec
import proofs.«412460_j8796093022366_3_alg».proof.Proof.LibScatterRead
import proofs.«412460_j8796093022366_3_alg».proof.Proof.LibGatherRead
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import Idealize.ShloMosaic.Lib.WordArith
import Idealize.ShloMosaic.Lib.StableHlo.Predicate

noncomputable section

namespace Cert.KernelIdeal.HostVal

open Idealize.ShloMosaic Idealize.ShloMosaic.TcCoe Idealize.ShloMosaic.ValueIdx Idealize.ShloMosaic.StableHlo Cert.KernelIdeal Cert.KernelIdeal.Gen
open Idealize.ShloMosaic.WordArith Idealize.ShloMosaic.StableHlo.Predicate
open scoped BigOperators

/-! ## The two rows of the edge table -/

/-- Row `r` of a two-row table, cut out as a one-row matrix and flattened, holds at entry `e` the table's `(r, e)`. -/
theorem rowCut_apply {α : Type} (x : S2x262144.Idx → α) (o : Nat) (r : Fin 2) (ho : r.val = o)
    (hs : S2x262144.Slices ![o, 0] S1x262144) (hc : S1x262144.ShapeCasts S262144) (e : Fin 262144) :
    shapeCast S262144 (extractStridedSlice S1x262144 ![o, 0] x hs) hc (ix1 e) = x (ix2 r e) :=
  (shapeCast_1a_a_apply _ hc e).trans
    (slice2_axis0_apply o x hs (0 : Fin 1) e r (by show r.val = o + 0; omega))

/-- Before the first launch the program cuts the edge table into its two rows: the nodes the edges leave and the nodes
    they enter. -/
theorem rowcol_host (W : Valuation τ sig (Elt Ideal)) :
    StableHlo.after (hostOps0 (F := Ideal)) W (Proc.devRef .tc main_call0_v1)
        = (fun i : S262144.Idx => (W (Proc.devRef .tc main_arg3) : S2x262144.Idx → BitVec 32) (ix2 (0 : Fin 2) (i 0)))
    ∧ StableHlo.after (hostOps0 (F := Ideal)) W (Proc.devRef .tc main_call0_v3)
        = (fun i : S262144.Idx => (W (Proc.devRef .tc main_arg3) : S2x262144.Idx → BitVec 32) (ix2 (1 : Fin 2) (i 0))) := by
  constructor
  · after_results
    funext i
    obtain ⟨e, rfl⟩ : ∃ e, i = ix1 e := ⟨i 0, eq_ix1 i⟩
    exact rowCut_apply (W (Proc.devRef .tc main_arg3)) 0 0 rfl slices_S2x262144_S1x262144_0_0 shapeCasts_S1x262144_S262144 e
  · after_results
    funext i
    obtain ⟨e, rfl⟩ : ∃ e, i = ix1 e := ⟨i 0, eq_ix1 i⟩
    exact rowCut_apply (W (Proc.devRef .tc main_arg3)) 1 1 rfl slices_S2x262144_S1x262144_1_0 shapeCasts_S1x262144_S262144 e

/-! ## The operations after the first launch, as functions of the arrays they read

Each function below is one stretch of the program's text with its operands as variables; `attnT_eq` says the program's dense
attention array is their composition at the two rows of the edge table and the logits. Everything after that is read at
one index. -/

/-- leaky-relu of every logit: the logit where it is at least zero, else the slope times it -/
def leakyT (ev : FVec Ideal S4x262144 .f32) : FVec Ideal S4x262144 .f32 :=
  select (cmpf .oge ev (broadcastInDim S4x262144 ![] bcast_S_S4x262144 (constant S_ .f32 0x00000000#32)))
    ev (mulf (broadcastInDim S4x262144 ![] bcast_S_S4x262144 (constant S_ .f32 0x3E4CCCCD#32)) ev)

/-- the edge weights: a zero (or an unordered value) of the leaky-relu sent far down, the exponential, the cap -/
def vT (ev : FVec Ideal S4x262144 .f32) : FVec Ideal S4x262144 .f32 :=
  minimumf
    (Host.exp
      (select
        (ori (cmpf .une (leakyT ev) (leakyT ev))
          (cmpf .oeq (leakyT ev) (broadcastInDim S4x262144 ![] bcast_S_S4x262144 (constant S_ .f32 0x00000000#32))))
        (broadcastInDim S4x262144 ![] bcast_S_S4x262144 (id (constant S_ .f32 0xD9FFCB9E#32)))
        (leakyT ev)))
    (broadcastInDim S4x262144 ![] bcast_S_S4x262144 (constant S_ .f32 0x59FFCB9E#32))

/-- the weights added up by the node their edge leaves, from zeros -/
def sumT (row : IVec S262144 32) (v : FVec Ideal S4x262144 .f32) : FVec Ideal S4x4096 .f32 :=
  Host.scatterAdd scatter_S4x4096_S262144x1_S4x262144_0_1_1_1
    (broadcastInDim S4x4096 ![1] bcast_S4096_S4x4096_1
      (broadcastInDim S4096 ![] bcast_S_S4096 (constant S_ .f32 0x00000000#32)))
    (broadcastInDim S262144x1 ![0] bcast_S262144_S262144x1_0 row) v

/-- a node's divisor: its sum, or one where the sum is zero -/
def divT (s : FVec Ideal S4x4096 .f32) : FVec Ideal S4x4096 .f32 :=
  select (cmpf .oeq s (broadcastInDim S4x4096 ![] bcast_S_S4x4096 (constant S_ .f32 0x00000000#32)))
    (broadcastInDim S4x4096 ![] bcast_S_S4x4096 (id (constant S_ .f32 0x3F800000#32))) s

/-- an index word normalised the way an array subscript is: a negative one moved up by the extent `n` -/
def normT (n : BitVec 32) (z : IVec S262144 32) : IVec S262144 32 :=
  select (cmpi .slt z (broadcastInDim S262144 ![] bcast_S_S262144 (constantI S_ 32 0#32)))
    (addi z (broadcastInDim S262144 ![] bcast_S_S262144 (constantI S_ 32 n))) z

/-- the divisors read back at every edge's row -/
def gathT (row : IVec S262144 32) (dv : FVec Ideal S4x4096 .f32) : FVec Ideal S4x262144 .f32 :=
  Host.gather gather_S4x4096_S262144x1_S4x262144_0_1_n_n_1_1_41 dv
    (broadcastInDim S262144x1 ![0] bcast_S262144_S262144x1_0 (normT 4096#32 row))

/-- every edge's flat position `row · 4096 + col` in a 4096 × 4096 matrix -/
def flatT (row col : IVec S262144 32) : IVec S262144 32 :=
  normT 16777216#32
    (addi (muli row (broadcastInDim S262144 ![] bcast_S_S262144 (constantI S_ 32 4096#32))) col)

/-- the dense attention array: the normalised weights added up at their edge's flat position, from zeros, then
    the flat axis split into rows and columns -/
def attnT (row col : IVec S262144 32) (ev : FVec Ideal S4x262144 .f32) : FVec Ideal S4x4096x4096 .f32 :=
  shapeCast S4x4096x4096
    (Host.scatterAdd scatter_S4x16777216_S262144x1_S4x262144_0_1_1_1
      (broadcastInDim S4x16777216 ![] bcast_S_S4x16777216 (constant S_ .f32 0x00000000#32))
      (broadcastInDim S262144x1 ![0] bcast_S262144_S262144x1_0 (flatT row col))
      (Host.divf (vT ev) (gathT row (divT (sumT row (vT ev))))))
    shapeCasts_S4x16777216_S4x4096x4096

/-- What the program's operations after the first launch leave in the dense attention array, as that composition. -/
theorem attnT_eq (W : Valuation τ sig (Elt Ideal)) :
    StableHlo.after (hostOps1 (F := Ideal)) W (Proc.devRef .tc main_v0_1)
      = attnT (W (Proc.devRef .tc main_call0_v1)) (W (Proc.devRef .tc main_call0_v3)) (W (Proc.devRef .tc main_arg2)) := by
  after_results_simp
  simp only [TRef.ofBuf, TRef.toBuf, cast_eq]
  rfl

/-! ## Constants, broadcasts and one-bit words read at an index -/

/-- A float constant broadcast to any shape holds that constant everywhere. -/
theorem bcastConst_apply {T : Shape} (h : S_.BroadcastsInDim T ![]) (w : BitVec 32) (j : T.Idx) :
    broadcastInDim T ![] h (constant (F := Ideal) S_ .f32 w) j = Ideal.ofBits .f32 w := rfl

/-- The zero constant broadcast to any shape is zero everywhere. -/
theorem bcastZero_apply {T : Shape} (h : S_.BroadcastsInDim T ![]) (j : T.Idx) :
    broadcastInDim T ![] h (constant (F := Ideal) S_ .f32 0x00000000#32) j = 0 :=
  (bcastConst_apply h _ j).trans Ideal.ofBits_zero_f32

/-- An integer constant broadcast to any shape holds that word everywhere. -/
theorem bcastConstI_apply {T : Shape} (h : S_.BroadcastsInDim T ![]) (w : BitVec 32) (j : T.Idx) :
    broadcastInDim T ![] h (constantI S_ 32 w) j = w := rfl

/-- A vector laid out as a one-column matrix holds at `(e, 0)` the vector's entry `e`. -/
theorem bcastCol_apply {α : Type} (x : S262144.Idx → α) (e : Fin 262144) :
    broadcastInDim S262144x1 ![0] bcast_S262144_S262144x1_0 x (ix2 e (0 : Fin 1)) = x (ix1 e) :=
  broadcastInDim_apply _ _ x _ (ix1 e) (fun a => by
    match a with
    | ⟨0, _⟩ => show e.val = if (262144 : Nat) = 1 then 0 else e.val; rw [if_neg (by decide)])

/-- The zero vector of 4096 entries repeated over the four channels is zero everywhere. -/
theorem zeroRows_apply (j : S4x4096.Idx) :
    broadcastInDim S4x4096 ![1] bcast_S4096_S4x4096_1
      (broadcastInDim S4096 ![] bcast_S_S4096 (constant (F := Ideal) S_ .f32 0x00000000#32)) j = 0 := by
  unfold broadcastInDim
  exact Ideal.ofBits_zero_f32

/-- Choosing by the one-bit word of a decided proposition is choosing by the proposition. -/
theorem select_decide {α : Type} (p : Prop) [Decidable p] (a b : α) :
    Scalar.select (BitVec.ofBool (decide p)) a b = if p then a else b := by
  unfold Scalar.select
  by_cases h : p
  · rw [if_pos h, decide_eq_true h]; rfl
  · rw [if_neg h, decide_eq_false h]; rfl

/-- The exponential of an array, read at an index. -/
theorem hostExp_apply (x : FVec Ideal S4x262144 .f32) (i : S4x262144.Idx) : Host.exp x i = Ideal.exp (x i) := rfl

/-- The quotient of two arrays, read at an index. -/
theorem hostDivf_apply (x y : FVec Ideal S4x262144 .f32) (i : S4x262144.Idx) : Host.divf x y i = Ideal.div (x i) (y i) := rfl

/-! ## The edge weights -/

theorem leakyT_apply (ev : FVec Ideal S4x262144 .f32) (i : S4x262144.Idx) : leakyT ev i = Spec.leaky (ev i) := by
  unfold leakyT Spec.leaky
  rw [select_apply, cmpf_apply, mulf_apply, bcastZero_apply, bcastConst_apply, Ideal.cmpf_def]
  unfold Ideal.cmp
  exact select_decide _ _ _

/-- On an extended real "unordered with itself, or equal to zero" is "equal to zero": choosing by that word. -/
theorem select_une_oeq (l A : EReal) :
    Scalar.select (IntOp.ori (Ideal.cmp .une l l) (Ideal.cmp .oeq l 0)) A l = if l = 0 then A else l := by
  show Scalar.select (IntOp.ori (BitVec.ofBool (decide (l ≠ l))) (BitVec.ofBool (decide (l = 0)))) A l = _
  rw [ori_ofBool]
  have h : (decide (l ≠ l) || decide (l = 0)) = decide (l = 0) := by
    rw [decide_eq_false (fun hne => hne rfl), Bool.false_or]
  rw [h]
  exact select_decide _ _ _

/-- The program's weight of channel `c`'s edge `e` is the specification's. -/
theorem vT_apply (ev : FVec Ideal S4x262144 .f32) (c : Fin 4) (e : Fin 262144) : vT ev (ix2 c e) = Spec.vS ev c e := by
  unfold vT Spec.vS Spec.vfun
  rw [minimumf_apply, bcastConst_apply, hostExp_apply, select_apply]
  show min (Ideal.exp (Scalar.select (IntOp.ori (FloatOps.cmpf .une (leakyT ev (ix2 c e)) (leakyT ev (ix2 c e)))
      (FloatOps.cmpf .oeq (leakyT ev (ix2 c e)) (broadcastInDim S4x262144 ![] bcast_S_S4x262144 (constant S_ .f32 0x00000000#32) (ix2 c e))))
      (Ideal.ofBits .f32 0xD9FFCB9E#32) (leakyT ev (ix2 c e)))) _ = _
  rw [bcastZero_apply, Ideal.cmpf_def, Ideal.cmpf_def, select_une_oeq, leakyT_apply]

/-! ## The divisors -/

/-- the row of the edge table that holds the nodes the edges leave, as the program holds it -/
abbrev rowV (ei : IVec S2x262144 32) : IVec S262144 32 := fun i => ei (ix2 (0 : Fin 2) (i 0))
/-- the row of the edge table that holds the nodes the edges enter -/
abbrev colV (ei : IVec S2x262144 32) : IVec S262144 32 := fun i => ei (ix2 (1 : Fin 2) (i 0))

/-- A node number read as a signed word is itself. -/
theorem toInt_of_inRange {ei : IVec S2x262144 32} (hR : Spec.InRange ei) (i : S2x262144.Idx) :
    (ei i).toInt = ((ei i).toNat : ℤ) :=
  BitVec.toInt_eq_toNat_of_lt (by have := hR i; omega)

/-- The accumulating scatter over the leaving nodes gives node `n` the sum of the updates of the edges that leave it. -/
theorem sumT_apply (ei : IVec S2x262144 32) (hR : Spec.InRange ei) (v : FVec Ideal S4x262144 .f32) (c : Fin 4) (n : Fin 4096) :
    sumT (rowV ei) v (ix2 c n) = ∑ e ∈ Finset.univ.filter (fun e : Fin 262144 => Spec.rowN ei e = n.val), v (ix2 c e) := by
  unfold sumT
  refine (Cert.IndexedRead.scatterAdd_minor_apply scatter_S4x4096_S262144x1_S4x262144_0_1_1_1 rfl rfl rfl rfl _ _ v c n).trans ?_
  rw [zeroRows_apply, zero_add]
  refine Finset.sum_congr (Finset.filter_congr fun e _ => ?_) (fun _ _ => rfl)
  rw [bcastCol_apply]
  show (ei (ix2 (0 : Fin 2) e)).toInt = (n.val : ℤ) ↔ (ei (ix2 (0 : Fin 2) e)).toNat = n.val
  rw [toInt_of_inRange hR]
  exact Int.ofNat_inj

theorem divT_apply (s : FVec Ideal S4x4096 .f32) (j : S4x4096.Idx) :
    divT s j = if s j = 0 then Spec.litOne else s j := by
  unfold divT
  rw [select_apply, cmpf_apply, bcastZero_apply, Ideal.cmpf_def]
  unfold Ideal.cmp
  exact select_decide _ _ _

/-- The program's divisor of node `n` in channel `c` is the specification's. -/
theorem dT_apply (ei : IVec S2x262144 32) (hR : Spec.InRange ei) (ev : FVec Ideal S4x262144 .f32) (c : Fin 4) (n : Fin 4096) :
    divT (sumT (rowV ei) (vT ev)) (ix2 c n) = Spec.dS ev ei c n := by
  have hs : sumT (rowV ei) (vT ev) (ix2 c n) = Spec.sumRow ev ei c n :=
    (sumT_apply ei hR (vT ev) c n).trans (Finset.sum_congr rfl fun e _ => vT_apply ev c e)
  rw [divT_apply, hs]
  rfl

/-! ## Index words: normalisation does nothing below 2³¹ -/

/-- A word that is not negative as a signed number is left alone by the subscript normalisation. -/
theorem normT_apply_of_small (n : BitVec 32) (z : IVec S262144 32) (i : S262144.Idx) (h : (z i).toNat < 2 ^ 31) :
    normT n z i = z i := by
  unfold normT
  rw [select_apply]
  have h0 : cmpi .slt z (broadcastInDim S262144 ![] bcast_S_S262144 (constantI S_ 32 0#32)) i = 0#1 := by
    show IntOp.cmpi .slt (z i) 0#32 = 0#1
    apply eq_zero_of_ne_one
    rw [slt_iff_toNat h (by decide)]
    exact Nat.not_lt_zero _
  rw [h0, select_zero]

/-- The divisors read back at the edges: edge `e` reads the divisor of the node it leaves. -/
theorem gathT_apply (ei : IVec S2x262144 32) (hR : Spec.InRange ei) (dv : FVec Ideal S4x4096 .f32) (c : Fin 4) (e : Fin 262144) :
    gathT (rowV ei) dv (ix2 c e) = dv (ix2 c (Spec.rowF ei e)) := by
  unfold gathT
  refine (Cert.IndexedRead.gather_minor_apply (by decide) gather_S4x4096_S262144x1_S4x262144_0_1_n_n_1_1_41
    rfl rfl rfl rfl rfl rfl dv _ c e).trans ?_
  have hsmall : (rowV ei (ix1 e)).toNat < 2 ^ 31 := by
    have := hR (ix2 (0 : Fin 2) e)
    show (ei (ix2 (0 : Fin 2) e)).toNat < 2 ^ 31
    omega
  have hidx : (broadcastInDim S262144x1 ![0] bcast_S262144_S262144x1_0 (normT 4096#32 (rowV ei)) (ix2 e (0 : Fin 1))).toInt.toNat
      = Spec.rowN ei e := by
    rw [bcastCol_apply, normT_apply_of_small _ _ _ hsmall]
    show (ei (ix2 (0 : Fin 2) e)).toInt.toNat = (ei (ix2 (0 : Fin 2) e)).toNat
    rw [toInt_of_inRange hR]
    exact Int.toNat_natCast _
  congr 2
  apply Fin.ext
  show min _ (4096 - 1) = min (Spec.rowN ei e) 4095
  rw [hidx]

/-- Row times 4096 plus column does not wrap on node numbers: as a number it is that sum, below 2²⁴. -/
theorem flat_toNat (ei : IVec S2x262144 32) (hR : Spec.InRange ei) (e : Fin 262144) :
    (ei (ix2 (0 : Fin 2) e) * 4096#32 + ei (ix2 (1 : Fin 2) e)).toNat = Spec.rowN ei e * 4096 + Spec.colN ei e := by
  have hr := hR (ix2 (0 : Fin 2) e)
  have hc := hR (ix2 (1 : Fin 2) e)
  unfold Spec.rowN Spec.colN
  rw [BitVec.toNat_add, BitVec.toNat_mul]
  show ((ei (ix2 (0 : Fin 2) e)).toNat * 4096 % 2 ^ 32 + (ei (ix2 (1 : Fin 2) e)).toNat) % 2 ^ 32 = _
  omega

/-- Every edge's flat position, read as a signed number, is its row times 4096 plus its column. -/
theorem flatT_toInt (ei : IVec S2x262144 32) (hR : Spec.InRange ei) (e : Fin 262144) :
    (flatT (rowV ei) (colV ei) (ix1 e)).toInt = ((Spec.rowN ei e * 4096 + Spec.colN ei e : ℕ) : ℤ) := by
  have hr : Spec.rowN ei e < 4096 := hR (ix2 (0 : Fin 2) e)
  have hc : Spec.colN ei e < 4096 := hR (ix2 (1 : Fin 2) e)
  have hp : (addi (muli (rowV ei) (broadcastInDim S262144 ![] bcast_S_S262144 (constantI S_ 32 4096#32))) (colV ei) (ix1 e)).toNat
      = Spec.rowN ei e * 4096 + Spec.colN ei e := flat_toNat ei hR e
  unfold flatT
  rw [normT_apply_of_small _ _ _ (by rw [hp]; omega), BitVec.toInt_eq_toNat_of_lt (by rw [hp]; omega), hp]

/-! ## The dense attention array at an index -/

/-- The program's dense attention entry `(c, n, m)` is the specification's: the normalised weights of the edges `n → m`. -/
theorem attnT_apply (ei : IVec S2x262144 32) (hR : Spec.InRange ei) (ev : FVec Ideal S4x262144 .f32) (c : Fin 4) (n m : Fin 4096) :
    attnT (rowV ei) (colV ei) ev (ix3 c n m) = Spec.attnK ev ei c n m := by
  have hq : n.val * 4096 + m.val < 16777216 := by have := n.isLt; have := m.isLt; omega
  unfold attnT
  -- the flat axis split into rows and columns: entry (c, n, m) is flat entry (c, n · 4096 + m)
  refine (shapeCast_apply _ _ (ix3 c n m) (ix2 c (⟨n.val * 4096 + m.val, hq⟩ : Fin 16777216)) (by
    rw [Shape.rowMajor_val_two, Shape.rowMajor_val_three]
    show c.val * 16777216 + (n.val * 4096 + m.val) = (c.val * 4096 + n.val) * 4096 + m.val
    omega)).trans ?_
  -- the accumulating scatter from zeros: the sum over the edges whose flat position is that entry
  refine (Cert.IndexedRead.scatterAdd_minor_apply scatter_S4x16777216_S262144x1_S4x262144_0_1_1_1 rfl rfl rfl rfl _ _ _ c _).trans ?_
  rw [bcastZero_apply, zero_add]
  unfold Spec.attnK
  refine Finset.sum_congr (Finset.filter_congr fun e _ => ?_) (fun e _ => ?_)
  · -- same flat position ⇔ same row and same column, both columns being below 4096
    have hc : Spec.colN ei e < 4096 := hR (ix2 (1 : Fin 2) e)
    have hm := m.isLt
    rw [bcastCol_apply, flatT_toInt ei hR e]
    show ((Spec.rowN ei e * 4096 + Spec.colN ei e : ℕ) : ℤ) = ((n.val * 4096 + m.val : ℕ) : ℤ) ↔ _
    rw [Int.ofNat_inj]
    omega
  · rw [hostDivf_apply, vT_apply, gathT_apply ei hR, dT_apply ei hR]

/-- After the first launch the program builds the dense attention array: at `(channel, n, m)` the weights of the edges
    `n → m`, each divided by the divisor of its own row, summed. -/
theorem attn_host (W : Valuation τ sig (Elt Ideal)) (ei : IVec S2x262144 32) (hR : Cert.Spec.InRange ei)
    (hrow : W (Proc.devRef .tc main_call0_v1) = fun i : S262144.Idx => ei (ix2 (0 : Fin 2) (i 0)))
    (hcol : W (Proc.devRef .tc main_call0_v3) = fun i : S262144.Idx => ei (ix2 (1 : Fin 2) (i 0))) :
    StableHlo.after (hostOps1 (F := Ideal)) W (Proc.devRef .tc main_v0_1)
      = fun i : S4x4096x4096.Idx => Cert.Spec.attnK (W (Proc.devRef .tc main_arg2)) ei (i 0) (i 1) (i 2) := by
  rw [attnT_eq, hrow, hcol]
  funext i
  obtain ⟨c, n, m, rfl⟩ : ∃ c n m, i = ix3 c n m := ⟨i 0, i 1, i 2, eq_ix3 i⟩
  exact attnT_apply ei hR _ c n m

end Cert.KernelIdeal.HostVal

end
-- ==== Proof.KerProj.lean ====
/-
  The projection h = x · W, read off the first region of the kernel program.

  The region's grid has one point; each of its three windows is the whole of its array (every block index is zero and
  the block's extents are the array's). The body stores, at row p and column q of the output block, the matrix product
  of the two input blocks accumulated into zero: over the extended reals, where a change of float format is the
  identity, that is the sum over k of x (p, k) * W (k, q). The one block covers the output array, so after the region
  the array holds that sum at every index.
-/
import proofs.«412460_j8796093022366_3_alg».proof.Proof.Gen.KernelIdeal.Frame
import proofs.«412460_j8796093022366_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.ProjVal

open Idealize.ShloMosaic Idealize.ShloMosaic.TcCoe Idealize.ShloMosaic.ValueIdx Idealize.SL.Sem Idealize.ShloMosaic.Pipeline Cert.KernelIdeal Cert.KernelIdeal.Gen

/-! ## The product at an index -/

/-- A row index of the left factor: the output's row. -/
theorem lhs_dot_S4096x512_S512x128_S4096x128_1_0_0_1_n_n_0 (j : S4096x128.Idx)
    (k : dot_S4096x512_S512x128_S4096x128_1_0_0_1_n_n.contr.Idx) :
    (dot_S4096x512_S512x128_S4096x128_1_0_0_1_n_n.lhsIdx j k 0).val = (j 0).val := by
  unfold DotDims.lhsIdx
  rw [dif_neg (show ¬(0 : Fin S4096x512.rank) ∈ dot_S4096x512_S512x128_S4096x128_1_0_0_1_n_n.lhsBatch by decide),
    dif_pos (show (0 : Fin S4096x512.rank) ∈ dot_S4096x512_S512x128_S4096x128_1_0_0_1_n_n.lhsNonContracting by decide)]
  rfl

/-- A column index of the left factor: the contraction position. -/
theorem lhs_dot_S4096x512_S512x128_S4096x128_1_0_0_1_n_n_1 (j : S4096x128.Idx)
    (k : dot_S4096x512_S512x128_S4096x128_1_0_0_1_n_n.contr.Idx) :
    (dot_S4096x512_S512x128_S4096x128_1_0_0_1_n_n.lhsIdx j k 1).val = (k ⟨0, by decide⟩).val :=
  DotDims.lhsIdx_val_of_single _ rfl j k

/-- A row index of the right factor: the contraction position. -/
theorem rhs_dot_S4096x512_S512x128_S4096x128_1_0_0_1_n_n_0 (j : S4096x128.Idx)
    (k : dot_S4096x512_S512x128_S4096x128_1_0_0_1_n_n.contr.Idx) :
    (dot_S4096x512_S512x128_S4096x128_1_0_0_1_n_n.rhsIdx j k 0).val = (k ⟨0, by decide⟩).val :=
  DotDims.rhsIdx_val_of_single _ rfl j k

/-- A column index of the right factor: the output's column. -/
theorem rhs_dot_S4096x512_S512x128_S4096x128_1_0_0_1_n_n_1 (j : S4096x128.Idx)
    (k : dot_S4096x512_S512x128_S4096x128_1_0_0_1_n_n.contr.Idx) :
    (dot_S4096x512_S512x128_S4096x128_1_0_0_1_n_n.rhsIdx j k 1).val = (j 1).val := by
  unfold DotDims.rhsIdx
  rw [dif_neg (show ¬(1 : Fin S512x128.rank) ∈ dot_S4096x512_S512x128_S4096x128_1_0_0_1_n_n.rhsBatch by decide),
    dif_pos (show (1 : Fin S512x128.rank) ∈ dot_S4096x512_S512x128_S4096x128_1_0_0_1_n_n.rhsNonContracting by decide)]
  rfl

/-- The stored value at row `p`, column `q`: the row of the first factor against the column of the second. -/
theorem proj_at (x0 : Vec Ideal S4096x512 .f32) (x1 : Vec Ideal S512x128 .f32) (p : Fin 4096) (q : Fin 128) :
    k0_pay1 x0 x1 (ix2 p q) = ∑ k : Fin 512, x0 (ix2 p k) * x1 (ix2 k q) := by
  unfold k0_pay1
  simp only [matmul]
  rw [Ideal.matmul_constant_zero_apply,
    ← Equiv.sum_comp (contrEquiv1 dot_S4096x512_S512x128_S4096x128_1_0_0_1_n_n 512 rfl rfl).symm]
  refine Finset.sum_congr rfl fun k _ => ?_
  rw [truncf_apply, truncf_apply]
  have hk := contrEquiv1_symm_val dot_S4096x512_S512x128_S4096x128_1_0_0_1_n_n 512 rfl rfl k
  congr 2
  · funext a
    apply Fin.ext
    match a with
    | ⟨0, _⟩ => exact lhs_dot_S4096x512_S512x128_S4096x128_1_0_0_1_n_n_0 _ _
    | ⟨1, _⟩ => exact (lhs_dot_S4096x512_S512x128_S4096x128_1_0_0_1_n_n_1 _ _).trans hk
  · funext a
    apply Fin.ext
    match a with
    | ⟨0, _⟩ => exact (rhs_dot_S4096x512_S512x128_S4096x128_1_0_0_1_n_n_0 _ _).trans hk
    | ⟨1, _⟩ => exact rhs_dot_S4096x512_S512x128_S4096x128_1_0_0_1_n_n_1 _ _

/-! ## From the one block to the array -/

variable (V : (c : Dev nD) → (b : Ref sig .tc) → Buf (Elt Ideal) ((c : Thread nD τ).loc b))

theorem offsets_zero : (![0, 0] : Fin 2 → Nat) = fun _ => 0 :=
  funext fun a => by match a with | ⟨0, _⟩ => rfl | ⟨1, _⟩ => rfl

/-- The product of the two argument arrays, index by index. -/
abbrev prodOf (c : Dev nD) : S4096x128.Idx → EReal :=
  fun i => Cert.Spec.hS (V c main_arg0) (V c main_arg1) (i 0) (i 1)

/-- The stored value at any index of the block, with the coordinates named through their values. -/
theorem proj_at_idx (x0 : Vec Ideal S4096x512 .f32) (x1 : Vec Ideal S512x128 .f32) (j : S4096x128.Idx) :
    k0_pay1 x0 x1 j
      = ∑ k : Fin 512, x0 (ix2 (⟨(j 0).val, idx2_lt0 j⟩ : Fin 4096) k) * x1 (ix2 k (⟨(j 1).val, idx2_lt1 j⟩ : Fin 128)) := by
  obtain ⟨p, q, rfl⟩ : ∃ (p : Fin 4096) (q : Fin 128), j = ix2 p q := ⟨j 0, j 1, eq_ix2 j⟩
  exact proj_at x0 x1 p q

/-- The index maps at the grid's points: every block index is zero. -/
theorem block_index_zero : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The first factor's block is the first argument array itself. -/
theorem block_x (c : Dev nD) (t : Fin cfg0.N) (y : S4096x512.Idx) :
    (iblk0 V c 0 t : Vec Ideal S4096x512 .f32) y = (V c main_arg0 : S4096x512.Idx → EReal) y := by
  obtain ⟨e0, e1, -⟩ := block_index_zero t
  unfold iblk0
  rw [View.read_apply]
  show V c main_arg0 _ = V c main_arg0 _
  congr 1
  funext a
  apply Fin.ext
  match a with
  | ⟨0, _⟩ => show win0_0.index t (0 : Fin 2) * 4096 + 1 * (y 0).val = (y 0).val; rw [e0]; omega
  | ⟨1, _⟩ => show win0_0.index t (1 : Fin 2) * 512 + 1 * (y 1).val = (y 1).val; rw [e1]; omega

/-- The second factor's block is the second argument array itself. -/
theorem block_w (c : Dev nD) (t : Fin cfg0.N) (y : S512x128.Idx) :
    (iblk0 V c 1 t : Vec Ideal S512x128 .f32) y = (V c main_arg1 : S512x128.Idx → EReal) y := by
  obtain ⟨-, -, e0, e1, -⟩ := block_index_zero t
  unfold iblk0
  rw [View.read_apply]
  show V c main_arg1 _ = V c main_arg1 _
  congr 1
  funext a
  apply Fin.ext
  match a with
  | ⟨0, _⟩ => show win0_1.index t (0 : Fin 2) * 512 + 1 * (y 0).val = (y 0).val; rw [e0]; omega
  | ⟨1, _⟩ => show win0_1.index t (1 : Fin 2) * 128 + 1 * (y 1).val = (y 1).val; rw [e1]; omega

/-- What the point writes back is the product read through the point's block. -/
theorem written_eq (c : Dev nD) (t : Fin cfg0.N) :
    (dat0 (F := Ideal) V c).flushed 2 t = ((cfg0.win 2).blk t).view.read (Elt Ideal) (prodOf V c) := by
  show (cfg0.win 2).cut (grid0.coords t) ((dat0 V c).after 2 t) = _
  rw [after0_2]
  unfold out0_2
  rw [View.canon_unit_zero offsets_zero]
  simp only [View.ld_unit_zero (S := S4096x512) offsets_zero, View.ld_unit_zero (S := S512x128) offsets_zero]
  obtain ⟨-, -, -, -, e0, e1⟩ := block_index_zero t
  funext j
  show k0_pay1 (iblk0 V c 0 t) (iblk0 V c 1 t) j = prodOf V c (((cfg0.win 2).blk t).view.emb j)
  have hp : (⟨(j 0).val, idx2_lt0 j⟩ : Fin 4096) = ((cfg0.win 2).blk t).view.emb j 0 := by
    apply Fin.ext
    show (j 0).val = win0_2.index t (0 : Fin 2) * 4096 + 1 * (j 0).val
    rw [e0]; omega
  have hq : (⟨(j 1).val, idx2_lt1 j⟩ : Fin 128) = ((cfg0.win 2).blk t).view.emb j 1 := by
    apply Fin.ext
    show (j 1).val = win0_2.index t (1 : Fin 2) * 128 + 1 * (j 1).val
    rw [e1]; omega
  rw [proj_at_idx, hp, hq]
  show _ = Cert.Spec.hS _ _ _ _
  unfold Cert.Spec.hS
  refine Finset.sum_congr rfl fun k _ => ?_
  rw [block_x, block_w]

/-- An index of the array is in the point's block iff each coordinate is in the block's range on its axis. -/
theorem mem_block (t : Fin cfg0.N) (i : S4096x128.Idx) :
    i ∈ ((cfg0.win 2).blk t).view.set ↔ ∀ a : Fin 2, win0_2.index t a * S4096x128.size a ≤ (i a).val ∧ (i a).val < win0_2.index t a * S4096x128.size a + S4096x128.size a := by
  show i ∈ ((View.whole main_call0_v4).slice (win0_2.rect t)).set ↔ _
  rw [View.set_slice_whole, Rect.mem_set_unit]
  exact Iff.rfl

/-- The one block holds every index of the array. -/
theorem covered (i : S4096x128.Idx) :
    ∃ t : Fin cfg0.N, (cfg0.win 2).flush t = true ∧ i ∈ ((cfg0.win 2).blk t).view.set := by
  obtain ⟨-, -, -, -, e0, e1⟩ := block_index_zero t0_0
  have hi0 : (i 0).val < 4096 := idx2_lt0 i
  have hi1 : (i 1).val < 128 := idx2_lt1 i
  refine ⟨t0_0, flush0_2 t0_0, ?_⟩
  rw [mem_block]
  intro a
  match a with
  | ⟨0, _⟩ => show win0_2.index t0_0 (0 : Fin 2) * 4096 ≤ (i 0).val ∧ (i 0).val < win0_2.index t0_0 (0 : Fin 2) * 4096 + 4096; omega
  | ⟨1, _⟩ => show win0_2.index t0_0 (1 : Fin 2) * 128 ≤ (i 1).val ∧ (i 1).val < win0_2.index t0_0 (1 : Fin 2) * 128 + 128; omega

/-- After the region the output array holds the product of the two argument arrays, index by index. -/
theorem h_final (c : Dev nD) :
    (dat0 (F := Ideal) V c).arrAt 2 cfg0.N
      = fun i : S4096x128.Idx => Cert.Spec.hS (V c main_arg0) (V c main_arg1) (i 0) (i 1) :=
  (dat0 (F := Ideal) V c).arrAt_eq_of_cover 2 (prodOf V c) (fun t _ => written_eq V c t) covered

end Cert.KernelIdeal.ProjVal

end
-- ==== Proof.KerMain.lean ====
/-
  Region 1, read as values over the extended reals. The grid has 16 points; at point t the kernel holds rows
  256·t … 256·t + 255 of every channel of the attention array [4,4096,4096], all of the features [4096,128], and
  writes rows 256·t … 256·t + 255 of the output [4096,512]. For each channel c = 0 … 3 it multiplies slab c of the
  attention block with the features into a zero accumulator, applies ELU as `select (a > 0) a (exp (min a 0) − 1)`,
  and stores the [256,128] result at columns 128·c … 128·c + 127.

  Here: the word 0x3F800000 is 1 and that select is ELU (`one_word`, `elu_scalar`); the matrix product at an index is
  the sum over the 4096 contracted coordinates (`mm_apply`); each of the four stored pieces at (p, q) is ELU of slab
  row p against feature column q (`pay_c0_apply` … `pay_c3_apply`); the four stores together are one function of
  the block's index, column j being feature j % 128 of channel j / 128 (`blkFun`, `out_blk_eq`); what point t writes
  back is block t of one function of the whole arrays (`outFun`, `flushed_eq`); row r lies in the block of point
  r / 256 (`cover`); so the array ends holding that function (`out_final`, `out_final_fun`).
-/
import proofs.«412460_j8796093022366_3_alg».proof.Proof.Gen.KernelIdeal.Frame
import proofs.«412460_j8796093022366_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.MainVal

open Idealize.ShloMosaic Idealize.ShloMosaic.TcCoe Idealize.ShloMosaic.ValueIdx Idealize.SL.Sem
open Idealize.ShloMosaic.Pipeline Cert.KernelIdeal Cert.KernelIdeal.Gen

/-- the f32 word of one is the extended real one -/
theorem one_word : Ideal.ofBits .f32 0x3F800000#32 = 1 := by
  simp [Ideal.ofBits, Ideal.ieee]
  rw [← EReal.coe_mul]; norm_num

/-- ELU as the select of a comparison, at one extended real -/
theorem elu_scalar (a : EReal) :
    Scalar.select (Ideal.cmp .ogt a (Ideal.ofBits .f32 0x00000000#32)) a
        (Ideal.exp (min a (Ideal.ofBits .f32 0x00000000#32)) - Ideal.ofBits .f32 0x3F800000#32)
      = Cert.Spec.eluS a := by
  rw [Ideal.ofBits_zero_f32, one_word]
  unfold Cert.Spec.eluS Ideal.cmp
  by_cases h : (0 : EReal) < a
  · simp [h, Scalar.select]
  · have hm : min a 0 = a := min_eq_left (not_lt.mp h)
    simp [h, Scalar.select, hm]

/-! ## The contraction of a [256,4096] block with a [4096,128] block -/

theorem lhs_dot_S256x4096_S4096x128_S256x128_1_0_0_1_n_n_0 (j : S256x128.Idx) (k : dot_S256x4096_S4096x128_S256x128_1_0_0_1_n_n.contr.Idx) :
    (dot_S256x4096_S4096x128_S256x128_1_0_0_1_n_n.lhsIdx j k 0 : ℕ) = j 0 := by
  simp [DotDims.lhsIdx, dot_S256x4096_S4096x128_S256x128_1_0_0_1_n_n]; rfl
theorem lhs_dot_S256x4096_S4096x128_S256x128_1_0_0_1_n_n_1 (j : S256x128.Idx) (k : dot_S256x4096_S4096x128_S256x128_1_0_0_1_n_n.contr.Idx) :
    (dot_S256x4096_S4096x128_S256x128_1_0_0_1_n_n.lhsIdx j k 1 : ℕ) = k ⟨0, by decide⟩ := by
  simp [DotDims.lhsIdx, dot_S256x4096_S4096x128_S256x128_1_0_0_1_n_n]; rfl
theorem rhs_dot_S256x4096_S4096x128_S256x128_1_0_0_1_n_n_0 (j : S256x128.Idx) (k : dot_S256x4096_S4096x128_S256x128_1_0_0_1_n_n.contr.Idx) :
    (dot_S256x4096_S4096x128_S256x128_1_0_0_1_n_n.rhsIdx j k 0 : ℕ) = k ⟨0, by decide⟩ := by
  simp [DotDims.rhsIdx, dot_S256x4096_S4096x128_S256x128_1_0_0_1_n_n]; rfl
theorem rhs_dot_S256x4096_S4096x128_S256x128_1_0_0_1_n_n_1 (j : S256x128.Idx) (k : dot_S256x4096_S4096x128_S256x128_1_0_0_1_n_n.contr.Idx) :
    (dot_S256x4096_S4096x128_S256x128_1_0_0_1_n_n.rhsIdx j k 1 : ℕ) = j 1 := by
  simp [DotDims.rhsIdx, dot_S256x4096_S4096x128_S256x128_1_0_0_1_n_n]; rfl

/-- the matrix product into the zero accumulator, at (p, q): the sum over the 4096 contracted coordinates -/
theorem mm_apply (A : FVec Ideal S256x4096 .bf16) (B : FVec Ideal S4096x128 .bf16) (p : Fin 256) (q : Fin 128) :
    matmul dot_S256x4096_S4096x128_S256x128_1_0_0_1_n_n none A B (constant (F := Ideal) S256x128 .f32 0x00000000#32) (ix2 p q)
      = ∑ m : Fin 4096, A (ix2 p m) * B (ix2 m q) := by
  show FloatOps.matmul _ none A B (constant (F := Ideal) S256x128 .f32 0x00000000#32) (ix2 p q) = _
  rw [Ideal.matmul_constant_zero_apply,
    ← Equiv.sum_comp (contrEquiv1 dot_S256x4096_S4096x128_S256x128_1_0_0_1_n_n 4096 rfl rfl).symm]
  refine Finset.sum_congr rfl fun m _ => ?_
  have cm := contrEquiv1_symm_val dot_S256x4096_S4096x128_S256x128_1_0_0_1_n_n 4096 rfl rfl m
  have hl : dot_S256x4096_S4096x128_S256x128_1_0_0_1_n_n.lhsIdx (ix2 p q)
      ((contrEquiv1 dot_S256x4096_S4096x128_S256x128_1_0_0_1_n_n 4096 rfl rfl).symm m) = ix2 p m := by
    funext ax; apply Fin.ext
    match ax with
    | ⟨0, _⟩ => exact lhs_dot_S256x4096_S4096x128_S256x128_1_0_0_1_n_n_0 _ _
    | ⟨1, _⟩ => exact (lhs_dot_S256x4096_S4096x128_S256x128_1_0_0_1_n_n_1 _ _).trans cm
  have hr : dot_S256x4096_S4096x128_S256x128_1_0_0_1_n_n.rhsIdx (ix2 p q)
      ((contrEquiv1 dot_S256x4096_S4096x128_S256x128_1_0_0_1_n_n 4096 rfl rfl).symm m) = ix2 m q := by
    funext ax; apply Fin.ext
    match ax with
    | ⟨0, _⟩ => exact (rhs_dot_S256x4096_S4096x128_S256x128_1_0_0_1_n_n_0 _ _).trans cm
    | ⟨1, _⟩ => exact rhs_dot_S256x4096_S4096x128_S256x128_1_0_0_1_n_n_1 _ _
  rw [hl, hr]

/-! ## The four stored pieces, at an index -/

/-- ELU as the body spells it, of any [256,128] block, at an index -/
theorem elu_vec_apply (a : FVec Ideal S256x128 .f32) (j : S256x128.Idx) :
    select (cmpf .ogt a (broadcast S256x128 (Scalar.ofBits (F := Ideal) .f32 0x00000000#32))) a
        (subf (exp (minimumf a (broadcast S256x128 (Scalar.ofBits (F := Ideal) .f32 0x00000000#32))))
          (broadcast S256x128 (Scalar.ofBits (F := Ideal) .f32 0x3F800000#32))) j
      = Cert.Spec.eluS (a j) :=
  elu_scalar (a j)

/-- a slab [1,256,4096] with its unit axis dropped, against the features, into the zero accumulator, at (p, q) -/
theorem mm_slab_apply (hv : Vec Ideal S4096x128 .f32) (slab : Vec Ideal S1x256x4096 .f32) (p : Fin 256) (q : Fin 128) :
    matmul dot_S256x4096_S4096x128_S256x128_1_0_0_1_n_n none
        (truncf .bf16 (shapeCast S256x4096 slab shapeCasts_S1x256x4096_S256x4096) bitsLt_bf16_f32)
        (k1_pay3 hv) (constant (F := Ideal) S256x128 .f32 0x00000000#32) (ix2 p q)
      = ∑ m : Fin 4096, slab (ix3 (0 : Fin 1) p m) * hv (ix2 m q) := by
  rw [mm_apply]
  refine Finset.sum_congr rfl fun m _ => ?_
  unfold k1_pay3
  rw [truncf_apply, truncf_apply, shapeCast_1ab_ab_apply, shapeCast_self]

/-- channel 0's piece -/
theorem pay_c0_apply (hv : Vec Ideal S4096x128 .f32) (slab : Vec Ideal S1x256x4096 .f32) (p : Fin 256) (q : Fin 128) :
    k1_pay4 hv slab (ix2 p q) = Cert.Spec.eluS (∑ m : Fin 4096, slab (ix3 (0 : Fin 1) p m) * hv (ix2 m q)) := by
  unfold k1_pay4
  exact (elu_vec_apply _ _).trans (congrArg Cert.Spec.eluS (mm_slab_apply hv slab p q))

/-- channel 1's piece -/
theorem pay_c1_apply (hv : Vec Ideal S4096x128 .f32) (slab : Vec Ideal S1x256x4096 .f32) (p : Fin 256) (q : Fin 128) :
    k1_pay5 hv slab (ix2 p q) = Cert.Spec.eluS (∑ m : Fin 4096, slab (ix3 (0 : Fin 1) p m) * hv (ix2 m q)) := by
  unfold k1_pay5
  exact (elu_vec_apply _ _).trans (congrArg Cert.Spec.eluS (mm_slab_apply hv slab p q))

/-- channel 2's piece -/
theorem pay_c2_apply (hv : Vec Ideal S4096x128 .f32) (slab : Vec Ideal S1x256x4096 .f32) (p : Fin 256) (q : Fin 128) :
    k1_pay1 (k1_pay6 hv slab) (ix2 p q) = Cert.Spec.eluS (∑ m : Fin 4096, slab (ix3 (0 : Fin 1) p m) * hv (ix2 m q)) := by
  unfold k1_pay1 k1_pay6
  exact (elu_vec_apply _ _).trans (congrArg Cert.Spec.eluS (mm_slab_apply hv slab p q))

/-- channel 3's piece -/
theorem pay_c3_apply (hv : Vec Ideal S4096x128 .f32) (slab : Vec Ideal S1x256x4096 .f32) (p : Fin 256) (q : Fin 128) :
    k1_pay2 (k1_pay3 hv) slab (ix2 p q) = Cert.Spec.eluS (∑ m : Fin 4096, slab (ix3 (0 : Fin 1) p m) * hv (ix2 m q)) := by
  unfold k1_pay2
  exact (elu_vec_apply _ _).trans (congrArg Cert.Spec.eluS (mm_slab_apply hv slab p q))

/-! ## The output block after the body, as one function of the block's index -/

/-- the output block [256,512] from the attention block [4,256,4096] and the features: column j is feature j % 128 of
    channel j / 128 -/
def blkFun (x0 : Vec Ideal S4x256x4096 .f32) (x1 : Vec Ideal S4096x128 .f32) : S256x512.Idx → EReal := fun y =>
  Cert.Spec.eluS (∑ m : Fin 4096, x0 (ix3 (Cert.Spec.chanOf (y 1)) (y 0) m) * x1 (ix2 m (Cert.Spec.featOf (y 1))))

/-- at row p and column 128·ch + q it is channel ch's product at (p, q), under ELU -/
theorem blkFun_at (x0 : Vec Ideal S4x256x4096 .f32) (x1 : Vec Ideal S4096x128 .f32) (ch : Fin 4) (p : Fin 256) (q : Fin 128)
    (y : S256x512.Idx) (hy0 : (y 0).val = p.val) (hy1 : (y 1).val = 128 * ch.val + q.val) :
    blkFun x0 x1 y = Cert.Spec.eluS (∑ m : Fin 4096, x0 (ix3 ch p m) * x1 (ix2 m q)) := by
  have hq := q.isLt
  have hc := ch.isLt
  have e1 : Cert.Spec.chanOf (y 1) = ch := Fin.ext (by show (y 1).val / 128 = ch.val; omega)
  have e2 : Cert.Spec.featOf (y 1) = q := Fin.ext (by show (y 1).val % 128 = q.val; omega)
  have e0 : (y 0 : Fin 256) = p := Fin.ext hy0
  show Cert.Spec.eluS (∑ m : Fin 4096, x0 (ix3 (Cert.Spec.chanOf (y 1)) (y 0 : Fin 256) m) * x1 (ix2 m (Cert.Spec.featOf (y 1)))) = _
  rw [e1, e2, e0]

/-- slab ch of the attention block, loaded as [1,256,4096], at (0, p, m) -/
theorem ld_slab_apply (x0 : Vec Ideal S4x256x4096 .f32) (off : Fin 3 → ℕ)
    (inb : ∀ a, off a + S1x256x4096.size a ≤ S4x256x4096.size a) (ch : Fin 4)
    (h0 : off 0 = ch.val) (h1 : off 1 = 0) (h2 : off 2 = 0) (p : Fin 256) (m : Fin 4096) :
    View.ld x0 (Rect.unit (s := S4x256x4096) off S1x256x4096.size inb) (ix3 (0 : Fin 1) p m) = x0 (ix3 ch p m) := by
  show x0 _ = x0 _
  congr 1
  funext a; apply Fin.ext
  match a with
  | ⟨0, _⟩ => show off 0 + 1 * 0 = ch.val; omega
  | ⟨1, _⟩ => show off 1 + 1 * p.val = p.val; omega
  | ⟨2, _⟩ => show off 2 + 1 * m.val = m.val; omega

theorem zero2 : (![0, 0] : Fin 2 → Nat) = fun _ => 0 := funext fun a => by fin_cases a <;> rfl

/-- the four stores leave the block function -/
theorem out_blk_eq (x0 : Vec Ideal S4x256x4096 .f32) (x1 : Vec Ideal S4096x128 .f32) :
    out1_2 x0 x1 = blkFun x0 x1 := by
  funext y
  unfold out1_2
  refine View.canon_apply_of_pieces (Val := Elt Ideal) (e := .f32) (blkFun x0 x1) _ ?_ y (cover1_2 _ _ _ _ y)
  intro pc hpc
  simp only [List.mem_cons, List.mem_singleton, List.not_mem_nil, or_false] at hpc
  rcases hpc with rfl | rfl | rfl | rfl <;> intro x <;>
    obtain ⟨p, q, rfl⟩ : ∃ (p : Fin 256) (q : Fin 128), x = ix2 p q := ⟨x 0, x 1, eq_ix2 x⟩
  · show k1_pay2 (k1_pay3 (View.ld x1 r1_0)) (View.ld x0 r1_7) (ix2 p q) = _
    rw [pay_c3_apply, View.ld_unit_zero (S := S4096x128) zero2]
    rw [blkFun_at x0 x1 3 p q _ (by show 0 + 1 * p.val = p.val; omega) (by show 384 + 1 * q.val = 128 * 3 + q.val; omega)]
    refine congrArg Cert.Spec.eluS (Finset.sum_congr rfl fun m _ => ?_)
    rw [ld_slab_apply x0 ![3, 0, 0] _ 3 rfl rfl rfl p m]
  · show k1_pay1 (k1_pay6 (View.ld x1 r1_0) (View.ld x0 r1_5)) (ix2 p q) = _
    rw [pay_c2_apply, View.ld_unit_zero (S := S4096x128) zero2]
    rw [blkFun_at x0 x1 2 p q _ (by show 0 + 1 * p.val = p.val; omega) (by show 256 + 1 * q.val = 128 * 2 + q.val; omega)]
    refine congrArg Cert.Spec.eluS (Finset.sum_congr rfl fun m _ => ?_)
    rw [ld_slab_apply x0 ![2, 0, 0] _ 2 rfl rfl rfl p m]
  · show k1_pay5 (View.ld x1 r1_0) (View.ld x0 r1_3) (ix2 p q) = _
    rw [pay_c1_apply, View.ld_unit_zero (S := S4096x128) zero2]
    rw [blkFun_at x0 x1 1 p q _ (by show 0 + 1 * p.val = p.val; omega) (by show 128 + 1 * q.val = 128 * 1 + q.val; omega)]
    refine congrArg Cert.Spec.eluS (Finset.sum_congr rfl fun m _ => ?_)
    rw [ld_slab_apply x0 ![1, 0, 0] _ 1 rfl rfl rfl p m]
  · show k1_pay4 (View.ld x1 r1_0) (View.ld x0 r1_1) (ix2 p q) = _
    rw [pay_c0_apply, View.ld_unit_zero (S := S4096x128) zero2]
    rw [blkFun_at x0 x1 0 p q _ (by show 0 + 1 * p.val = p.val; omega) (by show 0 + 1 * q.val = 128 * 0 + q.val; omega)]
    refine congrArg Cert.Spec.eluS (Finset.sum_congr rfl fun m _ => ?_)
    rw [ld_slab_apply x0 ![0, 0, 0] _ 0 rfl rfl rfl p m]

/-! ## From blocks to the array -/

variable (V : (c : Dev nD) → (b : Ref sig .tc) → Buf (Elt Ideal) ((c : Thread nD τ).loc b))

/-- the whole output array [4096,512] from the attention array [4,4096,4096] and the features [4096,128] -/
def outFun (A : S4x4096x4096.Idx → EReal) (H : S4096x128.Idx → EReal) : S4096x512.Idx → EReal := fun i =>
  Cert.Spec.eluS (∑ m : Fin 4096, A (ix3 (Cert.Spec.chanOf (i 1)) (i 0) m) * H (ix2 m (Cert.Spec.featOf (i 1))))

/-- the array function at an index -/
theorem outFun_apply (A : S4x4096x4096.Idx → EReal) (H : S4096x128.Idx → EReal) (i : S4096x512.Idx) :
    outFun A H i = Cert.Spec.eluS (∑ m : Fin 4096, A (ix3 (Cert.Spec.chanOf (i 1)) (i 0) m) * H (ix2 m (Cert.Spec.featOf (i 1)))) :=
  rfl

/-- the block function of rows 256·T … 256·T + 255 of the attention array and of all the features is the array function
    read through those rows -/
theorem blkFun_of_arr (A : S4x4096x4096.Idx → EReal) (H : S4096x128.Idx → EReal)
    (x0 : Vec Ideal S4x256x4096 .f32) (x1 : Vec Ideal S4096x128 .f32) (T : ℕ)
    (h0 : ∀ (ch : Fin 4) (p : Fin 256) (m : Fin 4096) (r : Fin 4096), r.val = 256 * T + p.val →
      x0 (ix3 ch p m) = A (ix3 ch r m))
    (h1 : ∀ (m : Fin 4096) (q : Fin 128), x1 (ix2 m q) = H (ix2 m q))
    (j : S256x512.Idx) (i : S4096x512.Idx) (hi0 : (i 0).val = 256 * T + (j 0).val) (hi1 : (i 1).val = (j 1).val) :
    blkFun x0 x1 j = outFun A H i := by
  have e1 : Cert.Spec.chanOf (j 1) = Cert.Spec.chanOf (i 1) := Fin.ext (by show (j 1).val / 128 = (i 1).val / 128; rw [hi1])
  have e2 : Cert.Spec.featOf (j 1) = Cert.Spec.featOf (i 1) := Fin.ext (by show (j 1).val % 128 = (i 1).val % 128; rw [hi1])
  show Cert.Spec.eluS (∑ m : Fin 4096, x0 (ix3 (Cert.Spec.chanOf (j 1)) (j 0 : Fin 256) m) * x1 (ix2 m (Cert.Spec.featOf (j 1))))
    = Cert.Spec.eluS (∑ m : Fin 4096, A (ix3 (Cert.Spec.chanOf (i 1)) (i 0 : Fin 4096) m) * H (ix2 m (Cert.Spec.featOf (i 1))))
  rw [e1, e2]
  refine congrArg Cert.Spec.eluS (Finset.sum_congr rfl fun m _ => ?_)
  rw [h0 _ (j 0 : Fin 256) m (i 0 : Fin 4096) hi0, h1]

/-- the printed index maps over the 16 points: the attention window moves along rows with the output window, the features
    stay -/
theorem idx_facts : ∀ t : Fin cfg1.N,
    win1_0.index t (0 : Fin 3) = 0 ∧ win1_0.index t (1 : Fin 3) = t.val ∧ win1_0.index t (2 : Fin 3) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- the attention window's block at point t is rows 256·t … of every channel -/
theorem iblk_attn_apply (c : Dev nD) (t : Fin cfg1.N) (ch : Fin 4) (p : Fin 256) (m : Fin 4096) (r : Fin 4096)
    (hr : r.val = 256 * t.val + p.val) :
    (iblk1 V c 0 t : Vec Ideal S4x256x4096 .f32) (ix3 ch p m) = (V c main_v0_1 : S4x4096x4096.Idx → EReal) (ix3 ch r m) := by
  obtain ⟨e0, e1, e2, -, -, -, -⟩ := idx_facts t
  unfold iblk1
  rw [View.read_apply]
  show V c main_v0_1 _ = V c main_v0_1 _
  congr 1
  funext a; apply Fin.ext
  match a with
  | ⟨0, _⟩ => show win1_0.index t (0 : Fin 3) * 4 + 1 * ch.val = ch.val; rw [e0]; omega
  | ⟨1, _⟩ => show win1_0.index t (1 : Fin 3) * 256 + 1 * p.val = r.val; rw [e1, hr]; omega
  | ⟨2, _⟩ => show win1_0.index t (2 : Fin 3) * 4096 + 1 * m.val = m.val; rw [e2]; omega

/-- the features' window holds all of them at every point -/
theorem iblk_feat_apply (c : Dev nD) (t : Fin cfg1.N) (m : Fin 4096) (q : Fin 128) :
    (iblk1 V c 1 t : Vec Ideal S4096x128 .f32) (ix2 m q) = (V c main_call0_v4 : S4096x128.Idx → EReal) (ix2 m q) := by
  obtain ⟨-, -, -, e3, e4, -, -⟩ := idx_facts t
  unfold iblk1
  rw [View.read_apply]
  show V c main_call0_v4 _ = V c main_call0_v4 _
  congr 1
  funext a; apply Fin.ext
  match a with
  | ⟨0, _⟩ => show win1_1.index t (0 : Fin 2) * 4096 + 1 * m.val = m.val; rw [e3]; omega
  | ⟨1, _⟩ => show win1_1.index t (1 : Fin 2) * 128 + 1 * q.val = q.val; rw [e4]; omega

/-- what point t writes back is block t of the array function -/
theorem flushed_eq (c : Dev nD) (t : Fin cfg1.N) :
    (dat1 (F := Ideal) V c).flushed 2 t
      = ((cfg1.win 2).blk t).view.read (Elt Ideal) (outFun (V c main_v0_1) (V c main_call0_v4)) := by
  show (cfg1.win 2).cut (grid1.coords t) ((dat1 V c).after 2 t) = _
  rw [after1_2, out_blk_eq (iblk1 V c 0 t) (iblk1 V c 1 t)]
  obtain ⟨-, -, -, -, -, e5, e6⟩ := idx_facts t
  funext j
  show blkFun (iblk1 V c 0 t) (iblk1 V c 1 t) j
    = outFun (V c main_v0_1) (V c main_call0_v4) (((cfg1.win 2).blk t).view.emb j)
  refine blkFun_of_arr (V c main_v0_1) (V c main_call0_v4) (iblk1 V c 0 t) (iblk1 V c 1 t) t.val
    (fun ch p m r hr => iblk_attn_apply V c t ch p m r hr) (fun m q => iblk_feat_apply V c t m q) j _ ?_ ?_
  · show win1_2.index t (0 : Fin 2) * 256 + 1 * (j 0).val = 256 * t.val + (j 0).val; rw [e5]; omega
  · show win1_2.index t (1 : Fin 2) * 512 + 1 * (j 1).val = (j 1).val; rw [e6]; omega

/-- an index of the array is in point t's block iff each coordinate is in the block's range on its axis -/
theorem mem_blk (t : Fin cfg1.N) (i : S4096x512.Idx) :
    i ∈ ((cfg1.win 2).blk t).view.set ↔ ∀ a : Fin 2, win1_2.index t a * S256x512.size a ≤ (i a).val
      ∧ (i a).val < win1_2.index t a * S256x512.size a + S256x512.size a := by
  show i ∈ ((View.whole main_v0_0).slice (win1_2.rect t)).set ↔ _
  rw [View.set_slice_whole, Rect.mem_set_unit]
  exact Iff.rfl

/-- row r is in the block of point r / 256 -/
theorem cover (i : S4096x512.Idx) :
    ∃ t : Fin cfg1.N, (cfg1.win 2).flush t = true ∧ i ∈ ((cfg1.win 2).blk t).view.set := by
  have hi0 : (i 0).val < 4096 := (i 0).isLt
  have hi1 : (i 1).val < 512 := (i 1).isLt
  have hN : grid1.N = 16 := N_1
  obtain ⟨t, ht⟩ : ∃ t : Fin cfg1.N, t.val = (i 0).val / 256 :=
    ⟨⟨(i 0).val / 256, by show (i 0).val / 256 < grid1.N; omega⟩, rfl⟩
  obtain ⟨-, -, -, -, -, e5, e6⟩ := idx_facts t
  refine ⟨t, flush1_2 t, ?_⟩
  rw [mem_blk]
  intro a
  match a with
  | ⟨0, _⟩ =>
    show win1_2.index t (0 : Fin 2) * 256 ≤ (i 0).val ∧ (i 0).val < win1_2.index t (0 : Fin 2) * 256 + 256
    rw [e5, ht]; omega
  | ⟨1, _⟩ =>
    show win1_2.index t (1 : Fin 2) * 512 ≤ (i 1).val ∧ (i 1).val < win1_2.index t (1 : Fin 2) * 512 + 512
    rw [e6]; omega

/-- THE OUTPUT ARRAY after the region is the array function of the attention array and the features the region finds -/
theorem out_final (c : Dev nD) :
    (dat1 (F := Ideal) V c).arrAt 2 cfg1.N = outFun (V c main_v0_1) (V c main_call0_v4) :=
  (dat1 (F := Ideal) V c).arrAt_eq_of_cover 2 (outFun (V c main_v0_1) (V c main_call0_v4))
    (fun t _ => flushed_eq V c t) cover

/-- the same, index by index, over any names `A`, `H` for the two arrays the region finds: ELU of the attention row of the
    column's channel against the column's feature -/
theorem out_final_fun (c : Dev nD) (A : S4x4096x4096.Idx → EReal) (H : S4096x128.Idx → EReal)
    (hA : V c main_v0_1 = A) (hH : V c main_call0_v4 = H) :
    (dat1 (F := Ideal) V c).arrAt 2 cfg1.N
      = fun i : S4096x512.Idx => Cert.Spec.eluS (∑ m : Fin 4096,
          A (ix3 (Cert.Spec.chanOf (i 1)) (i 0) m) * H (ix2 m (Cert.Spec.featOf (i 1)))) := by
  subst hA hH
  exact out_final V c

end Cert.KernelIdeal.MainVal

end
-- ==== Proof.KerValue.lean ====
/-
  The kernel program's two results as functions of the launch contents, at the ideal instance: the dense attention
  array is what the host operations before the last region computed from the edge weights and the edge table
  (each edge weight divided by its row's divisor, then summed per position), and the output is the ELU of that
  array against the projected features, row block by row block.
-/
import proofs.«412460_j8796093022366_3_alg».proof.Proof.KerFold
import proofs.«412460_j8796093022366_3_alg».proof.Proof.KerHost
import proofs.«412460_j8796093022366_3_alg».proof.Proof.KerProj
import proofs.«412460_j8796093022366_3_alg».proof.Proof.KerMain

set_option maxRecDepth 16384

noncomputable section

namespace Cert.KernelIdeal.Fold

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The dense attention array the program returns: at `(channel, n, m)` the edges `n → m`, each weight over its row's
    divisor, summed. -/
theorem attn_value (c : Dev nD) (hR : Cert.Spec.InRange (m ((c : Thread nD τ).loc main_arg3))) :
    W4 m ρ c (Proc.devRef .tc main_v0_1)
      = fun i : S4x4096x4096.Idx => Cert.Spec.attnK (m ((c : Thread nD τ).loc main_arg2)) (m ((c : Thread nD τ).loc main_arg3)) (i 0) (i 1) (i 2) := by
  rw [W4_attn]
  have hrc := Cert.KernelIdeal.HostVal.rowcol_host (W0 m ρ c)
  have h := Cert.KernelIdeal.HostVal.attn_host (W2 m ρ c) (m ((c : Thread nD τ).loc main_arg3)) hR
    ((W2_row m ρ c).trans hrc.1) ((W2_col m ρ c).trans hrc.2)
  rw [W2_arg2] at h
  exact h

/-- The output the program returns: at `(n, j)` the ELU of the dense attention row `n` of channel `j / 128` against
    column `j % 128` of the projected features. -/
theorem out_value (c : Dev nD) (hR : Cert.Spec.InRange (m ((c : Thread nD τ).loc main_arg3))) :
    W4 m ρ c (Proc.devRef .tc main_v0_0)
      = fun i : S4096x512.Idx => Cert.Spec.eluS (Cert.Spec.aggK (m ((c : Thread nD τ).loc main_arg0)) (m ((c : Thread nD τ).loc main_arg1))
          (m ((c : Thread nD τ).loc main_arg2)) (m ((c : Thread nD τ).loc main_arg3)) (Cert.Spec.chanOf (i 1)) (i 0) (Cert.Spec.featOf (i 1))) := by
  have hA : V3 m ρ c main_v0_1 = fun i : S4x4096x4096.Idx => Cert.Spec.attnK (m ((c : Thread nD τ).loc main_arg2)) (m ((c : Thread nD τ).loc main_arg3)) (i 0) (i 1) (i 2) :=
    (W4_attn m ρ c).symm.trans (attn_value m ρ c hR)
  have hH : V3 m ρ c main_call0_v4 = fun i : S4096x128.Idx => Cert.Spec.hS (m ((c : Thread nD τ).loc main_arg0)) (m ((c : Thread nD τ).loc main_arg1)) (i 0) (i 1) := by
    have := (W3_h m ρ c).trans (Cert.KernelIdeal.ProjVal.h_final (V1 m ρ) c)
    rw [V1_arg0, V1_arg1] at this
    exact this
  rw [W4_out, Cert.KernelIdeal.MainVal.out_final_fun (V3 m ρ) c _ _ hA hH]
  rfl

end Cert.KernelIdeal.Fold

end
-- ==== Proof.RefOps.lean ====
import proofs.«412460_j8796093022366_3_alg».proof.Proof.Gen.ReferenceIdeal
import Idealize.ShloMosaic.Lib.StableHlo.Run

set_option maxRecDepth 65536

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's 277 operations, in order. -/
abbrev ops : List (HloOp τ sig (Elt F)) :=
  ( StableHlo.binary main_arg0 main_arg1 main_v0 ((fun l r => Host.dotGeneral dot_S4096x512_S512x128_S4096x128_1_0_0_1_n_n none l r) : (⟨S4096x512, .f32⟩ : BufTy).Contents (Elt F) → (⟨S512x128, .f32⟩ : BufTy).Contents (Elt F) → (⟨S4096x128, .f32⟩ : BufTy).Contents (Elt F))
  :: StableHlo.unary main_arg3 main_v1 ((extractStridedSlice S1x262144 ![0, 0] · slices_S2x262144_S1x262144_0_0) : (⟨S2x262144, .i32⟩ : BufTy).Contents (Elt F) → (⟨S1x262144, .i32⟩ : BufTy).Contents (Elt F))
  :: StableHlo.reshape main_v1 main_v2 rfl shapeCasts_S1x262144_S262144
  :: StableHlo.unary main_arg3 main_v3 ((extractStridedSlice S1x262144 ![1, 0] · slices_S2x262144_S1x262144_1_0) : (⟨S2x262144, .i32⟩ : BufTy).Contents (Elt F) → (⟨S1x262144, .i32⟩ : BufTy).Contents (Elt F))
  :: StableHlo.reshape main_v3 main_v4 rfl shapeCasts_S1x262144_S262144
  :: StableHlo.nullary main_cst (constant S_ .f32 0x3E4CCCCD#32)
  :: StableHlo.TRef.nullary main_call0.cst (constant S_ .f32 0x00000000#32)
  :: StableHlo.TRef.unary main_call0.cst main_call0.v0 (broadcastInDim S4x262144 ![] bcast_S_S4x262144)
  :: StableHlo.TRef.binary (.of main_arg2 : StableHlo.TRef sig ⟨S4x262144, .f32⟩) main_call0.v0 main_call0.v1 (cmpf .oge)
  :: StableHlo.TRef.unary (.of main_cst : StableHlo.TRef sig ⟨S_, .f32⟩) main_call0.v2 id
  :: StableHlo.TRef.unary main_call0.v2 main_call0.v3 (broadcastInDim S4x262144 ![] bcast_S_S4x262144)
  :: StableHlo.TRef.binary main_call0.v3 (.of main_arg2 : StableHlo.TRef sig ⟨S4x262144, .f32⟩) main_call0.v4 mulf
  :: StableHlo.TRef.ternary main_call0.v1 (.of main_arg2 : StableHlo.TRef sig ⟨S4x262144, .f32⟩) main_call0.v4 main_call0.call0.v0 select
  :: StableHlo.binary main_v5 main_v5 main_v6 (cmpf .une : (⟨S4x262144, .f32⟩ : BufTy).Contents (Elt F) → (⟨S4x262144, .f32⟩ : BufTy).Contents (Elt F) → (⟨S4x262144, .i1⟩ : BufTy).Contents (Elt F))
  :: StableHlo.nullary main_cst_0 (constant S_ .f32 0x00000000#32)
  :: StableHlo.unary main_cst_0 main_v7 (broadcastInDim S4x262144 ![] bcast_S_S4x262144 : (⟨S_, .f32⟩ : BufTy).Contents (Elt F) → (⟨S4x262144, .f32⟩ : BufTy).Contents (Elt F))
  :: StableHlo.binary main_v5 main_v7 main_v8 (cmpf .oeq : (⟨S4x262144, .f32⟩ : BufTy).Contents (Elt F) → (⟨S4x262144, .f32⟩ : BufTy).Contents (Elt F) → (⟨S4x262144, .i1⟩ : BufTy).Contents (Elt F))
  :: StableHlo.binary main_v6 main_v8 main_v9 (ori : (⟨S4x262144, .i1⟩ : BufTy).Contents (Elt F) → (⟨S4x262144, .i1⟩ : BufTy).Contents (Elt F) → (⟨S4x262144, .i1⟩ : BufTy).Contents (Elt F))
  :: StableHlo.nullary main_cst_1 (constant S_ .f32 0xD9FFCB9E#32)
  :: StableHlo.TRef.unary (.of main_cst_1 : StableHlo.TRef sig ⟨S_, .f32⟩) main_call1.v0 id
  :: StableHlo.TRef.unary main_call1.v0 main_call1.v1 (broadcastInDim S4x262144 ![] bcast_S_S4x262144)
  :: StableHlo.TRef.ternary (.of main_v9 : StableHlo.TRef sig ⟨S4x262144, .i1⟩) main_call1.v1 (.of main_v5 : StableHlo.TRef sig ⟨S4x262144, .f32⟩) main_call1.v2 select
  :: StableHlo.unary main_v10 main_v11 (Host.exp : (⟨S4x262144, .f32⟩ : BufTy).Contents (Elt F) → (⟨S4x262144, .f32⟩ : BufTy).Contents (Elt F))
  :: StableHlo.nullary main_cst_2 (constant S_ .f32 0x59FFCB9E#32)
  :: StableHlo.unary main_cst_2 main_v12 (broadcastInDim S4x262144 ![] bcast_S_S4x262144 : (⟨S_, .f32⟩ : BufTy).Contents (Elt F) → (⟨S4x262144, .f32⟩ : BufTy).Contents (Elt F))
  :: StableHlo.binary main_v11 main_v12 main_v13 (minimumf : (⟨S4x262144, .f32⟩ : BufTy).Contents (Elt F) → (⟨S4x262144, .f32⟩ : BufTy).Contents (Elt F) → (⟨S4x262144, .f32⟩ : BufTy).Contents (Elt F))
  :: StableHlo.nullary main_cst_3 (constant S_ .f32 0x00000000#32)
  :: StableHlo.unary main_cst_3 main_v14 (broadcastInDim S4096 ![] bcast_S_S4096 : (⟨S_, .f32⟩ : BufTy).Contents (Elt F) → (⟨S4096, .f32⟩ : BufTy).Contents (Elt F))
  :: StableHlo.unary main_v2 main_v15 (broadcastInDim S262144x1 ![0] bcast_S262144_S262144x1_0 : (⟨S262144, .i32⟩ : BufTy).Contents (Elt F) → (⟨S262144x1, .i32⟩ : BufTy).Contents (Elt F))
  :: StableHlo.unary main_v14 main_v16 (broadcastInDim S4x4096 ![1] bcast_S4096_S4x4096_1 : (⟨S4096, .f32⟩ : BufTy).Contents (Elt F) → (⟨S4x4096, .f32⟩ : BufTy).Contents (Elt F))
  :: StableHlo.ternary main_v16 main_v15 main_v13 main_v17 ((fun x i u => Host.scatterAdd scatter_S4x4096_S262144x1_S4x262144_0_1_1_1 x i u) : (⟨S4x4096, .f32⟩ : BufTy).Contents (Elt F) → (⟨S262144x1, .i32⟩ : BufTy).Contents (Elt F) → (⟨S4x262144, .f32⟩ : BufTy).Contents (Elt F) → (⟨S4x4096, .f32⟩ : BufTy).Contents (Elt F))
  :: StableHlo.nullary main_cst_4 (constant S_ .f32 0x00000000#32)
  :: StableHlo.unary main_cst_4 main_v18 (broadcastInDim S4x4096 ![] bcast_S_S4x4096 : (⟨S_, .f32⟩ : BufTy).Contents (Elt F) → (⟨S4x4096, .f32⟩ : BufTy).Contents (Elt F))
  :: StableHlo.binary main_v17 main_v18 main_v19 (cmpf .oeq : (⟨S4x4096, .f32⟩ : BufTy).Contents (Elt F) → (⟨S4x4096, .f32⟩ : BufTy).Contents (Elt F) → (⟨S4x4096, .i1⟩ : BufTy).Contents (Elt F))
  :: StableHlo.nullary main_cst_5 (constant S_ .f32 0x3F800000#32)
  :: StableHlo.TRef.unary (.of main_cst_5 : StableHlo.TRef sig ⟨S_, .f32⟩) main_call2.v0 id
  :: StableHlo.TRef.unary main_call2.v0 main_call2.v1 (broadcastInDim S4x4096 ![] bcast_S_S4x4096)
  :: StableHlo.TRef.ternary (.of main_v19 : StableHlo.TRef sig ⟨S4x4096, .i1⟩) main_call2.v1 (.of main_v17 : StableHlo.TRef sig ⟨S4x4096, .f32⟩) main_call2.v2 select
  :: StableHlo.nullary main_c (constantI S_ 32 0#32)
  :: StableHlo.unary main_c main_v21 (broadcastInDim S262144 ![] bcast_S_S262144 : (⟨S_, .i32⟩ : BufTy).Contents (Elt F) → (⟨S262144, .i32⟩ : BufTy).Contents (Elt F))
  :: StableHlo.binary main_v4 main_v21 main_v22 (cmpi .slt : (⟨S262144, .i32⟩ : BufTy).Contents (Elt F) → (⟨S262144, .i32⟩ : BufTy).Contents (Elt F) → (⟨S262144, .i1⟩ : BufTy).Contents (Elt F))
  :: StableHlo.nullary main_c_6 (constantI S_ 32 4096#32)
  :: StableHlo.unary main_c_6 main_v23 (broadcastInDim S262144 ![] bcast_S_S262144 : (⟨S_, .i32⟩ : BufTy).Contents (Elt F) → (⟨S262144, .i32⟩ : BufTy).Contents (Elt F))
  :: StableHlo.binary main_v4 main_v23 main_v24 (addi : (⟨S262144, .i32⟩ : BufTy).Contents (Elt F) → (⟨S262144, .i32⟩ : BufTy).Contents (Elt F) → (⟨S262144, .i32⟩ : BufTy).Contents (Elt F))
  :: StableHlo.ternary main_v22 main_v24 main_v4 main_v25 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v25 main_v26 (broadcastInDim S262144x1 ![0] bcast_S262144_S262144x1_0 : (⟨S262144, .i32⟩ : BufTy).Contents (Elt F) → (⟨S262144x1, .i32⟩ : BufTy).Contents (Elt F))
  :: StableHlo.binary main_v0 main_v26 main_v27 ((fun x i => Host.gather gather_S4096x128_S262144x1_S262144x128_1_0_n_n_0_1_1128 x i) : (⟨S4096x128, .f32⟩ : BufTy).Contents (Elt F) → (⟨S262144x1, .i32⟩ : BufTy).Contents (Elt F) → (⟨S262144x128, .f32⟩ : BufTy).Contents (Elt F))
  :: StableHlo.unary main_v13 main_v28 ((extractStridedSlice S1x262144 ![0, 0] · slices_S4x262144_S1x262144_0_0) : (⟨S4x262144, .f32⟩ : BufTy).Contents (Elt F) → (⟨S1x262144, .f32⟩ : BufTy).Contents (Elt F))
  :: StableHlo.reshape main_v28 main_v29 rfl shapeCasts_S1x262144_S262144
  :: StableHlo.unary main_v29 main_v30 (broadcastInDim S262144x1 ![0] bcast_S262144_S262144x1_0 : (⟨S262144, .f32⟩ : BufTy).Contents (Elt F) → (⟨S262144x1, .f32⟩ : BufTy).Contents (Elt F))
  :: StableHlo.unary main_v30 main_v31 (broadcastInDim S262144x128 ![0, 1] bcast_S262144x1_S262144x128_0_1 : (⟨S262144x1, .f32⟩ : BufTy).Contents (Elt F) → (⟨S262144x128, .f32⟩ : BufTy).Contents (Elt F))
  :: StableHlo.binary main_v31 main_v27 main_v32 (mulf : (⟨S262144x128, .f32⟩ : BufTy).Contents (Elt F) → (⟨S262144x128, .f32⟩ : BufTy).Contents (Elt F) → (⟨S262144x128, .f32⟩ : BufTy).Contents (Elt F))
  :: StableHlo.nullary main_cst_7 (constant S_ .f32 0x00000000#32)
  :: StableHlo.unary main_cst_7 main_v33 (broadcastInDim S4096x128 ![] bcast_S_S4096x128 : (⟨S_, .f32⟩ : BufTy).Contents (Elt F) → (⟨S4096x128, .f32⟩ : BufTy).Contents (Elt F))
  :: StableHlo.unary main_v2 main_v34 (broadcastInDim S262144x1 ![0] bcast_S262144_S262144x1_0 : (⟨S262144, .i32⟩ : BufTy).Contents (Elt F) → (⟨S262144x1, .i32⟩ : BufTy).Contents (Elt F))
  :: StableHlo.ternary main_v33 main_v34 main_v32 main_v35 ((fun x i u => Host.scatterAdd scatter_S4096x128_S262144x1_S262144x128_1_0_0_1 x i u) : (⟨S4096x128, .f32⟩ : BufTy).Contents (Elt F) → (⟨S262144x1, .i32⟩ : BufTy).Contents (Elt F) → (⟨S262144x128, .f32⟩ : BufTy).Contents (Elt F) → (⟨S4096x128, .f32⟩ : BufTy).Contents (Elt F))
  :: StableHlo.unary main_v20 main_v36 ((extractStridedSlice S1x4096 ![0, 0] · slices_S4x4096_S1x4096_0_0) : (⟨S4x4096, .f32⟩ : BufTy).Contents (Elt F) → (⟨S1x4096, .f32⟩ : BufTy).Contents (Elt F))
  :: StableHlo.reshape main_v36 main_v37 rfl shapeCasts_S1x4096_S4096
  :: StableHlo.unary main_v37 main_v38 (broadcastInDim S4096x1 ![0] bcast_S4096_S4096x1_0 : (⟨S4096, .f32⟩ : BufTy).Contents (Elt F) → (⟨S4096x1, .f32⟩ : BufTy).Contents (Elt F))
  :: StableHlo.unary main_v38 main_v39 (broadcastInDim S4096x128 ![0, 1] bcast_S4096x1_S4096x128_0_1 : (⟨S4096x1, .f32⟩ : BufTy).Contents (Elt F) → (⟨S4096x128, .f32⟩ : BufTy).Contents (Elt F))
  :: StableHlo.binary main_v35 main_v39 main_v40 (Host.divf : (⟨S4096x128, .f32⟩ : BufTy).Contents (Elt F) → (⟨S4096x128, .f32⟩ : BufTy).Contents (Elt F) → (⟨S4096x128, .f32⟩ : BufTy).Contents (Elt F))
  :: StableHlo.TRef.nullary main_call3.cst (constant S_ .f32 0x00000000#32)
  :: StableHlo.TRef.unary main_call3.cst main_call3.v0 (broadcastInDim S4096x128 ![] bcast_S_S4096x128)
  :: StableHlo.TRef.binary (.of main_v40 : StableHlo.TRef sig ⟨S4096x128, .f32⟩) main_call3.v0 main_call3.v1 (cmpf .ogt)
  :: StableHlo.TRef.nullary main_call3.cst_0 (constant S_ .f32 0x00000000#32)
  :: StableHlo.TRef.unary main_call3.cst_0 main_call3.v2 (broadcastInDim S4096x128 ![] bcast_S_S4096x128)
  :: StableHlo.TRef.binary (.of main_v40 : StableHlo.TRef sig ⟨S4096x128, .f32⟩) main_call3.v2 main_call3.v3 (cmpf .ogt)
  :: StableHlo.TRef.nullary main_call3.cst_1 (constant S_ .f32 0x00000000#32)
  :: StableHlo.TRef.unary main_call3.cst_1 main_call3.call0.v0 id
  :: StableHlo.TRef.unary main_call3.call0.v0 main_call3.call0.v1 (broadcastInDim S4096x128 ![] bcast_S_S4096x128)
  :: StableHlo.TRef.ternary main_call3.v3 main_call3.call0.v1 (.of main_v40 : StableHlo.TRef sig ⟨S4096x128, .f32⟩) main_call3.call0.v2 select
  :: StableHlo.TRef.unary main_call3.call0.v2 main_call3.v5 Host.expm1
  :: StableHlo.TRef.nullary main_call3.cst_2 (constant S_ .f32 0x3F800000#32)
  :: StableHlo.TRef.unary main_call3.cst_2 main_call3.v6 (broadcastInDim S4096x128 ![] bcast_S_S4096x128)
  :: StableHlo.TRef.binary main_call3.v6 main_call3.v5 main_call3.v7 mulf
  :: StableHlo.TRef.ternary main_call3.v1 (.of main_v40 : StableHlo.TRef sig ⟨S4096x128, .f32⟩) main_call3.v7 main_call3.call1.v0 select
  :: StableHlo.nullary main_cst_8 (constant S_ .f32 0x00000000#32)
  :: StableHlo.unary main_cst_8 main_v42 (broadcastInDim S4096x4096 ![] bcast_S_S4096x4096 : (⟨S_, .f32⟩ : BufTy).Contents (Elt F) → (⟨S4096x4096, .f32⟩ : BufTy).Contents (Elt F))
  :: StableHlo.unary main_v13 main_v43 ((extractStridedSlice S1x262144 ![0, 0] · slices_S4x262144_S1x262144_0_0) : (⟨S4x262144, .f32⟩ : BufTy).Contents (Elt F) → (⟨S1x262144, .f32⟩ : BufTy).Contents (Elt F))
  :: StableHlo.reshape main_v43 main_v44 rfl shapeCasts_S1x262144_S262144
  :: StableHlo.nullary main_c_9 (constantI S_ 32 0#32)
  :: StableHlo.unary main_c_9 main_v45 (broadcastInDim S262144 ![] bcast_S_S262144 : (⟨S_, .i32⟩ : BufTy).Contents (Elt F) → (⟨S262144, .i32⟩ : BufTy).Contents (Elt F))
  :: StableHlo.binary main_v2 main_v45 main_v46 (cmpi .slt : (⟨S262144, .i32⟩ : BufTy).Contents (Elt F) → (⟨S262144, .i32⟩ : BufTy).Contents (Elt F) → (⟨S262144, .i1⟩ : BufTy).Contents (Elt F))
  :: StableHlo.nullary main_c_10 (constantI S_ 32 4096#32)
  :: StableHlo.unary main_c_10 main_v47 (broadcastInDim S262144 ![] bcast_S_S262144 : (⟨S_, .i32⟩ : BufTy).Contents (Elt F) → (⟨S262144, .i32⟩ : BufTy).Contents (Elt F))
  :: StableHlo.binary main_v2 main_v47 main_v48 (addi : (⟨S262144, .i32⟩ : BufTy).Contents (Elt F) → (⟨S262144, .i32⟩ : BufTy).Contents (Elt F) → (⟨S262144, .i32⟩ : BufTy).Contents (Elt F))
  :: StableHlo.ternary main_v46 main_v48 main_v2 main_v49 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.nullary main_c_11 (constantI S_ 32 0#32)
  :: StableHlo.unary main_c_11 main_v50 (broadcastInDim S262144 ![] bcast_S_S262144 : (⟨S_, .i32⟩ : BufTy).Contents (Elt F) → (⟨S262144, .i32⟩ : BufTy).Contents (Elt F))
  :: StableHlo.binary main_v4 main_v50 main_v51 (cmpi .slt : (⟨S262144, .i32⟩ : BufTy).Contents (Elt F) → (⟨S262144, .i32⟩ : BufTy).Contents (Elt F) → (⟨S262144, .i1⟩ : BufTy).Contents (Elt F))
  :: StableHlo.nullary main_c_12 (constantI S_ 32 4096#32)
  :: StableHlo.unary main_c_12 main_v52 (broadcastInDim S262144 ![] bcast_S_S262144 : (⟨S_, .i32⟩ : BufTy).Contents (Elt F) → (⟨S262144, .i32⟩ : BufTy).Contents (Elt F))
  :: StableHlo.binary main_v4 main_v52 main_v53 (addi : (⟨S262144, .i32⟩ : BufTy).Contents (Elt F) → (⟨S262144, .i32⟩ : BufTy).Contents (Elt F) → (⟨S262144, .i32⟩ : BufTy).Contents (Elt F))
  :: StableHlo.ternary main_v51 main_v53 main_v4 main_v54 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v49 main_v55 (broadcastInDim S262144x1 ![0] bcast_S262144_S262144x1_0 : (⟨S262144, .i32⟩ : BufTy).Contents (Elt F) → (⟨S262144x1, .i32⟩ : BufTy).Contents (Elt F))
  :: StableHlo.unary main_v54 main_v56 (broadcastInDim S262144x1 ![0] bcast_S262144_S262144x1_0 : (⟨S262144, .i32⟩ : BufTy).Contents (Elt F) → (⟨S262144x1, .i32⟩ : BufTy).Contents (Elt F))
  :: StableHlo.binary main_v55 main_v56 main_v57 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F))
  :: StableHlo.ternary main_v42 main_v57 main_v44 main_v58 ((fun x i u => Host.scatterAdd scatter_S4096x4096_S262144x2_S262144_n_01_01_1 x i u) : (⟨S4096x4096, .f32⟩ : BufTy).Contents (Elt F) → (⟨S262144x2, .i32⟩ : BufTy).Contents (Elt F) → (⟨S262144, .f32⟩ : BufTy).Contents (Elt F) → (⟨S4096x4096, .f32⟩ : BufTy).Contents (Elt F))
  :: StableHlo.unary main_v20 main_v59 ((extractStridedSlice S1x4096 ![0, 0] · slices_S4x4096_S1x4096_0_0) : (⟨S4x4096, .f32⟩ : BufTy).Contents (Elt F) → (⟨S1x4096, .f32⟩ : BufTy).Contents (Elt F))
  :: StableHlo.reshape main_v59 main_v60 rfl shapeCasts_S1x4096_S4096
  :: StableHlo.unary main_v60 main_v61 (broadcastInDim S4096x1 ![0] bcast_S4096_S4096x1_0 : (⟨S4096, .f32⟩ : BufTy).Contents (Elt F) → (⟨S4096x1, .f32⟩ : BufTy).Contents (Elt F))
  :: StableHlo.unary main_v61 main_v62 (broadcastInDim S4096x4096 ![0, 1] bcast_S4096x1_S4096x4096_0_1 : (⟨S4096x1, .f32⟩ : BufTy).Contents (Elt F) → (⟨S4096x4096, .f32⟩ : BufTy).Contents (Elt F))
  :: StableHlo.binary main_v58 main_v62 main_v63 (Host.divf : (⟨S4096x4096, .f32⟩ : BufTy).Contents (Elt F) → (⟨S4096x4096, .f32⟩ : BufTy).Contents (Elt F) → (⟨S4096x4096, .f32⟩ : BufTy).Contents (Elt F))
  :: StableHlo.unary main_v13 main_v64 ((extractStridedSlice S1x262144 ![1, 0] · slices_S4x262144_S1x262144_1_0) : (⟨S4x262144, .f32⟩ : BufTy).Contents (Elt F) → (⟨S1x262144, .f32⟩ : BufTy).Contents (Elt F))
  :: StableHlo.reshape main_v64 main_v65 rfl shapeCasts_S1x262144_S262144
  :: StableHlo.unary main_v65 main_v66 (broadcastInDim S262144x1 ![0] bcast_S262144_S262144x1_0 : (⟨S262144, .f32⟩ : BufTy).Contents (Elt F) → (⟨S262144x1, .f32⟩ : BufTy).Contents (Elt F))
  :: StableHlo.unary main_v66 main_v67 (broadcastInDim S262144x128 ![0, 1] bcast_S262144x1_S262144x128_0_1 : (⟨S262144x1, .f32⟩ : BufTy).Contents (Elt F) → (⟨S262144x128, .f32⟩ : BufTy).Contents (Elt F))
  :: StableHlo.binary main_v67 main_v27 main_v68 (mulf : (⟨S262144x128, .f32⟩ : BufTy).Contents (Elt F) → (⟨S262144x128, .f32⟩ : BufTy).Contents (Elt F) → (⟨S262144x128, .f32⟩ : BufTy).Contents (Elt F))
  :: StableHlo.nullary main_cst_13 (constant S_ .f32 0x00000000#32)
  :: StableHlo.unary main_cst_13 main_v69 (broadcastInDim S4096x128 ![] bcast_S_S4096x128 : (⟨S_, .f32⟩ : BufTy).Contents (Elt F) → (⟨S4096x128, .f32⟩ : BufTy).Contents (Elt F))
  :: StableHlo.unary main_v2 main_v70 (broadcastInDim S262144x1 ![0] bcast_S262144_S262144x1_0 : (⟨S262144, .i32⟩ : BufTy).Contents (Elt F) → (⟨S262144x1, .i32⟩ : BufTy).Contents (Elt F))
  :: StableHlo.ternary main_v69 main_v70 main_v68 main_v71 ((fun x i u => Host.scatterAdd scatter_S4096x128_S262144x1_S262144x128_1_0_0_1 x i u) : (⟨S4096x128, .f32⟩ : BufTy).Contents (Elt F) → (⟨S262144x1, .i32⟩ : BufTy).Contents (Elt F) → (⟨S262144x128, .f32⟩ : BufTy).Contents (Elt F) → (⟨S4096x128, .f32⟩ : BufTy).Contents (Elt F))
  :: StableHlo.unary main_v20 main_v72 ((extractStridedSlice S1x4096 ![1, 0] · slices_S4x4096_S1x4096_1_0) : (⟨S4x4096, .f32⟩ : BufTy).Contents (Elt F) → (⟨S1x4096, .f32⟩ : BufTy).Contents (Elt F))
  :: StableHlo.reshape main_v72 main_v73 rfl shapeCasts_S1x4096_S4096
  :: StableHlo.unary main_v73 main_v74 (broadcastInDim S4096x1 ![0] bcast_S4096_S4096x1_0 : (⟨S4096, .f32⟩ : BufTy).Contents (Elt F) → (⟨S4096x1, .f32⟩ : BufTy).Contents (Elt F))
  :: StableHlo.unary main_v74 main_v75 (broadcastInDim S4096x128 ![0, 1] bcast_S4096x1_S4096x128_0_1 : (⟨S4096x1, .f32⟩ : BufTy).Contents (Elt F) → (⟨S4096x128, .f32⟩ : BufTy).Contents (Elt F))
  :: StableHlo.binary main_v71 main_v75 main_v76 (Host.divf : (⟨S4096x128, .f32⟩ : BufTy).Contents (Elt F) → (⟨S4096x128, .f32⟩ : BufTy).Contents (Elt F) → (⟨S4096x128, .f32⟩ : BufTy).Contents (Elt F))
  :: StableHlo.TRef.nullary main_call4.cst (constant S_ .f32 0x00000000#32)
  :: StableHlo.TRef.unary main_call4.cst main_call4.v0 (broadcastInDim S4096x128 ![] bcast_S_S4096x128)
  :: StableHlo.TRef.binary (.of main_v76 : StableHlo.TRef sig ⟨S4096x128, .f32⟩) main_call4.v0 main_call4.v1 (cmpf .ogt)
  :: StableHlo.TRef.nullary main_call4.cst_0 (constant S_ .f32 0x00000000#32)
  :: StableHlo.TRef.unary main_call4.cst_0 main_call4.v2 (broadcastInDim S4096x128 ![] bcast_S_S4096x128)
  :: StableHlo.TRef.binary (.of main_v76 : StableHlo.TRef sig ⟨S4096x128, .f32⟩) main_call4.v2 main_call4.v3 (cmpf .ogt)
  :: StableHlo.TRef.nullary main_call4.cst_1 (constant S_ .f32 0x00000000#32)
  :: StableHlo.TRef.unary main_call4.cst_1 main_call4.call0.v0 id
  :: StableHlo.TRef.unary main_call4.call0.v0 main_call4.call0.v1 (broadcastInDim S4096x128 ![] bcast_S_S4096x128)
  :: StableHlo.TRef.ternary main_call4.v3 main_call4.call0.v1 (.of main_v76 : StableHlo.TRef sig ⟨S4096x128, .f32⟩) main_call4.call0.v2 select
  :: StableHlo.TRef.unary main_call4.call0.v2 main_call4.v5 Host.expm1
  :: StableHlo.TRef.nullary main_call4.cst_2 (constant S_ .f32 0x3F800000#32)
  :: StableHlo.TRef.unary main_call4.cst_2 main_call4.v6 (broadcastInDim S4096x128 ![] bcast_S_S4096x128)
  :: StableHlo.TRef.binary main_call4.v6 main_call4.v5 main_call4.v7 mulf
  :: StableHlo.TRef.ternary main_call4.v1 (.of main_v76 : StableHlo.TRef sig ⟨S4096x128, .f32⟩) main_call4.v7 main_call4.call1.v0 select
  :: StableHlo.nullary main_cst_14 (constant S_ .f32 0x00000000#32)
  :: StableHlo.unary main_cst_14 main_v78 (broadcastInDim S4096x4096 ![] bcast_S_S4096x4096 : (⟨S_, .f32⟩ : BufTy).Contents (Elt F) → (⟨S4096x4096, .f32⟩ : BufTy).Contents (Elt F))
  :: StableHlo.unary main_v13 main_v79 ((extractStridedSlice S1x262144 ![1, 0] · slices_S4x262144_S1x262144_1_0) : (⟨S4x262144, .f32⟩ : BufTy).Contents (Elt F) → (⟨S1x262144, .f32⟩ : BufTy).Contents (Elt F))
  :: StableHlo.reshape main_v79 main_v80 rfl shapeCasts_S1x262144_S262144
  :: StableHlo.nullary main_c_15 (constantI S_ 32 0#32)
  :: StableHlo.unary main_c_15 main_v81 (broadcastInDim S262144 ![] bcast_S_S262144 : (⟨S_, .i32⟩ : BufTy).Contents (Elt F) → (⟨S262144, .i32⟩ : BufTy).Contents (Elt F))
  :: StableHlo.binary main_v2 main_v81 main_v82 (cmpi .slt : (⟨S262144, .i32⟩ : BufTy).Contents (Elt F) → (⟨S262144, .i32⟩ : BufTy).Contents (Elt F) → (⟨S262144, .i1⟩ : BufTy).Contents (Elt F))
  :: StableHlo.nullary main_c_16 (constantI S_ 32 4096#32)
  :: StableHlo.unary main_c_16 main_v83 (broadcastInDim S262144 ![] bcast_S_S262144 : (⟨S_, .i32⟩ : BufTy).Contents (Elt F) → (⟨S262144, .i32⟩ : BufTy).Contents (Elt F))
  :: StableHlo.binary main_v2 main_v83 main_v84 (addi : (⟨S262144, .i32⟩ : BufTy).Contents (Elt F) → (⟨S262144, .i32⟩ : BufTy).Contents (Elt F) → (⟨S262144, .i32⟩ : BufTy).Contents (Elt F))
  :: StableHlo.ternary main_v82 main_v84 main_v2 main_v85 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.nullary main_c_17 (constantI S_ 32 0#32)
  :: StableHlo.unary main_c_17 main_v86 (broadcastInDim S262144 ![] bcast_S_S262144 : (⟨S_, .i32⟩ : BufTy).Contents (Elt F) → (⟨S262144, .i32⟩ : BufTy).Contents (Elt F))
  :: StableHlo.binary main_v4 main_v86 main_v87 (cmpi .slt : (⟨S262144, .i32⟩ : BufTy).Contents (Elt F) → (⟨S262144, .i32⟩ : BufTy).Contents (Elt F) → (⟨S262144, .i1⟩ : BufTy).Contents (Elt F))
  :: StableHlo.nullary main_c_18 (constantI S_ 32 4096#32)
  :: StableHlo.unary main_c_18 main_v88 (broadcastInDim S262144 ![] bcast_S_S262144 : (⟨S_, .i32⟩ : BufTy).Contents (Elt F) → (⟨S262144, .i32⟩ : BufTy).Contents (Elt F))
  :: StableHlo.binary main_v4 main_v88 main_v89 (addi : (⟨S262144, .i32⟩ : BufTy).Contents (Elt F) → (⟨S262144, .i32⟩ : BufTy).Contents (Elt F) → (⟨S262144, .i32⟩ : BufTy).Contents (Elt F))
  :: StableHlo.ternary main_v87 main_v89 main_v4 main_v90 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v85 main_v91 (broadcastInDim S262144x1 ![0] bcast_S262144_S262144x1_0 : (⟨S262144, .i32⟩ : BufTy).Contents (Elt F) → (⟨S262144x1, .i32⟩ : BufTy).Contents (Elt F))
  :: StableHlo.unary main_v90 main_v92 (broadcastInDim S262144x1 ![0] bcast_S262144_S262144x1_0 : (⟨S262144, .i32⟩ : BufTy).Contents (Elt F) → (⟨S262144x1, .i32⟩ : BufTy).Contents (Elt F))
  :: StableHlo.binary main_v91 main_v92 main_v93 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F))
  :: StableHlo.ternary main_v78 main_v93 main_v80 main_v94 ((fun x i u => Host.scatterAdd scatter_S4096x4096_S262144x2_S262144_n_01_01_1 x i u) : (⟨S4096x4096, .f32⟩ : BufTy).Contents (Elt F) → (⟨S262144x2, .i32⟩ : BufTy).Contents (Elt F) → (⟨S262144, .f32⟩ : BufTy).Contents (Elt F) → (⟨S4096x4096, .f32⟩ : BufTy).Contents (Elt F))
  :: StableHlo.unary main_v20 main_v95 ((extractStridedSlice S1x4096 ![1, 0] · slices_S4x4096_S1x4096_1_0) : (⟨S4x4096, .f32⟩ : BufTy).Contents (Elt F) → (⟨S1x4096, .f32⟩ : BufTy).Contents (Elt F))
  :: StableHlo.reshape main_v95 main_v96 rfl shapeCasts_S1x4096_S4096
  :: StableHlo.unary main_v96 main_v97 (broadcastInDim S4096x1 ![0] bcast_S4096_S4096x1_0 : (⟨S4096, .f32⟩ : BufTy).Contents (Elt F) → (⟨S4096x1, .f32⟩ : BufTy).Contents (Elt F))
  :: StableHlo.unary main_v97 main_v98 (broadcastInDim S4096x4096 ![0, 1] bcast_S4096x1_S4096x4096_0_1 : (⟨S4096x1, .f32⟩ : BufTy).Contents (Elt F) → (⟨S4096x4096, .f32⟩ : BufTy).Contents (Elt F))
  :: StableHlo.binary main_v94 main_v98 main_v99 (Host.divf : (⟨S4096x4096, .f32⟩ : BufTy).Contents (Elt F) → (⟨S4096x4096, .f32⟩ : BufTy).Contents (Elt F) → (⟨S4096x4096, .f32⟩ : BufTy).Contents (Elt F))
  :: StableHlo.unary main_v13 main_v100 ((extractStridedSlice S1x262144 ![2, 0] · slices_S4x262144_S1x262144_2_0) : (⟨S4x262144, .f32⟩ : BufTy).Contents (Elt F) → (⟨S1x262144, .f32⟩ : BufTy).Contents (Elt F))
  :: StableHlo.reshape main_v100 main_v101 rfl shapeCasts_S1x262144_S262144
  :: StableHlo.unary main_v101 main_v102 (broadcastInDim S262144x1 ![0] bcast_S262144_S262144x1_0 : (⟨S262144, .f32⟩ : BufTy).Contents (Elt F) → (⟨S262144x1, .f32⟩ : BufTy).Contents (Elt F))
  :: StableHlo.unary main_v102 main_v103 (broadcastInDim S262144x128 ![0, 1] bcast_S262144x1_S262144x128_0_1 : (⟨S262144x1, .f32⟩ : BufTy).Contents (Elt F) → (⟨S262144x128, .f32⟩ : BufTy).Contents (Elt F))
  :: StableHlo.binary main_v103 main_v27 main_v104 (mulf : (⟨S262144x128, .f32⟩ : BufTy).Contents (Elt F) → (⟨S262144x128, .f32⟩ : BufTy).Contents (Elt F) → (⟨S262144x128, .f32⟩ : BufTy).Contents (Elt F))
  :: StableHlo.nullary main_cst_19 (constant S_ .f32 0x00000000#32)
  :: StableHlo.unary main_cst_19 main_v105 (broadcastInDim S4096x128 ![] bcast_S_S4096x128 : (⟨S_, .f32⟩ : BufTy).Contents (Elt F) → (⟨S4096x128, .f32⟩ : BufTy).Contents (Elt F))
  :: StableHlo.unary main_v2 main_v106 (broadcastInDim S262144x1 ![0] bcast_S262144_S262144x1_0 : (⟨S262144, .i32⟩ : BufTy).Contents (Elt F) → (⟨S262144x1, .i32⟩ : BufTy).Contents (Elt F))
  :: StableHlo.ternary main_v105 main_v106 main_v104 main_v107 ((fun x i u => Host.scatterAdd scatter_S4096x128_S262144x1_S262144x128_1_0_0_1 x i u) : (⟨S4096x128, .f32⟩ : BufTy).Contents (Elt F) → (⟨S262144x1, .i32⟩ : BufTy).Contents (Elt F) → (⟨S262144x128, .f32⟩ : BufTy).Contents (Elt F) → (⟨S4096x128, .f32⟩ : BufTy).Contents (Elt F))
  :: StableHlo.unary main_v20 main_v108 ((extractStridedSlice S1x4096 ![2, 0] · slices_S4x4096_S1x4096_2_0) : (⟨S4x4096, .f32⟩ : BufTy).Contents (Elt F) → (⟨S1x4096, .f32⟩ : BufTy).Contents (Elt F))
  :: StableHlo.reshape main_v108 main_v109 rfl shapeCasts_S1x4096_S4096
  :: StableHlo.unary main_v109 main_v110 (broadcastInDim S4096x1 ![0] bcast_S4096_S4096x1_0 : (⟨S4096, .f32⟩ : BufTy).Contents (Elt F) → (⟨S4096x1, .f32⟩ : BufTy).Contents (Elt F))
  :: StableHlo.unary main_v110 main_v111 (broadcastInDim S4096x128 ![0, 1] bcast_S4096x1_S4096x128_0_1 : (⟨S4096x1, .f32⟩ : BufTy).Contents (Elt F) → (⟨S4096x128, .f32⟩ : BufTy).Contents (Elt F))
  :: StableHlo.binary main_v107 main_v111 main_v112 (Host.divf : (⟨S4096x128, .f32⟩ : BufTy).Contents (Elt F) → (⟨S4096x128, .f32⟩ : BufTy).Contents (Elt F) → (⟨S4096x128, .f32⟩ : BufTy).Contents (Elt F))
  :: StableHlo.TRef.nullary main_call5.cst (constant S_ .f32 0x00000000#32)
  :: StableHlo.TRef.unary main_call5.cst main_call5.v0 (broadcastInDim S4096x128 ![] bcast_S_S4096x128)
  :: StableHlo.TRef.binary (.of main_v112 : StableHlo.TRef sig ⟨S4096x128, .f32⟩) main_call5.v0 main_call5.v1 (cmpf .ogt)
  :: StableHlo.TRef.nullary main_call5.cst_0 (constant S_ .f32 0x00000000#32)
  :: StableHlo.TRef.unary main_call5.cst_0 main_call5.v2 (broadcastInDim S4096x128 ![] bcast_S_S4096x128)
  :: StableHlo.TRef.binary (.of main_v112 : StableHlo.TRef sig ⟨S4096x128, .f32⟩) main_call5.v2 main_call5.v3 (cmpf .ogt)
  :: StableHlo.TRef.nullary main_call5.cst_1 (constant S_ .f32 0x00000000#32)
  :: StableHlo.TRef.unary main_call5.cst_1 main_call5.call0.v0 id
  :: StableHlo.TRef.unary main_call5.call0.v0 main_call5.call0.v1 (broadcastInDim S4096x128 ![] bcast_S_S4096x128)
  :: StableHlo.TRef.ternary main_call5.v3 main_call5.call0.v1 (.of main_v112 : StableHlo.TRef sig ⟨S4096x128, .f32⟩) main_call5.call0.v2 select
  :: StableHlo.TRef.unary main_call5.call0.v2 main_call5.v5 Host.expm1
  :: StableHlo.TRef.nullary main_call5.cst_2 (constant S_ .f32 0x3F800000#32)
  :: StableHlo.TRef.unary main_call5.cst_2 main_call5.v6 (broadcastInDim S4096x128 ![] bcast_S_S4096x128)
  :: StableHlo.TRef.binary main_call5.v6 main_call5.v5 main_call5.v7 mulf
  :: StableHlo.TRef.ternary main_call5.v1 (.of main_v112 : StableHlo.TRef sig ⟨S4096x128, .f32⟩) main_call5.v7 main_call5.call1.v0 select
  :: StableHlo.nullary main_cst_20 (constant S_ .f32 0x00000000#32)
  :: StableHlo.unary main_cst_20 main_v114 (broadcastInDim S4096x4096 ![] bcast_S_S4096x4096 : (⟨S_, .f32⟩ : BufTy).Contents (Elt F) → (⟨S4096x4096, .f32⟩ : BufTy).Contents (Elt F))
  :: StableHlo.unary main_v13 main_v115 ((extractStridedSlice S1x262144 ![2, 0] · slices_S4x262144_S1x262144_2_0) : (⟨S4x262144, .f32⟩ : BufTy).Contents (Elt F) → (⟨S1x262144, .f32⟩ : BufTy).Contents (Elt F))
  :: StableHlo.reshape main_v115 main_v116 rfl shapeCasts_S1x262144_S262144
  :: StableHlo.nullary main_c_21 (constantI S_ 32 0#32)
  :: StableHlo.unary main_c_21 main_v117 (broadcastInDim S262144 ![] bcast_S_S262144 : (⟨S_, .i32⟩ : BufTy).Contents (Elt F) → (⟨S262144, .i32⟩ : BufTy).Contents (Elt F))
  :: StableHlo.binary main_v2 main_v117 main_v118 (cmpi .slt : (⟨S262144, .i32⟩ : BufTy).Contents (Elt F) → (⟨S262144, .i32⟩ : BufTy).Contents (Elt F) → (⟨S262144, .i1⟩ : BufTy).Contents (Elt F))
  :: StableHlo.nullary main_c_22 (constantI S_ 32 4096#32)
  :: StableHlo.unary main_c_22 main_v119 (broadcastInDim S262144 ![] bcast_S_S262144 : (⟨S_, .i32⟩ : BufTy).Contents (Elt F) → (⟨S262144, .i32⟩ : BufTy).Contents (Elt F))
  :: StableHlo.binary main_v2 main_v119 main_v120 (addi : (⟨S262144, .i32⟩ : BufTy).Contents (Elt F) → (⟨S262144, .i32⟩ : BufTy).Contents (Elt F) → (⟨S262144, .i32⟩ : BufTy).Contents (Elt F))
  :: StableHlo.ternary main_v118 main_v120 main_v2 main_v121 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.nullary main_c_23 (constantI S_ 32 0#32)
  :: StableHlo.unary main_c_23 main_v122 (broadcastInDim S262144 ![] bcast_S_S262144 : (⟨S_, .i32⟩ : BufTy).Contents (Elt F) → (⟨S262144, .i32⟩ : BufTy).Contents (Elt F))
  :: StableHlo.binary main_v4 main_v122 main_v123 (cmpi .slt : (⟨S262144, .i32⟩ : BufTy).Contents (Elt F) → (⟨S262144, .i32⟩ : BufTy).Contents (Elt F) → (⟨S262144, .i1⟩ : BufTy).Contents (Elt F))
  :: StableHlo.nullary main_c_24 (constantI S_ 32 4096#32)
  :: StableHlo.unary main_c_24 main_v124 (broadcastInDim S262144 ![] bcast_S_S262144 : (⟨S_, .i32⟩ : BufTy).Contents (Elt F) → (⟨S262144, .i32⟩ : BufTy).Contents (Elt F))
  :: StableHlo.binary main_v4 main_v124 main_v125 (addi : (⟨S262144, .i32⟩ : BufTy).Contents (Elt F) → (⟨S262144, .i32⟩ : BufTy).Contents (Elt F) → (⟨S262144, .i32⟩ : BufTy).Contents (Elt F))
  :: StableHlo.ternary main_v123 main_v125 main_v4 main_v126 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v121 main_v127 (broadcastInDim S262144x1 ![0] bcast_S262144_S262144x1_0 : (⟨S262144, .i32⟩ : BufTy).Contents (Elt F) → (⟨S262144x1, .i32⟩ : BufTy).Contents (Elt F))
  :: StableHlo.unary main_v126 main_v128 (broadcastInDim S262144x1 ![0] bcast_S262144_S262144x1_0 : (⟨S262144, .i32⟩ : BufTy).Contents (Elt F) → (⟨S262144x1, .i32⟩ : BufTy).Contents (Elt F))
  :: StableHlo.binary main_v127 main_v128 main_v129 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F))
  :: StableHlo.ternary main_v114 main_v129 main_v116 main_v130 ((fun x i u => Host.scatterAdd scatter_S4096x4096_S262144x2_S262144_n_01_01_1 x i u) : (⟨S4096x4096, .f32⟩ : BufTy).Contents (Elt F) → (⟨S262144x2, .i32⟩ : BufTy).Contents (Elt F) → (⟨S262144, .f32⟩ : BufTy).Contents (Elt F) → (⟨S4096x4096, .f32⟩ : BufTy).Contents (Elt F))
  :: StableHlo.unary main_v20 main_v131 ((extractStridedSlice S1x4096 ![2, 0] · slices_S4x4096_S1x4096_2_0) : (⟨S4x4096, .f32⟩ : BufTy).Contents (Elt F) → (⟨S1x4096, .f32⟩ : BufTy).Contents (Elt F))
  :: StableHlo.reshape main_v131 main_v132 rfl shapeCasts_S1x4096_S4096
  :: StableHlo.unary main_v132 main_v133 (broadcastInDim S4096x1 ![0] bcast_S4096_S4096x1_0 : (⟨S4096, .f32⟩ : BufTy).Contents (Elt F) → (⟨S4096x1, .f32⟩ : BufTy).Contents (Elt F))
  :: StableHlo.unary main_v133 main_v134 (broadcastInDim S4096x4096 ![0, 1] bcast_S4096x1_S4096x4096_0_1 : (⟨S4096x1, .f32⟩ : BufTy).Contents (Elt F) → (⟨S4096x4096, .f32⟩ : BufTy).Contents (Elt F))
  :: StableHlo.binary main_v130 main_v134 main_v135 (Host.divf : (⟨S4096x4096, .f32⟩ : BufTy).Contents (Elt F) → (⟨S4096x4096, .f32⟩ : BufTy).Contents (Elt F) → (⟨S4096x4096, .f32⟩ : BufTy).Contents (Elt F))
  :: StableHlo.unary main_v13 main_v136 ((extractStridedSlice S1x262144 ![3, 0] · slices_S4x262144_S1x262144_3_0) : (⟨S4x262144, .f32⟩ : BufTy).Contents (Elt F) → (⟨S1x262144, .f32⟩ : BufTy).Contents (Elt F))
  :: StableHlo.reshape main_v136 main_v137 rfl shapeCasts_S1x262144_S262144
  :: StableHlo.unary main_v137 main_v138 (broadcastInDim S262144x1 ![0] bcast_S262144_S262144x1_0 : (⟨S262144, .f32⟩ : BufTy).Contents (Elt F) → (⟨S262144x1, .f32⟩ : BufTy).Contents (Elt F))
  :: StableHlo.unary main_v138 main_v139 (broadcastInDim S262144x128 ![0, 1] bcast_S262144x1_S262144x128_0_1 : (⟨S262144x1, .f32⟩ : BufTy).Contents (Elt F) → (⟨S262144x128, .f32⟩ : BufTy).Contents (Elt F))
  :: StableHlo.binary main_v139 main_v27 main_v140 (mulf : (⟨S262144x128, .f32⟩ : BufTy).Contents (Elt F) → (⟨S262144x128, .f32⟩ : BufTy).Contents (Elt F) → (⟨S262144x128, .f32⟩ : BufTy).Contents (Elt F))
  :: StableHlo.nullary main_cst_25 (constant S_ .f32 0x00000000#32)
  :: StableHlo.unary main_cst_25 main_v141 (broadcastInDim S4096x128 ![] bcast_S_S4096x128 : (⟨S_, .f32⟩ : BufTy).Contents (Elt F) → (⟨S4096x128, .f32⟩ : BufTy).Contents (Elt F))
  :: StableHlo.unary main_v2 main_v142 (broadcastInDim S262144x1 ![0] bcast_S262144_S262144x1_0 : (⟨S262144, .i32⟩ : BufTy).Contents (Elt F) → (⟨S262144x1, .i32⟩ : BufTy).Contents (Elt F))
  :: StableHlo.ternary main_v141 main_v142 main_v140 main_v143 ((fun x i u => Host.scatterAdd scatter_S4096x128_S262144x1_S262144x128_1_0_0_1 x i u) : (⟨S4096x128, .f32⟩ : BufTy).Contents (Elt F) → (⟨S262144x1, .i32⟩ : BufTy).Contents (Elt F) → (⟨S262144x128, .f32⟩ : BufTy).Contents (Elt F) → (⟨S4096x128, .f32⟩ : BufTy).Contents (Elt F))
  :: StableHlo.unary main_v20 main_v144 ((extractStridedSlice S1x4096 ![3, 0] · slices_S4x4096_S1x4096_3_0) : (⟨S4x4096, .f32⟩ : BufTy).Contents (Elt F) → (⟨S1x4096, .f32⟩ : BufTy).Contents (Elt F))
  :: StableHlo.reshape main_v144 main_v145 rfl shapeCasts_S1x4096_S4096
  :: StableHlo.unary main_v145 main_v146 (broadcastInDim S4096x1 ![0] bcast_S4096_S4096x1_0 : (⟨S4096, .f32⟩ : BufTy).Contents (Elt F) → (⟨S4096x1, .f32⟩ : BufTy).Contents (Elt F))
  :: StableHlo.unary main_v146 main_v147 (broadcastInDim S4096x128 ![0, 1] bcast_S4096x1_S4096x128_0_1 : (⟨S4096x1, .f32⟩ : BufTy).Contents (Elt F) → (⟨S4096x128, .f32⟩ : BufTy).Contents (Elt F))
  :: StableHlo.binary main_v143 main_v147 main_v148 (Host.divf : (⟨S4096x128, .f32⟩ : BufTy).Contents (Elt F) → (⟨S4096x128, .f32⟩ : BufTy).Contents (Elt F) → (⟨S4096x128, .f32⟩ : BufTy).Contents (Elt F))
  :: StableHlo.TRef.nullary main_call6.cst (constant S_ .f32 0x00000000#32)
  :: StableHlo.TRef.unary main_call6.cst main_call6.v0 (broadcastInDim S4096x128 ![] bcast_S_S4096x128)
  :: StableHlo.TRef.binary (.of main_v148 : StableHlo.TRef sig ⟨S4096x128, .f32⟩) main_call6.v0 main_call6.v1 (cmpf .ogt)
  :: StableHlo.TRef.nullary main_call6.cst_0 (constant S_ .f32 0x00000000#32)
  :: StableHlo.TRef.unary main_call6.cst_0 main_call6.v2 (broadcastInDim S4096x128 ![] bcast_S_S4096x128)
  :: StableHlo.TRef.binary (.of main_v148 : StableHlo.TRef sig ⟨S4096x128, .f32⟩) main_call6.v2 main_call6.v3 (cmpf .ogt)
  :: StableHlo.TRef.nullary main_call6.cst_1 (constant S_ .f32 0x00000000#32)
  :: StableHlo.TRef.unary main_call6.cst_1 main_call6.call0.v0 id
  :: StableHlo.TRef.unary main_call6.call0.v0 main_call6.call0.v1 (broadcastInDim S4096x128 ![] bcast_S_S4096x128)
  :: StableHlo.TRef.ternary main_call6.v3 main_call6.call0.v1 (.of main_v148 : StableHlo.TRef sig ⟨S4096x128, .f32⟩) main_call6.call0.v2 select
  :: StableHlo.TRef.unary main_call6.call0.v2 main_call6.v5 Host.expm1
  :: StableHlo.TRef.nullary main_call6.cst_2 (constant S_ .f32 0x3F800000#32)
  :: StableHlo.TRef.unary main_call6.cst_2 main_call6.v6 (broadcastInDim S4096x128 ![] bcast_S_S4096x128)
  :: StableHlo.TRef.binary main_call6.v6 main_call6.v5 main_call6.v7 mulf
  :: StableHlo.TRef.ternary main_call6.v1 (.of main_v148 : StableHlo.TRef sig ⟨S4096x128, .f32⟩) main_call6.v7 main_call6.call1.v0 select
  :: StableHlo.nullary main_cst_26 (constant S_ .f32 0x00000000#32)
  :: StableHlo.unary main_cst_26 main_v150 (broadcastInDim S4096x4096 ![] bcast_S_S4096x4096 : (⟨S_, .f32⟩ : BufTy).Contents (Elt F) → (⟨S4096x4096, .f32⟩ : BufTy).Contents (Elt F))
  :: StableHlo.unary main_v13 main_v151 ((extractStridedSlice S1x262144 ![3, 0] · slices_S4x262144_S1x262144_3_0) : (⟨S4x262144, .f32⟩ : BufTy).Contents (Elt F) → (⟨S1x262144, .f32⟩ : BufTy).Contents (Elt F))
  :: StableHlo.reshape main_v151 main_v152 rfl shapeCasts_S1x262144_S262144
  :: StableHlo.nullary main_c_27 (constantI S_ 32 0#32)
  :: StableHlo.unary main_c_27 main_v153 (broadcastInDim S262144 ![] bcast_S_S262144 : (⟨S_, .i32⟩ : BufTy).Contents (Elt F) → (⟨S262144, .i32⟩ : BufTy).Contents (Elt F))
  :: StableHlo.binary main_v2 main_v153 main_v154 (cmpi .slt : (⟨S262144, .i32⟩ : BufTy).Contents (Elt F) → (⟨S262144, .i32⟩ : BufTy).Contents (Elt F) → (⟨S262144, .i1⟩ : BufTy).Contents (Elt F))
  :: StableHlo.nullary main_c_28 (constantI S_ 32 4096#32)
  :: StableHlo.unary main_c_28 main_v155 (broadcastInDim S262144 ![] bcast_S_S262144 : (⟨S_, .i32⟩ : BufTy).Contents (Elt F) → (⟨S262144, .i32⟩ : BufTy).Contents (Elt F))
  :: StableHlo.binary main_v2 main_v155 main_v156 (addi : (⟨S262144, .i32⟩ : BufTy).Contents (Elt F) → (⟨S262144, .i32⟩ : BufTy).Contents (Elt F) → (⟨S262144, .i32⟩ : BufTy).Contents (Elt F))
  :: StableHlo.ternary main_v154 main_v156 main_v2 main_v157 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.nullary main_c_29 (constantI S_ 32 0#32)
  :: StableHlo.unary main_c_29 main_v158 (broadcastInDim S262144 ![] bcast_S_S262144 : (⟨S_, .i32⟩ : BufTy).Contents (Elt F) → (⟨S262144, .i32⟩ : BufTy).Contents (Elt F))
  :: StableHlo.binary main_v4 main_v158 main_v159 (cmpi .slt : (⟨S262144, .i32⟩ : BufTy).Contents (Elt F) → (⟨S262144, .i32⟩ : BufTy).Contents (Elt F) → (⟨S262144, .i1⟩ : BufTy).Contents (Elt F))
  :: StableHlo.nullary main_c_30 (constantI S_ 32 4096#32)
  :: StableHlo.unary main_c_30 main_v160 (broadcastInDim S262144 ![] bcast_S_S262144 : (⟨S_, .i32⟩ : BufTy).Contents (Elt F) → (⟨S262144, .i32⟩ : BufTy).Contents (Elt F))
  :: StableHlo.binary main_v4 main_v160 main_v161 (addi : (⟨S262144, .i32⟩ : BufTy).Contents (Elt F) → (⟨S262144, .i32⟩ : BufTy).Contents (Elt F) → (⟨S262144, .i32⟩ : BufTy).Contents (Elt F))
  :: StableHlo.ternary main_v159 main_v161 main_v4 main_v162 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F))
  :: StableHlo.unary main_v157 main_v163 (broadcastInDim S262144x1 ![0] bcast_S262144_S262144x1_0 : (⟨S262144, .i32⟩ : BufTy).Contents (Elt F) → (⟨S262144x1, .i32⟩ : BufTy).Contents (Elt F))
  :: StableHlo.unary main_v162 main_v164 (broadcastInDim S262144x1 ![0] bcast_S262144_S262144x1_0 : (⟨S262144, .i32⟩ : BufTy).Contents (Elt F) → (⟨S262144x1, .i32⟩ : BufTy).Contents (Elt F))
  :: StableHlo.binary main_v163 main_v164 main_v165 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F))
  :: StableHlo.ternary main_v150 main_v165 main_v152 main_v166 ((fun x i u => Host.scatterAdd scatter_S4096x4096_S262144x2_S262144_n_01_01_1 x i u) : (⟨S4096x4096, .f32⟩ : BufTy).Contents (Elt F) → (⟨S262144x2, .i32⟩ : BufTy).Contents (Elt F) → (⟨S262144, .f32⟩ : BufTy).Contents (Elt F) → (⟨S4096x4096, .f32⟩ : BufTy).Contents (Elt F))
  :: StableHlo.unary main_v20 main_v167 ((extractStridedSlice S1x4096 ![3, 0] · slices_S4x4096_S1x4096_3_0) : (⟨S4x4096, .f32⟩ : BufTy).Contents (Elt F) → (⟨S1x4096, .f32⟩ : BufTy).Contents (Elt F))
  :: StableHlo.reshape main_v167 main_v168 rfl shapeCasts_S1x4096_S4096
  :: StableHlo.unary main_v168 main_v169 (broadcastInDim S4096x1 ![0] bcast_S4096_S4096x1_0 : (⟨S4096, .f32⟩ : BufTy).Contents (Elt F) → (⟨S4096x1, .f32⟩ : BufTy).Contents (Elt F))
  :: StableHlo.unary main_v169 main_v170 (broadcastInDim S4096x4096 ![0, 1] bcast_S4096x1_S4096x4096_0_1 : (⟨S4096x1, .f32⟩ : BufTy).Contents (Elt F) → (⟨S4096x4096, .f32⟩ : BufTy).Contents (Elt F))
  :: StableHlo.binary main_v166 main_v170 main_v171 (Host.divf : (⟨S4096x4096, .f32⟩ : BufTy).Contents (Elt F) → (⟨S4096x4096, .f32⟩ : BufTy).Contents (Elt F) → (⟨S4096x4096, .f32⟩ : BufTy).Contents (Elt F))
  :: StableHlo.nary ![main_v41, main_v77, main_v113, main_v149] main_v172 (fun u => concatenate S4096x512 1 [⟨S4096x128, u 0⟩, ⟨S4096x128, u 1⟩, ⟨S4096x128, u 2⟩, ⟨S4096x128, u 3⟩] concatenates_S4096x128_S4096x128_S4096x128_S4096x128_S4096x512_d1)
  :: StableHlo.unary main_v63 main_v173 (broadcastInDim S1x4096x4096 ![1, 2] bcast_S4096x4096_S1x4096x4096_1_2 : (⟨S4096x4096, .f32⟩ : BufTy).Contents (Elt F) → (⟨S1x4096x4096, .f32⟩ : BufTy).Contents (Elt F))
  :: StableHlo.unary main_v99 main_v174 (broadcastInDim S1x4096x4096 ![1, 2] bcast_S4096x4096_S1x4096x4096_1_2 : (⟨S4096x4096, .f32⟩ : BufTy).Contents (Elt F) → (⟨S1x4096x4096, .f32⟩ : BufTy).Contents (Elt F))
  :: StableHlo.unary main_v135 main_v175 (broadcastInDim S1x4096x4096 ![1, 2] bcast_S4096x4096_S1x4096x4096_1_2 : (⟨S4096x4096, .f32⟩ : BufTy).Contents (Elt F) → (⟨S1x4096x4096, .f32⟩ : BufTy).Contents (Elt F))
  :: StableHlo.unary main_v171 main_v176 (broadcastInDim S1x4096x4096 ![1, 2] bcast_S4096x4096_S1x4096x4096_1_2 : (⟨S4096x4096, .f32⟩ : BufTy).Contents (Elt F) → (⟨S1x4096x4096, .f32⟩ : BufTy).Contents (Elt F))
  :: StableHlo.nary ![main_v173, main_v174, main_v175, main_v176] main_v177 (fun u => concatenate S4x4096x4096 0 [⟨S1x4096x4096, u 0⟩, ⟨S1x4096x4096, u 1⟩, ⟨S1x4096x4096, u 2⟩, ⟨S1x4096x4096, u 3⟩] concatenates_S1x4096x4096_S1x4096x4096_S1x4096x4096_S1x4096x4096_S4x4096x4096_d0)
  :: [] )

/-- Each touches TensorCore references only. -/
theorem ops_sub : (ops : List (HloOp τ sig (Elt F))).Forall fun op => op.bufs ⊆ tcRefs τ sig :=
  ⟨binary_bufs_sub .., unary_bufs_sub .., reshape_bufs_sub .., unary_bufs_sub .., reshape_bufs_sub .., nullary_bufs_sub .., nullary_bufs_sub .., unary_bufs_sub .., binary_bufs_sub .., unary_bufs_sub .., unary_bufs_sub .., binary_bufs_sub .., ternary_bufs_sub .., binary_bufs_sub .., nullary_bufs_sub .., unary_bufs_sub .., binary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., unary_bufs_sub .., reshape_bufs_sub .., unary_bufs_sub .., unary_bufs_sub .., binary_bufs_sub .., nary_bufs_sub .., unary_bufs_sub .., unary_bufs_sub .., unary_bufs_sub .., unary_bufs_sub .., nary_bufs_sub ..⟩

end Cert.ReferenceIdeal.Value

end
-- ==== Proof.RefRun.lean ====
/-
  The reference program's run: its @main is a straight line of host operations (the module-local functions'
  bodies run in place at their calls), so every weakly fair execution terminates with each buffer at the
  fold of the operations' results over its launch contents.
-/
import proofs.«412460_j8796093022366_3_alg».proof.Proof.RefOps
import Idealize.ShloMosaic.Lib.Pipeline.Regions

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main is that line: its windows in order, each call's body in place. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Every operation determines its results. -/
theorem ops_fresh : ∀ op ∈ (ops : List (HloOp τ sig (Elt F))), op.fresh = ∅ := by
  intro _ h
  (repeat (cases h with | head => rfl | tail _ h => ?_))
  exact nomatch h

/-- From any memory with zero counters every weakly fair execution of @main terminates, each TensorCore buffer at
    the fold of the operations over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.Value

end
-- ==== Proof.RefPrefix.lean ====
/-
  The part of the reference program every channel shares, read index by index over the extended reals:
  the projected features `h = x · W`, the two rows of the edge table, the edge weights `v`, the node divisors `d`
  and the features taken along the edges.

  Each is read in two steps. First the buffer is written as a short term of the arrays it is computed from (the
  program's own operations, in its order). Then that term is read at one index: a pointwise operation reads its
  operands there, a slice and a flattening move the index, the matrix product is a sum over the shared axis, the
  accumulating scatter a sum over the edges whose row is the node, the indexed take a read at the entered node.
  Where the edge table's words are node numbers (`InRange`), a word read signed is the word, is not negative and
  is not clamped.
-/
import proofs.«412460_j8796093022366_3_alg».proof.Proof.RefOps
import proofs.«412460_j8796093022366_3_alg».proof.Proof.Spec
import proofs.«412460_j8796093022366_3_alg».proof.Proof.LibScatterRead
import proofs.«412460_j8796093022366_3_alg».proof.Proof.LibGatherRead
import Idealize.ShloMosaic.Lib.StableHlo.Run
import Idealize.ShloMosaic.Lib.StableHlo.Predicate
import Idealize.ShloMosaic.Lib.ValueIdx
import Idealize.ShloMosaic.Lib.Pipeline.Value
import Idealize.ShloMosaic.PureOps.Ideal.Laws

set_option maxRecDepth 65536

noncomputable section

open scoped BigOperators

namespace Cert.ReferenceIdeal.Read

open Cert.ReferenceIdeal Cert.ReferenceIdeal.Gen Cert.ReferenceIdeal.Value Idealize.ShloMosaic Idealize.ShloMosaic.TcCoe
  Idealize.ShloMosaic.ValueIdx Idealize.SL.Sem Idealize.ShloMosaic.StableHlo

variable (V : Valuation τ sig (Elt Ideal))

/-! ## Layout reads -/

namespace Prefix

/-- Row `c` of a two-axis array, cut out as a one-row block and flattened, reads at `e` the array at `(c, e)`. -/
theorem sliceRow_apply {α : Type} {C N : Nat} (c : Fin C) (x : (⟨2, ![C, N]⟩ : Shape).Idx → α)
    (hs : (⟨2, ![C, N]⟩ : Shape).Slices ![c.val, 0] ⟨2, ![1, N]⟩)
    (hc : (⟨2, ![1, N]⟩ : Shape).ShapeCasts ⟨1, ![N]⟩) (e : Fin N) :
    shapeCast ⟨1, ![N]⟩ (extractStridedSlice ⟨2, ![1, N]⟩ ![c.val, 0] x hs) hc (ix1 e) = x (ix2 c e) := by
  refine (shapeCast_apply _ hc (ix1 e) (ix2 (0 : Fin 1) e) ?_).trans ?_
  · rw [Shape.rowMajor_val_two, Shape.rowMajor_val_one]
    show 0 * N + e.val = e.val
    omega
  · exact extractStridedSlice_apply _ x hs (ix2 (0 : Fin 1) e) (ix2 c e)
      (fun a => match a with
        | ⟨0, _⟩ => (Nat.add_zero _).symm
        | ⟨1, _⟩ => (Nat.zero_add _).symm)

/-- A list laid out as a one-column table reads, at `(e, 0)`, the list at `e`. -/
theorem col1_apply {α : Type} {n : Nat} (h : (⟨1, ![n]⟩ : Shape).BroadcastsInDim ⟨2, ![n, 1]⟩ ![0])
    (v : (⟨1, ![n]⟩ : Shape).Idx → α) (e : Fin n) :
    broadcastInDim ⟨2, ![n, 1]⟩ ![0] h v (ix2 e (0 : Fin 1)) = v (ix1 e) := by
  simp only [broadcastInDim]
  congr 1
  funext a
  have ha : a = 0 := Subsingleton.elim _ _
  subst ha
  apply Fin.ext
  have hp := e.isLt
  split
  · next h1 => change n = 1 at h1; show (0 : Nat) = e.val; omega
  · rfl

/-! ## The matrix product -/

/-- The host matrix product at `(n, o)`: row `n` of `x` against column `o` of `W`, summed over the 512 shared
    positions. -/
theorem dot_apply (x : FVec Ideal S4096x512 .f32) (w : FVec Ideal S512x128 .f32) (n : Fin 4096) (o : Fin 128) :
    Host.dotGeneral (F := Ideal) (φ₁ := .f32) (φ₂ := .f32) dot_S4096x512_S512x128_S4096x128_1_0_0_1_n_n none x w (ix2 n o)
      = ∑ k : Fin 512, x (ix2 n k) * w (ix2 k o) := by
  simp only [Host.dotGeneral]
  rw [Ideal.dotGeneral_apply]
  refine Fintype.sum_equiv (contrEquiv1 dot_S4096x512_S512x128_S4096x128_1_0_0_1_n_n 512 rfl rfl) _ _ (fun k => ?_)
  congr 1
  · refine congrArg x (funext fun a => ?_)
    match a with
    | ⟨0, _⟩ => exact Fin.ext rfl
    | ⟨1, _⟩ => exact Fin.ext rfl
  · refine congrArg w (funext fun a => ?_)
    match a with
    | ⟨0, _⟩ => exact Fin.ext rfl
    | ⟨1, _⟩ => exact Fin.ext rfl

end Prefix

namespace Prefix

/-! ## The weights -/

/-- leaky-relu of the logits, as the reference spells it: keep what is at least zero, scale the rest by the slope -/
def leakyT (ev : FVec Ideal S4x262144 .f32) : FVec Ideal S4x262144 .f32 :=
  select (cmpf (F := Ideal) .oge ev (broadcastInDim S4x262144 ![] Facts₀.bcast_S_S4x262144 (constant (F := Ideal) S_ .f32 0x00000000#32)))
    ev (mulf (F := Ideal) (broadcastInDim S4x262144 ![] Facts₀.bcast_S_S4x262144 (constant (F := Ideal) S_ .f32 0x3E4CCCCD#32)) ev)

/-- from the leaky logits to the weights: zeros sent far down, the exponential, the cap -/
def weightOf (l : FVec Ideal S4x262144 .f32) : FVec Ideal S4x262144 .f32 :=
  minimumf (F := Ideal)
    (Host.exp (F := Ideal)
      (select
        (ori (cmpf (F := Ideal) .une l l)
          (cmpf (F := Ideal) .oeq l (broadcastInDim S4x262144 ![] Facts₀.bcast_S_S4x262144 (constant (F := Ideal) S_ .f32 0x00000000#32))))
        (broadcastInDim S4x262144 ![] Facts₀.bcast_S_S4x262144 (constant (F := Ideal) S_ .f32 0xD9FFCB9E#32)) l))
    (broadcastInDim S4x262144 ![] Facts₀.bcast_S_S4x262144 (constant (F := Ideal) S_ .f32 0x59FFCB9E#32))

/-- At an index the reference's leaky-relu is `leaky` of the logit. -/
theorem leakyT_apply (ev : FVec Ideal S4x262144 .f32) (i : S4x262144.Idx) : leakyT ev i = Cert.Spec.leaky (ev i) := by
  show Scalar.select (Ideal.cmp .oge (ev i) (Ideal.ofBits .f32 0x00000000#32)) (ev i)
      (Ideal.ofBits .f32 0x3E4CCCCD#32 * ev i) = _
  rw [Ideal.ofBits_zero_f32]
  have hc : Ideal.cmp .oge (ev i) 0 = BitVec.ofBool (decide ((0 : EReal) ≤ ev i)) := rfl
  rw [hc]
  unfold Cert.Spec.leaky
  by_cases h : (0 : EReal) ≤ ev i
  · rw [if_pos h, decide_eq_true h]; exact select_one _ _
  · rw [if_neg h, decide_eq_false h]; exact select_zero _ _

/-- At an index: an extended real never differs from itself, so only a zero is replaced. -/
theorem weightOf_apply (l : FVec Ideal S4x262144 .f32) (i : S4x262144.Idx) :
    weightOf l i = min (Ideal.exp (if l i = 0 then Cert.Spec.litNegBig else l i)) Cert.Spec.litBig := by
  show min (Ideal.exp (Scalar.select
        (IntOp.ori (Ideal.cmp .une (l i) (l i)) (Ideal.cmp .oeq (l i) (Ideal.ofBits .f32 0x00000000#32)))
        (Ideal.ofBits .f32 0xD9FFCB9E#32) (l i))) (Ideal.ofBits .f32 0x59FFCB9E#32) = _
  rw [Ideal.ofBits_zero_f32]
  have h1 : Ideal.cmp .une (l i) (l i) = 0#1 := by
    show BitVec.ofBool (decide (l i ≠ l i)) = 0#1
    rw [decide_eq_false (fun h => h rfl)]; rfl
  have h2 : Ideal.cmp .oeq (l i) 0 = BitVec.ofBool (decide (l i = 0)) := rfl
  rw [h1, h2]
  by_cases h : l i = 0
  · have hb : IntOp.ori 0#1 (BitVec.ofBool true) = 1#1 := by decide
    rw [if_pos h, decide_eq_true h, hb, select_one]
  · have hb : IntOp.ori 0#1 (BitVec.ofBool false) = 0#1 := by decide
    rw [if_neg h, decide_eq_false h, hb, select_zero]

/-- The reference's weight at `(c, e)` is `vfun` of the logit there. -/
theorem weight_apply (ev : FVec Ideal S4x262144 .f32) (c : Fin 4) (e : Fin 262144) :
    weightOf (leakyT ev) (ix2 c e) = Cert.Spec.vfun (ev (ix2 c e)) := by
  rw [weightOf_apply, leakyT_apply]
  rfl

/-! ## The divisors -/

/-- the weights summed into the node each edge leaves, from zeros -/
def sumT (row : IVec S262144 32) (wv : FVec Ideal S4x262144 .f32) : FVec Ideal S4x4096 .f32 :=
  Host.scatterAdd (F := Ideal) scatter_S4x4096_S262144x1_S4x262144_0_1_1_1
    (broadcastInDim S4x4096 ![1] Facts₀.bcast_S4096_S4x4096_1
      (broadcastInDim S4096 ![] Facts₀.bcast_S_S4096 (constant (F := Ideal) S_ .f32 0x00000000#32)))
    (broadcastInDim S262144x1 ![0] Facts₀.bcast_S262144_S262144x1_0 row) wv

/-- one where the sum is zero, the sum elsewhere -/
def divT (t : FVec Ideal S4x4096 .f32) : FVec Ideal S4x4096 .f32 :=
  select (cmpf (F := Ideal) .oeq t (broadcastInDim S4x4096 ![] Facts₀.bcast_S_S4x4096 (constant (F := Ideal) S_ .f32 0x00000000#32)))
    (broadcastInDim S4x4096 ![] Facts₀.bcast_S_S4x4096 (constant (F := Ideal) S_ .f32 0x3F800000#32)) t

/-- The scattered sum at `(c, n)`: the weights of channel `c` over the edges whose row word, read signed, is `n`. -/
theorem sumT_apply (row : IVec S262144 32) (wv : FVec Ideal S4x262144 .f32) (c : Fin 4) (n : Fin 4096) :
    sumT row wv (ix2 c n)
      = ∑ e ∈ Finset.univ.filter (fun e : Fin 262144 => (row (ix1 e)).toInt = (n.val : ℤ)), wv (ix2 c e) := by
  unfold sumT
  refine (Cert.IndexedRead.scatterAdd_minor_apply (C := 4) (N := 4096) (E := 262144)
    scatter_S4x4096_S262144x1_S4x262144_0_1_1_1 rfl rfl rfl rfl _ _ wv c n).trans ?_
  have hz : (broadcastInDim S4x4096 ![1] Facts₀.bcast_S4096_S4x4096_1
      (broadcastInDim S4096 ![] Facts₀.bcast_S_S4096 (constant (F := Ideal) S_ .f32 0x00000000#32))) (ix2 c n) = (0 : EReal) :=
    Ideal.ofBits_zero_f32
  rw [hz, zero_add]
  refine Finset.sum_congr (Finset.filter_congr fun e _ => ?_) (fun _ _ => rfl)
  rw [col1_apply]

/-- At an index: one where the sum vanishes. -/
theorem divT_apply (t : FVec Ideal S4x4096 .f32) (i : S4x4096.Idx) :
    divT t i = if t i = 0 then Cert.Spec.litOne else t i := by
  show Scalar.select (Ideal.cmp .oeq (t i) (Ideal.ofBits .f32 0x00000000#32)) (Ideal.ofBits .f32 0x3F800000#32) (t i) = _
  rw [Ideal.ofBits_zero_f32]
  have h2 : Ideal.cmp .oeq (t i) 0 = BitVec.ofBool (decide (t i = 0)) := rfl
  rw [h2]
  by_cases h : t i = 0
  · rw [if_pos h, decide_eq_true h]; exact select_one _ _
  · rw [if_neg h, decide_eq_false h]; exact select_zero _ _

/-- With every word of the edge table a node number, the reference's divisor is `dS`. -/
theorem div_sum_apply (ev : FVec Ideal S4x262144 .f32) (ei : IVec S2x262144 32) (hR : Cert.Spec.InRange ei)
    (row : IVec S262144 32) (wv : FVec Ideal S4x262144 .f32)
    (hrow : ∀ e : Fin 262144, row (ix1 e) = ei (ix2 (0 : Fin 2) e))
    (hw : ∀ (c : Fin 4) (e : Fin 262144), wv (ix2 c e) = Cert.Spec.vS ev c e) (c : Fin 4) (n : Fin 4096) :
    divT (sumT row wv) (ix2 c n) = Cert.Spec.dS ev ei c n := by
  have hs : sumT row wv (ix2 c n) = Cert.Spec.sumRow ev ei c n := by
    rw [sumT_apply]
    unfold Cert.Spec.sumRow
    refine Finset.sum_congr (Finset.filter_congr fun e _ => ?_) (fun e _ => hw c e)
    rw [hrow]
    unfold Cert.Spec.rowN
    have hlt : (ei (ix2 (0 : Fin 2) e)).toNat < 4096 := hR _
    rw [Predicate.toInt_eq_toNat_of_lt (by omega)]
    omega
  rw [divT_apply, hs]
  rfl

/-! ## The features along the edges -/

/-- the entered node's number, a negative one moved up by 4096, as a one-column table -/
def colIdxT (col : IVec S262144 32) : IVec S262144x1 32 :=
  broadcastInDim S262144x1 ![0] Facts₀.bcast_S262144_S262144x1_0
    (select (cmpi .slt col (broadcastInDim S262144 ![] Facts₀.bcast_S_S262144 (constantI S_ 32 0#32)))
      (addi col (broadcastInDim S262144 ![] Facts₀.bcast_S_S262144 (constantI S_ 32 4096#32))) col)

/-- With every word of the edge table a node number, the rows taken are those of the entered nodes. -/
theorem gather_apply (ei : IVec S2x262144 32) (hR : Cert.Spec.InRange ei) (col : IVec S262144 32)
    (hcol : ∀ e : Fin 262144, col (ix1 e) = ei (ix2 (1 : Fin 2) e)) (h : FVec Ideal S4096x128 .f32)
    (e : Fin 262144) (o : Fin 128) :
    Host.gather gather_S4096x128_S262144x1_S262144x128_1_0_n_n_0_1_1128 h (colIdxT col) (ix2 e o)
      = h (ix2 (Cert.Spec.colF ei e) o) := by
  refine (Cert.IndexedRead.gather_major_apply (N := 4096) (O := 128) (E := 262144) (by decide)
    gather_S4096x128_S262144x1_S262144x128_1_0_n_n_0_1_1128 rfl rfl rfl rfl rfl rfl h (colIdxT col) e o).trans ?_
  have hlt : (ei (ix2 (1 : Fin 2) e)).toNat < 4096 := hR _
  have hz : colIdxT col (ix2 e (0 : Fin 1)) = ei (ix2 (1 : Fin 2) e) := by
    unfold colIdxT
    rw [col1_apply]
    show Scalar.select (IntOp.cmpi .slt (col (ix1 e)) 0#32) (IntOp.addi (col (ix1 e)) 4096#32) (col (ix1 e)) = _
    rw [hcol]
    have hn : ¬ IntOp.cmpi .slt (ei (ix2 (1 : Fin 2) e)) 0#32 = 1#1 := by
      rw [Predicate.slt_iff_toNat (by omega) (by decide)]
      exact Nat.not_lt_zero _
    rw [eq_zero_of_ne_one hn, select_zero]
  refine congrArg h ?_
  congr 1
  apply Fin.ext
  show min (colIdxT col (ix2 e (0 : Fin 1))).toInt.toNat (4096 - 1) = min (Cert.Spec.colN ei e) 4095
  rw [hz, Predicate.toInt_eq_toNat_of_lt (by omega)]
  rfl

end Prefix

/-! ## The buffers as terms of the arrays they are computed from -/

set_option maxHeartbeats 4000000 in
/-- `h` is the host matrix product of `x` and `W`. -/
theorem h_eq :
    after ops V (Proc.devRef .tc main_v0)
      = Host.dotGeneral (F := Ideal) (φ₁ := .f32) (φ₂ := .f32) dot_S4096x512_S512x128_S4096x128_1_0_0_1_n_n none
          (V (Proc.devRef .tc main_arg0)) (V (Proc.devRef .tc main_arg1)) := by
  after_results_simp <;> rfl

set_option maxHeartbeats 4000000 in
/-- `row` is row 0 of the edge table, flattened. -/
theorem row_eq :
    after ops V (Proc.devRef .tc main_v2)
      = shapeCast S262144 (extractStridedSlice S1x262144 ![0, 0] (V (Proc.devRef .tc main_arg3))
          Facts₀.slices_S2x262144_S1x262144_0_0) Facts₀.shapeCasts_S1x262144_S262144 := by
  after_results_simp <;> rfl

set_option maxHeartbeats 4000000 in
/-- `col` is row 1 of the edge table, flattened. -/
theorem col_eq :
    after ops V (Proc.devRef .tc main_v4)
      = shapeCast S262144 (extractStridedSlice S1x262144 ![1, 0] (V (Proc.devRef .tc main_arg3))
          Facts₀.slices_S2x262144_S1x262144_1_0) Facts₀.shapeCasts_S1x262144_S262144 := by
  after_results_simp <;> rfl

set_option maxHeartbeats 4000000 in
/-- The weights are computed from the logits alone. -/
theorem v_eq :
    after ops V (Proc.devRef .tc main_v13) = Prefix.weightOf (Prefix.leakyT (V (Proc.devRef .tc main_arg2))) := by
  after_results_simp <;> rfl

set_option maxHeartbeats 4000000 in
/-- The divisors are computed from `row` and the weights. -/
theorem d_eq :
    after ops V (Proc.devRef .tc main_v20)
      = Prefix.divT (Prefix.sumT (after ops V (Proc.devRef .tc main_v2)) (after ops V (Proc.devRef .tc main_v13))) := by
  after_results_simp <;> (try simp only [TRef.ofBuf, TRef.toBuf, cast_eq, id_eq]) <;> rfl

set_option maxHeartbeats 4000000 in
/-- The features along the edges are rows of `h` taken at `col`. -/
theorem g_eq :
    after ops V (Proc.devRef .tc main_v27)
      = Host.gather gather_S4096x128_S262144x1_S262144x128_1_0_n_n_0_1_1128 (after ops V (Proc.devRef .tc main_v0))
          (Prefix.colIdxT (after ops V (Proc.devRef .tc main_v4))) := by
  after_results_simp <;> rfl

/-! ## The buffers at an index -/

/-- The projected features: row `n` of `x` against column `o` of `W`. -/
theorem h_apply (n : Fin 4096) (o : Fin 128) :
    after ops V (Proc.devRef .tc main_v0) (ix2 n o)
      = Cert.Spec.hS (V (Proc.devRef .tc main_arg0)) (V (Proc.devRef .tc main_arg1)) n o :=
  (congrFun (h_eq V) (ix2 n o)).trans (Prefix.dot_apply _ _ n o)

/-- The node an edge leaves: row 0 of the edge table. -/
theorem row_apply (e : Fin 262144) :
    after ops V (Proc.devRef .tc main_v2) (ix1 e) = V (Proc.devRef .tc main_arg3) (ix2 (0 : Fin 2) e) :=
  (congrFun (row_eq V) (ix1 e)).trans
    (Prefix.sliceRow_apply (0 : Fin 2) (V (Proc.devRef .tc main_arg3)) Facts₀.slices_S2x262144_S1x262144_0_0
      Facts₀.shapeCasts_S1x262144_S262144 e)

/-- The node an edge enters: row 1 of the edge table. -/
theorem col_apply (e : Fin 262144) :
    after ops V (Proc.devRef .tc main_v4) (ix1 e) = V (Proc.devRef .tc main_arg3) (ix2 (1 : Fin 2) e) :=
  (congrFun (col_eq V) (ix1 e)).trans
    (Prefix.sliceRow_apply (1 : Fin 2) (V (Proc.devRef .tc main_arg3)) Facts₀.slices_S2x262144_S1x262144_1_0
      Facts₀.shapeCasts_S1x262144_S262144 e)

/-- Channel `c`'s weight of edge `e`. -/
theorem v_apply (c : Fin 4) (e : Fin 262144) :
    after ops V (Proc.devRef .tc main_v13) (ix2 c e) = Cert.Spec.vS (V (Proc.devRef .tc main_arg2)) c e :=
  (congrFun (v_eq V) (ix2 c e)).trans (Prefix.weight_apply _ c e)

/-- Node `n`'s divisor in channel `c`. -/
theorem d_apply (hR : Cert.Spec.InRange (V (Proc.devRef .tc main_arg3))) (c : Fin 4) (n : Fin 4096) :
    after ops V (Proc.devRef .tc main_v20) (ix2 c n)
      = Cert.Spec.dS (V (Proc.devRef .tc main_arg2)) (V (Proc.devRef .tc main_arg3)) c n :=
  (congrFun (d_eq V) (ix2 c n)).trans
    (Prefix.div_sum_apply (V (Proc.devRef .tc main_arg2)) (V (Proc.devRef .tc main_arg3)) hR _ _
      (row_apply V) (v_apply V) c n)

/-- The features of the node edge `e` enters. -/
theorem g_apply (hR : Cert.Spec.InRange (V (Proc.devRef .tc main_arg3))) (e : Fin 262144) (o : Fin 128) :
    after ops V (Proc.devRef .tc main_v27) (ix2 e o)
      = Cert.Spec.hS (V (Proc.devRef .tc main_arg0)) (V (Proc.devRef .tc main_arg1))
          (Cert.Spec.colF (V (Proc.devRef .tc main_arg3)) e) o :=
  ((congrFun (g_eq V) (ix2 e o)).trans
    (Prefix.gather_apply (V (Proc.devRef .tc main_arg3)) hR _ (col_apply V) _ e o)).trans (h_apply V _ o)

end Cert.ReferenceIdeal.Read

end
-- ==== Proof.RefFeat.lean ====
/-
  The reference's first result, read index by index.

  The result is an array of 4096 rows and 512 columns: four blocks of 128 columns side by side, one per channel.
  Channel `c`'s block holds, at node `n` and feature `o`, ELU of the aggregated feature: every edge `e` carries
  the message `v[c, e] · h[col e, o]`, the messages of the edges that leave `n` are summed, and the sum is divided
  by the divisor of `(c, n)`.  First the result is written as one explicit term of four earlier arrays (the weights,
  the table of the nodes the edges leave, the gathered rows of `h`, the divisors); then that term is read at an index,
  over arbitrary arrays; last the four arrays are read through what is known of them.
-/
import proofs.«412460_j8796093022366_3_alg».proof.Proof.RefOps
import proofs.«412460_j8796093022366_3_alg».proof.Proof.Spec
import proofs.«412460_j8796093022366_3_alg».proof.Proof.LibScatterRead
import proofs.«412460_j8796093022366_3_alg».proof.Proof.Bridge
import proofs.«412460_j8796093022366_3_alg».proof.Proof.RefPrefix
import Idealize.ShloMosaic.Lib.StableHlo.Run
import Idealize.ShloMosaic.Lib.StableHlo.Predicate
import Idealize.ShloMosaic.Lib.ValueIdx
import Idealize.ShloMosaic.Lib.Pipeline.Value
import Idealize.ShloMosaic.Lib.ValueLayout
import Idealize.ShloMosaic.PureOps.Ideal.Laws

set_option maxRecDepth 65536

noncomputable section

open scoped BigOperators

namespace Cert.ReferenceIdeal.Read

open Cert.ReferenceIdeal Cert.ReferenceIdeal.Gen Cert.ReferenceIdeal.Value Idealize.ShloMosaic Idealize.ShloMosaic.TcCoe Idealize.ShloMosaic.ValueIdx Idealize.SL.Sem Idealize.ShloMosaic.StableHlo

namespace Feat

/-! ## The result as one term of four earlier arrays -/

section Term
variable {F : FTy → Type} [FloatOps F]

/-- One channel's aggregated features before ELU, as the program spells them: the weights' row `off` laid along the
    features and multiplied into the gathered rows, the products summed into the row each edge leaves, the sums
    divided by the divisors' row `off` laid along the features. -/
def aggTerm (off : Fin 2 → Nat) (hs : S4x262144.Slices off S1x262144) (hd : S4x4096.Slices off S1x4096)
    (W : FVec F S4x262144 .f32) (R : IVec S262144 32) (G : FVec F S262144x128 .f32) (D : FVec F S4x4096 .f32) :
    FVec F S4096x128 .f32 :=
  Host.divf
    (Host.scatterAdd scatter_S4096x128_S262144x1_S262144x128_1_0_0_1
      (broadcastInDim S4096x128 ![] bcast_S_S4096x128 (constant S_ .f32 0x00000000#32))
      (broadcastInDim S262144x1 ![0] bcast_S262144_S262144x1_0 R)
      (mulf
        (broadcastInDim S262144x128 ![0, 1] bcast_S262144x1_S262144x128_0_1
          (broadcastInDim S262144x1 ![0] bcast_S262144_S262144x1_0
            (shapeCast S262144 (extractStridedSlice S1x262144 off W hs) shapeCasts_S1x262144_S262144)))
        G))
    (broadcastInDim S4096x128 ![0, 1] bcast_S4096x1_S4096x128_0_1
      (broadcastInDim S4096x1 ![0] bcast_S4096_S4096x1_0
        (shapeCast S4096 (extractStridedSlice S1x4096 off D hd) shapeCasts_S1x4096_S4096)))

/-- ELU as the program spells it: where the entry is positive the entry, elsewhere one times the exponential minus
    one of the entry (of zero where the entry is positive, which the outer choice discards). -/
def eluTerm (P : FVec F S4096x128 .f32) : FVec F S4096x128 .f32 :=
  select (cmpf .ogt P (broadcastInDim S4096x128 ![] bcast_S_S4096x128 (constant S_ .f32 0x00000000#32)))
    P
    (mulf (broadcastInDim S4096x128 ![] bcast_S_S4096x128 (constant S_ .f32 0x3F800000#32))
      (Host.expm1
        (select (cmpf .ogt P (broadcastInDim S4096x128 ![] bcast_S_S4096x128 (constant S_ .f32 0x00000000#32)))
          (broadcastInDim S4096x128 ![] bcast_S_S4096x128 (id (constant S_ .f32 0x00000000#32)))
          P)))

/-- The four channels' feature blocks side by side. -/
def outTerm (W : FVec F S4x262144 .f32) (R : IVec S262144 32) (G : FVec F S262144x128 .f32) (D : FVec F S4x4096 .f32) :
    FVec F S4096x512 .f32 :=
  concatenate S4096x512 1
    [⟨S4096x128, eluTerm (aggTerm ![0, 0] slices_S4x262144_S1x262144_0_0 slices_S4x4096_S1x4096_0_0 W R G D)⟩,
     ⟨S4096x128, eluTerm (aggTerm ![1, 0] slices_S4x262144_S1x262144_1_0 slices_S4x4096_S1x4096_1_0 W R G D)⟩,
     ⟨S4096x128, eluTerm (aggTerm ![2, 0] slices_S4x262144_S1x262144_2_0 slices_S4x4096_S1x4096_2_0 W R G D)⟩,
     ⟨S4096x128, eluTerm (aggTerm ![3, 0] slices_S4x262144_S1x262144_3_0 slices_S4x4096_S1x4096_3_0 W R G D)⟩]
    concatenates_S4096x128_S4096x128_S4096x128_S4096x128_S4096x512_d1

variable (V : Valuation τ sig (Elt F))

set_option maxHeartbeats 4000000 in
/-- The first result is that term of the weights, the row table, the gathered rows and the divisors. -/
theorem out_eq :
    after ops V (Proc.devRef .tc main_v172)
      = outTerm (after ops V (Proc.devRef .tc main_v13)) (after ops V (Proc.devRef .tc main_v2))
          (after ops V (Proc.devRef .tc main_v27)) (after ops V (Proc.devRef .tc main_v20)) := by
  unfold outTerm eluTerm aggTerm
  after_results_simp
  rfl

end Term

/-! ## Layout operations read at coordinates -/

section Reads
variable {α : Type}

/-- A scalar laid over any shape reads the scalar everywhere. -/
theorem bcast0_apply {t : Shape} (h : S_.BroadcastsInDim t ![]) (v : S_.Idx → α) (j : t.Idx) :
    broadcastInDim t ![] h v j = v ix0 := by
  unfold broadcastInDim
  exact congrArg v (funext fun a => a.elim0)

/-- A vector stood up as a column reads, at row `p`, the vector at `p`. -/
theorem bcastCol_apply {n : Nat} (h : (⟨1, ![n]⟩ : Shape).BroadcastsInDim ⟨2, ![n, 1]⟩ ![0])
    (v : (⟨1, ![n]⟩ : Shape).Idx → α) (p : Fin n) (z : Fin 1) :
    broadcastInDim ⟨2, ![n, 1]⟩ ![0] h v (ix2 p z) = v (ix1 p) := by
  refine broadcastInDim_apply ![0] h v (ix2 p z) (ix1 p) (fun a => ?_)
  match a with
  | ⟨0, _⟩ =>
    show p.val = if n = 1 then 0 else p.val
    split
    · next h1 => have := p.isLt; omega
    · rfl

/-- A column laid along a second axis reads, at `(p, q)`, the column at row `p`. -/
theorem bcastOfCol_apply {n m : Nat} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p (0 : Fin 1)) := by
  refine broadcastInDim_apply ![0, 1] h v (ix2 p q) (ix2 p (0 : Fin 1)) (fun a => ?_)
  match a with
  | ⟨0, _⟩ =>
    show p.val = if n = 1 then 0 else p.val
    split
    · next h1 => have := p.isLt; omega
    · rfl
  | ⟨1, _⟩ =>
    show (0 : ℕ) = if (1 : ℕ) = 1 then 0 else q.val
    rw [if_pos rfl]

/-- Row `c` cut out of a `[C, m]` array reads, at `(0, e)`, the array at `(c, e)`. -/
theorem sliceRow_apply {C m : Nat} (off : Fin 2 → Nat) (h : (⟨2, ![C, m]⟩ : Shape).Slices off ⟨2, ![1, m]⟩)
    (x : (⟨2, ![C, m]⟩ : Shape).Idx → α) (c : Fin C) (h0 : off 0 = c.val) (h1 : off 1 = 0) (z : Fin 1) (e : Fin m) :
    extractStridedSlice ⟨2, ![1, m]⟩ off x h (ix2 z e) = x (ix2 c e) := by
  refine extractStridedSlice_apply off x h (ix2 z e) (ix2 c e) (fun a => ?_)
  match a with
  | ⟨0, _⟩ =>
    show c.val = off 0 + z.val
    have := z.isLt; omega
  | ⟨1, _⟩ =>
    show e.val = off 1 + e.val
    omega

end Reads

/-! ## One channel's block read at a node and a feature -/

section Channel

/-- The aggregated features at `(n, o)`: the sum, over the edges whose row word reads `n`, of the edge's weight in
    row `c` times the gathered entry `(e, o)`, over the divisor of `(c, n)`. -/
theorem aggTerm_apply (off : Fin 2 → Nat) (hs : S4x262144.Slices off S1x262144) (hd : S4x4096.Slices off S1x4096)
    (c : Fin 4) (h0 : off 0 = c.val) (h1 : off 1 = 0)
    (W : FVec Ideal S4x262144 .f32) (R : IVec S262144 32) (G : FVec Ideal S262144x128 .f32) (D : FVec Ideal S4x4096 .f32)
    (n : Fin 4096) (o : Fin 128) :
    aggTerm off hs hd W R G D (ix2 n o)
      = Ideal.div
          (∑ e ∈ Finset.univ.filter (fun e : Fin 262144 => (R (ix1 e)).toInt = (n.val : ℤ)), W (ix2 c e) * G (ix2 e o))
          (D (ix2 c n)) := by
  unfold aggTerm
  show Ideal.div (Host.scatterAdd (F := Ideal) (φ := .f32) scatter_S4096x128_S262144x1_S262144x128_1_0_0_1 _ _ _ (ix2 n o)) _ = _
  rw [Cert.IndexedRead.scatterAdd_major_apply scatter_S4096x128_S262144x1_S262144x128_1_0_0_1 rfl rfl rfl rfl]
  rw [bcast0_apply, constant_apply, Ideal.ofBits_zero_f32, zero_add]
  refine congrArg₂ Ideal.div ?_ ?_
  · refine Finset.sum_congr (Finset.filter_congr fun e _ => ?_) (fun e _ => ?_)
    · rw [bcastCol_apply]
    · rw [mulf_apply, bcastOfCol_apply, bcastCol_apply, shapeCast_1a_a_apply, sliceRow_apply off hs W c h0 h1]
  · rw [bcastOfCol_apply, bcastCol_apply, shapeCast_1a_a_apply, sliceRow_apply off hd D c h0 h1]

/-- ELU as the program spells it is ELU, entry by entry. -/
theorem eluTerm_apply (P : FVec Ideal S4096x128 .f32) (i : S4096x128.Idx) :
    eluTerm P i = Cert.Spec.eluS (P i) := by
  unfold eluTerm Cert.Spec.eluS
  rw [select_apply, cmpf_apply, bcast0_apply, constant_apply, Ideal.ofBits_zero_f32, Ideal.cmpf_def]
  by_cases h : (0 : EReal) < P i
  · have hc : Ideal.cmp .ogt (P i) 0 = 1#1 := by simp [Ideal.cmp, h]
    rw [hc, select_one, if_pos h]
  · have hc : Ideal.cmp .ogt (P i) 0 = 0#1 := by simp [Ideal.cmp, h]
    rw [hc, select_zero, if_neg h, mulf_apply, bcast0_apply, constant_apply]
    show Cert.Spec.litOne * (Ideal.exp (Scalar.select _ _ (P i)) - 1) = _
    rw [cmpf_apply, bcast0_apply, constant_apply, Ideal.ofBits_zero_f32, Ideal.cmpf_def, hc, select_zero,
      Cert.Bridge.litOne_eq, one_mul]

end Channel

/-! ## Four blocks of 128 columns side by side -/

section Concat
variable {α : Type}

/-- Four `[4096, 128]` blocks laid side by side read, at `(n, j)`, block `j / 128` at `(n, j % 128)`. -/
theorem concat4_read (u0 u1 u2 u3 : S4096x128.Idx → α)
    (h : Shape.Concatenates (([⟨S4096x128, u0⟩, ⟨S4096x128, u1⟩, ⟨S4096x128, u2⟩, ⟨S4096x128, u3⟩] :
      List ((s : Shape) × (s.Idx → α))).map (·.1)) S4096x512 1)
    (f : Fin 4 → Fin 4096 → Fin 128 → α)
    (hu0 : ∀ n o, u0 (ix2 n o) = f 0 n o) (hu1 : ∀ n o, u1 (ix2 n o) = f 1 n o)
    (hu2 : ∀ n o, u2 (ix2 n o) = f 2 n o) (hu3 : ∀ n o, u3 (ix2 n o) = f 3 n o)
    (n : Fin 4096) (j : Fin 512) :
    concatenate S4096x512 1 [⟨S4096x128, u0⟩, ⟨S4096x128, u1⟩, ⟨S4096x128, u2⟩, ⟨S4096x128, u3⟩] h (ix2 n j)
      = f (Cert.Spec.chanOf j) n (Cert.Spec.featOf j) := by
  have hj := j.isLt
  have hoff : ∀ b : Fin S4096x128.rank, b.cast (rfl : S4096x128.rank = S4096x512.rank) ≠ (1 : Fin S4096x512.rank) →
      ((ix2 n (Cert.Spec.featOf j) : S4096x128.Idx) b).val = ((ix2 n j : S4096x512.Idx) (b.cast rfl)).val := by
    intro b hb
    match b with
    | ⟨0, _⟩ => rfl
    | ⟨1, _⟩ => exact absurd rfl hb
  have hmod : (Cert.Spec.featOf j).val = j.val % 128 := rfl
  have hcases : j.val / 128 = 0 ∨ j.val / 128 = 1 ∨ j.val / 128 = 2 ∨ j.val / 128 = 3 := by omega
  rcases hcases with hk | hk | hk | hk
  · have hc : Cert.Spec.chanOf j = 0 := Fin.ext hk
    rw [hc, ← hu0]
    refine concatenate_apply_piece 1 _ h (ix2 n j) 0 (show (0 : ℕ) < 4 by omega) S4096x128 u0 rfl rfl 0 rfl
      (ix2 n (Cert.Spec.featOf j)) hoff ?_
    show 0 + (Cert.Spec.featOf j).val = j.val
    omega
  · have hc : Cert.Spec.chanOf j = 1 := Fin.ext hk
    rw [hc, ← hu1]
    refine concatenate_apply_piece 1 _ h (ix2 n j) 1 (show (1 : ℕ) < 4 by omega) S4096x128 u1 rfl rfl 128 rfl
      (ix2 n (Cert.Spec.featOf j)) hoff ?_
    show 128 + (Cert.Spec.featOf j).val = j.val
    omega
  · have hc : Cert.Spec.chanOf j = 2 := Fin.ext hk
    rw [hc, ← hu2]
    refine concatenate_apply_piece 1 _ h (ix2 n j) 2 (show (2 : ℕ) < 4 by omega) S4096x128 u2 rfl rfl 256 rfl
      (ix2 n (Cert.Spec.featOf j)) hoff ?_
    show 256 + (Cert.Spec.featOf j).val = j.val
    omega
  · have hc : Cert.Spec.chanOf j = 3 := Fin.ext hk
    rw [hc, ← hu3]
    refine concatenate_apply_piece 1 _ h (ix2 n j) 3 (show (3 : ℕ) < 4 by omega) S4096x128 u3 rfl rfl 384 rfl
      (ix2 n (Cert.Spec.featOf j)) hoff ?_
    show 384 + (Cert.Spec.featOf j).val = j.val
    omega

end Concat

/-! ## The result -/

section Result
variable (V : Valuation τ sig (Elt Ideal))

/-- With every word of the edge table a node number, an edge's row word read signed is `n` exactly when the edge
    leaves node `n`. -/
theorem rowWord_iff (ei : IVec Cert.Spec.SEI 32) (hR : Cert.Spec.InRange ei) (e : Fin 262144) (n : Fin 4096) :
    (ei (ix2 (0 : Fin 2) e)).toInt = (n.val : ℤ) ↔ Cert.Spec.rowN ei e = n.val := by
  have h : (ei (ix2 (0 : Fin 2) e)).toNat < 4096 := hR _
  rw [Predicate.toInt_eq_toNat_of_lt (by omega)]
  unfold Cert.Spec.rowN
  exact Int.natCast_inj

/-- One channel's block of the reference's result at a node and a feature: ELU of the aggregated feature. -/
theorem chan_read (hR : Cert.Spec.InRange (V (Proc.devRef .tc main_arg3)))
    (off : Fin 2 → Nat) (hs : S4x262144.Slices off S1x262144) (hd : S4x4096.Slices off S1x4096)
    (c : Fin 4) (h0 : off 0 = c.val) (h1 : off 1 = 0) (n : Fin 4096) (o : Fin 128) :
    eluTerm (F := Ideal) (aggTerm (F := Ideal) off hs hd (after ops V (Proc.devRef .tc main_v13)) (after ops V (Proc.devRef .tc main_v2))
        (after ops V (Proc.devRef .tc main_v27)) (after ops V (Proc.devRef .tc main_v20))) (ix2 n o)
      = Cert.Spec.eluS (Cert.Spec.aggR (V (Proc.devRef .tc main_arg0)) (V (Proc.devRef .tc main_arg1))
          (V (Proc.devRef .tc main_arg2)) (V (Proc.devRef .tc main_arg3)) c n o) := by
  rw [eluTerm_apply, aggTerm_apply off hs hd c h0 h1]
  unfold Cert.Spec.aggR
  refine congrArg Cert.Spec.eluS (congrArg₂ Ideal.div ?_ (d_apply V hR c n))
  refine Finset.sum_congr (Finset.filter_congr fun e _ => ?_) (fun e _ => ?_)
  · rw [row_apply V e]
    exact rowWord_iff _ hR e n
  · rw [v_apply V c e, g_apply V hR e o]

end Result

end Feat

section Out
variable (V : Valuation τ sig (Elt Ideal))
open Feat

/-- The reference's first result: at node `n` and column `j`, ELU of the aggregated feature of channel `j / 128`,
    feature `j % 128`. -/
theorem ref_out (hR : Cert.Spec.InRange (V (Proc.devRef .tc main_arg3))) :
    after ops V (Proc.devRef .tc main_v172)
      = fun i : S4096x512.Idx => Cert.Spec.eluS (Cert.Spec.aggR (V (Proc.devRef .tc main_arg0)) (V (Proc.devRef .tc main_arg1)) (V (Proc.devRef .tc main_arg2)) (V (Proc.devRef .tc main_arg3)) (Cert.Spec.chanOf (i 1)) (i 0) (Cert.Spec.featOf (i 1))) := by
  funext i
  obtain ⟨n, j, rfl⟩ : ∃ (n : Fin 4096) (j : Fin 512), i = ix2 n j := ⟨i 0, i 1, eq_ix2 i⟩
  rw [out_eq V]
  unfold outTerm
  exact concat4_read _ _ _ _ _
    (fun c n o => Cert.Spec.eluS (Cert.Spec.aggR (V (Proc.devRef .tc main_arg0)) (V (Proc.devRef .tc main_arg1))
      (V (Proc.devRef .tc main_arg2)) (V (Proc.devRef .tc main_arg3)) c n o))
    (fun n o => chan_read V hR _ _ _ 0 rfl rfl n o) (fun n o => chan_read V hR _ _ _ 1 rfl rfl n o)
    (fun n o => chan_read V hR _ _ _ 2 rfl rfl n o) (fun n o => chan_read V hR _ _ _ 3 rfl rfl n o) n j

end Out

end Cert.ReferenceIdeal.Read

end
-- ==== Proof.RefAttn.lean ====
/-
  The reference program's second result, read index by index over the extended reals: the dense attention array
  of shape [4, 4096, 4096] holds at (c, n, m) the weights of channel c summed over the edges from n to m, over
  the divisor of n.

  Each channel runs the same operations on its own buffers. Row c of the weights is cut out and flattened; the two
  lists of node numbers (a negative number moved up by 4096, which under the range hypothesis moves nothing) are laid
  side by side as a table of pairs; the weights are summed into a square array of zeros at those pairs; the result is
  divided, row by row, by row c of the divisors. The four square arrays are each given a leading axis of length one
  and stacked along it.

  First every buffer involved is written as a short term of the buffers it is computed from (the program's own
  operations, in its order); then that term is read at one index: the accumulating scatter is a sum over the edges
  whose pair is (n, m), a slice and a flattening move the index, a broadcast reads the coordinate it keeps, the
  stack reads the piece that holds the leading coordinate.
-/
import proofs.«412460_j8796093022366_3_alg».proof.Proof.RefOps
import proofs.«412460_j8796093022366_3_alg».proof.Proof.Spec
import proofs.«412460_j8796093022366_3_alg».proof.Proof.LibScatterRead
import proofs.«412460_j8796093022366_3_alg».proof.Proof.RefPrefix
import Idealize.ShloMosaic.Lib.StableHlo.Run
import Idealize.ShloMosaic.Lib.StableHlo.Predicate
import Idealize.ShloMosaic.Lib.ValueIdx
import Idealize.ShloMosaic.Lib.Pipeline.Value
import Idealize.ShloMosaic.Lib.ValueLayout
import Idealize.ShloMosaic.PureOps.Ideal.Laws

set_option maxRecDepth 65536

noncomputable section

open scoped BigOperators

namespace Cert.ReferenceIdeal.Read

open Cert.ReferenceIdeal Cert.ReferenceIdeal.Gen Cert.ReferenceIdeal.Value Idealize.ShloMosaic Idealize.ShloMosaic.TcCoe Idealize.ShloMosaic.ValueIdx Idealize.SL.Sem Idealize.ShloMosaic.StableHlo

namespace Attn

/-! ## The buffers as terms of the buffers they are computed from -/

section Terms
variable {F : FTy → Type} [FloatOps F]

/-- A list of node numbers with the negative ones moved up by 4096. -/
def normIdx (z : IVec S262144 32) : IVec S262144 32 :=
  select (cmpi .slt z (broadcastInDim S262144 ![] bcast_S_S262144 (constantI S_ 32 0#32)))
    (addi z (broadcastInDim S262144 ![] bcast_S_S262144 (constantI S_ 32 4096#32))) z

/-- Two one-column tables side by side: the table of pairs. -/
def pairTable (a b : IVec S262144x1 32) : IVec S262144x2 32 :=
  concatenate S262144x2 1 [⟨S262144x1, a⟩, ⟨S262144x1, b⟩] concatenates_S262144x1_S262144x1_S262144x2_d1

/-- The program's concatenation of two one-column tables is the table of pairs. -/
theorem pairTable_fold (a b : IVec S262144x1 32) (h) :
    concatenate S262144x2 1 [⟨S262144x1, a⟩, ⟨S262144x1, b⟩] h = pairTable a b := rfl

/-- Four arrays with a leading axis of length one, stacked along it. -/
def stack4 (a b c d : FVec F S1x4096x4096 .f32) : FVec F S4x4096x4096 .f32 :=
  concatenate S4x4096x4096 0 [⟨S1x4096x4096, a⟩, ⟨S1x4096x4096, b⟩, ⟨S1x4096x4096, c⟩, ⟨S1x4096x4096, d⟩]
    concatenates_S1x4096x4096_S1x4096x4096_S1x4096x4096_S1x4096x4096_S4x4096x4096_d0

/-- One channel's dense attention array, as the program spells it: the weights of row `off 0` summed into zeros at
    the pairs of node numbers, divided row by row by the divisors of row `off 0`. -/
def chanArr (off : Fin 2 → Nat) (hs : S4x262144.Slices off S1x262144) (hd : S4x4096.Slices off S1x4096)
    (W : FVec F S4x262144 .f32) (R C : IVec S262144 32) (D : FVec F S4x4096 .f32) : FVec F S4096x4096 .f32 :=
  Host.divf
    (Host.scatterAdd scatter_S4096x4096_S262144x2_S262144_n_01_01_1
      (broadcastInDim S4096x4096 ![] bcast_S_S4096x4096 (constant S_ .f32 0x00000000#32))
      (pairTable (broadcastInDim S262144x1 ![0] bcast_S262144_S262144x1_0 (normIdx R))
        (broadcastInDim S262144x1 ![0] bcast_S262144_S262144x1_0 (normIdx C)))
      (shapeCast S262144 (extractStridedSlice S1x262144 off W hs) shapeCasts_S1x262144_S262144))
    (broadcastInDim S4096x4096 ![0, 1] bcast_S4096x1_S4096x4096_0_1
      (broadcastInDim S4096x1 ![0] bcast_S4096_S4096x1_0
        (shapeCast S4096 (extractStridedSlice S1x4096 off D hd) shapeCasts_S1x4096_S4096)))

/-- The last operation's result: the stack of the four buffers before it. -/
theorem stack_result (G : Valuation τ sig (Elt F)) (hxs hy) :
    (StableHlo.nary (τ := τ) ![main_v173, main_v174, main_v175, main_v176] main_v177 (fun u => concatenate S4x4096x4096 0 [⟨S1x4096x4096, u 0⟩, ⟨S1x4096x4096, u 1⟩, ⟨S1x4096x4096, u 2⟩, ⟨S1x4096x4096, u 3⟩] concatenates_S1x4096x4096_S1x4096x4096_S1x4096x4096_S1x4096x4096_S4x4096x4096_d0) hxs hy).result G
        (no_index (Proc.devRef .tc main_v177))
      = stack4 (G (Proc.devRef .tc main_v173)) (G (Proc.devRef .tc main_v174)) (G (Proc.devRef .tc main_v175))
          (G (Proc.devRef .tc main_v176)) := by
  rw [nary4_result]; rfl

/-- Every buffer of the line rewritten to its operation's value, in one pass; a table of pairs or a stack of four is
    named as it appears, so that the pass goes on inside its pieces. -/
local macro "results_pass" : tactic =>
  `(tactic| (simp (disch := decide) only [pairTable_fold, stack_result, after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']))

variable (V : Valuation τ sig (Elt F))

set_option maxHeartbeats 4000000 in
/-- Channel 0's dense attention array, from the weights, the two lists of node numbers and the divisors. -/
theorem attn0_eq :
    after ops V (Proc.devRef .tc main_v63)
      = chanArr ![0, 0] slices_S4x262144_S1x262144_0_0 slices_S4x4096_S1x4096_0_0
          (after ops V (Proc.devRef .tc main_v13)) (after ops V (Proc.devRef .tc main_v2))
          (after ops V (Proc.devRef .tc main_v4)) (after ops V (Proc.devRef .tc main_v20)) := by
  results_pass <;> rfl

set_option maxHeartbeats 4000000 in
/-- Channel 1's dense attention array, from the weights, the two lists of node numbers and the divisors. -/
theorem attn1_eq :
    after ops V (Proc.devRef .tc main_v99)
      = chanArr ![1, 0] slices_S4x262144_S1x262144_1_0 slices_S4x4096_S1x4096_1_0
          (after ops V (Proc.devRef .tc main_v13)) (after ops V (Proc.devRef .tc main_v2))
          (after ops V (Proc.devRef .tc main_v4)) (after ops V (Proc.devRef .tc main_v20)) := by
  results_pass <;> rfl

set_option maxHeartbeats 4000000 in
/-- Channel 2's dense attention array, from the weights, the two lists of node numbers and the divisors. -/
theorem attn2_eq :
    after ops V (Proc.devRef .tc main_v135)
      = chanArr ![2, 0] slices_S4x262144_S1x262144_2_0 slices_S4x4096_S1x4096_2_0
          (after ops V (Proc.devRef .tc main_v13)) (after ops V (Proc.devRef .tc main_v2))
          (after ops V (Proc.devRef .tc main_v4)) (after ops V (Proc.devRef .tc main_v20)) := by
  results_pass <;> rfl

set_option maxHeartbeats 4000000 in
/-- Channel 3's dense attention array, from the weights, the two lists of node numbers and the divisors. -/
theorem attn3_eq :
    after ops V (Proc.devRef .tc main_v171)
      = chanArr ![3, 0] slices_S4x262144_S1x262144_3_0 slices_S4x4096_S1x4096_3_0
          (after ops V (Proc.devRef .tc main_v13)) (after ops V (Proc.devRef .tc main_v2))
          (after ops V (Proc.devRef .tc main_v4)) (after ops V (Proc.devRef .tc main_v20)) := by
  results_pass <;> rfl

set_option maxHeartbeats 4000000 in
/-- The second result: the four channels' arrays, each given a leading axis of length one, stacked. -/
theorem attn_eq :
    after ops V (Proc.devRef .tc main_v177)
      = stack4
          (broadcastInDim S1x4096x4096 ![1, 2] bcast_S4096x4096_S1x4096x4096_1_2 (after ops V (Proc.devRef .tc main_v63)))
          (broadcastInDim S1x4096x4096 ![1, 2] bcast_S4096x4096_S1x4096x4096_1_2 (after ops V (Proc.devRef .tc main_v99)))
          (broadcastInDim S1x4096x4096 ![1, 2] bcast_S4096x4096_S1x4096x4096_1_2 (after ops V (Proc.devRef .tc main_v135)))
          (broadcastInDim S1x4096x4096 ![1, 2] bcast_S4096x4096_S1x4096x4096_1_2 (after ops V (Proc.devRef .tc main_v171))) := by
  results_pass <;> rfl

end Terms

/-! ## One channel's array at an index -/

/-- A node number below 4096 is not negative, so moving the negative numbers up leaves it. -/
theorem normIdx_apply (z : IVec S262144 32) (e : Fin 262144) (hz : (z (ix1 e)).toNat < 4096) :
    normIdx z (ix1 e) = z (ix1 e) := by
  show Scalar.select (IntOp.cmpi .slt (z (ix1 e)) 0#32) (IntOp.addi (z (ix1 e)) 4096#32) (z (ix1 e)) = z (ix1 e)
  have hn : ¬ IntOp.cmpi .slt (z (ix1 e)) 0#32 = 1#1 := by
    rw [Predicate.slt_iff_toNat (by omega) (by decide)]
    exact Nat.not_lt_zero _
  rw [eq_zero_of_ne_one hn, select_zero]

/-- The table of pairs reads, in its first column, the first list. -/
theorem pairTable_fst (a b : IVec S262144 32) (e : Fin 262144) :
    pairTable (broadcastInDim S262144x1 ![0] bcast_S262144_S262144x1_0 a)
        (broadcastInDim S262144x1 ![0] bcast_S262144_S262144x1_0 b) (ix2 e (0 : Fin 2)) = a (ix1 e) := by
  unfold pairTable
  refine (concatenate_pair_apply_left (t := S262144x2) (s₁ := S262144x1) (s₂ := S262144x1) _ _ _ _ (ix2 e (0 : Fin 2)) rfl
    (ix2 e (0 : Fin 1)) ?_).trans ?_
  · intro b
    match b with
    | ⟨0, _⟩ => rfl
    | ⟨1, _⟩ => rfl
  · exact Prefix.col1_apply _ a e

/-- The table of pairs reads, in its second column, the second list. -/
theorem pairTable_snd (a b : IVec S262144 32) (e : Fin 262144) :
    pairTable (broadcastInDim S262144x1 ![0] bcast_S262144_S262144x1_0 a)
        (broadcastInDim S262144x1 ![0] bcast_S262144_S262144x1_0 b) (ix2 e (1 : Fin 2)) = b (ix1 e) := by
  unfold pairTable
  refine (concatenate_pair_apply_right (t := S262144x2) (s₁ := S262144x1) (s₂ := S262144x1) _ _ _ _ (ix2 e (1 : Fin 2)) rfl rfl
    (ix2 e (0 : Fin 1)) ?_ ?_).trans ?_
  · intro b hb
    match b, hb with
    | ⟨0, _⟩, _ => rfl
    | ⟨1, _⟩, hb => exact absurd rfl hb
  · rfl
  · exact Prefix.col1_apply _ b e

/-- A list of 4096 numbers laid along the rows of a square array reads, at (n, m), the list at n. -/
theorem rows_apply (v : FVec Ideal S4096 .f32) (n m : Fin 4096) :
    broadcastInDim S4096x4096 ![0, 1] bcast_S4096x1_S4096x4096_0_1
        (broadcastInDim S4096x1 ![0] bcast_S4096_S4096x1_0 v) (ix2 n m) = v (ix1 n) := by
  refine (broadcastInDim_apply _ _ _ (ix2 n m) (ix2 n (0 : Fin 1)) ?_).trans (Prefix.col1_apply _ v n)
  intro a
  match a with
  | ⟨0, _⟩ => rfl
  | ⟨1, _⟩ => rfl

/-- ONE CHANNEL'S ARRAY AT (n, m): with the two lists of node numbers below 4096, the weights of the edges
    from n to m summed, over the divisor of n. -/
theorem chanArr_apply (c : Fin 4) (hs : S4x262144.Slices ![c.val, 0] S1x262144) (hd : S4x4096.Slices ![c.val, 0] S1x4096)
    (W : FVec Ideal S4x262144 .f32) (R C : IVec S262144 32) (D : FVec Ideal S4x4096 .f32)
    (hR : ∀ e : Fin 262144, (R (ix1 e)).toNat < 4096) (hC : ∀ e : Fin 262144, (C (ix1 e)).toNat < 4096)
    (n m : Fin 4096) :
    chanArr (F := Ideal) ![c.val, 0] hs hd W R C D (ix2 n m)
      = Ideal.div
          (∑ e ∈ Finset.univ.filter (fun e : Fin 262144 => (R (ix1 e)).toNat = n.val ∧ (C (ix1 e)).toNat = m.val),
            W (ix2 c e))
          (D (ix2 c n)) := by
  have hz : (broadcastInDim S4096x4096 ![] bcast_S_S4096x4096 (constant (F := Ideal) S_ .f32 0x00000000#32)) (ix2 n m)
      = (0 : EReal) := Ideal.ofBits_zero_f32
  show Ideal.div
      (Host.scatterAdd (F := Ideal) (φ := .f32) scatter_S4096x4096_S262144x2_S262144_n_01_01_1 _ _ _ (ix2 n m))
      (broadcastInDim S4096x4096 ![0, 1] bcast_S4096x1_S4096x4096_0_1
        (broadcastInDim S4096x1 ![0] bcast_S4096_S4096x1_0
          (shapeCast S4096 (extractStridedSlice S1x4096 ![c.val, 0] D hd) shapeCasts_S1x4096_S4096)) (ix2 n m)) = _
  rw [Cert.IndexedRead.scatterAdd_pair_apply (N := 4096) (M := 4096) (E := 262144)
    scatter_S4096x4096_S262144x2_S262144_n_01_01_1 rfl rfl rfl rfl, hz, zero_add, rows_apply,
    Prefix.sliceRow_apply c D hd shapeCasts_S1x4096_S4096 n]
  refine congrArg (fun s => Ideal.div s (D (ix2 c n))) ?_
  refine Finset.sum_congr (Finset.filter_congr fun e _ => ?_)
    (fun e _ => Prefix.sliceRow_apply c W hs shapeCasts_S1x262144_S262144 e)
  rw [pairTable_fst, pairTable_snd, normIdx_apply R e (hR e), normIdx_apply C e (hC e),
    Predicate.toInt_eq_toNat_of_lt (by have := hR e; omega), Predicate.toInt_eq_toNat_of_lt (by have := hC e; omega)]
  omega

/-! ## The four arrays stacked -/

/-- A square array given a leading axis of length one reads, at (0, n, m), the array at (n, m). -/
theorem lead_apply (A : FVec Ideal S4096x4096 .f32) (n m : Fin 4096) :
    broadcastInDim S1x4096x4096 ![1, 2] bcast_S4096x4096_S1x4096x4096_1_2 A (ix3 (0 : Fin 1) n m) = A (ix2 n m) := by
  refine broadcastInDim_apply _ _ _ (ix3 (0 : Fin 1) n m) (ix2 n m) ?_
  intro a
  match a with
  | ⟨0, _⟩ => rfl
  | ⟨1, _⟩ => rfl

/-- The stack of four reads, at (c, n, m), the c-th array at (n, m). -/
theorem stack4_apply (A0 A1 A2 A3 : FVec Ideal S4096x4096 .f32) (P : Fin 4 → Fin 4096 → Fin 4096 → EReal)
    (h0 : ∀ n m, A0 (ix2 n m) = P 0 n m) (h1 : ∀ n m, A1 (ix2 n m) = P 1 n m)
    (h2 : ∀ n m, A2 (ix2 n m) = P 2 n m) (h3 : ∀ n m, A3 (ix2 n m) = P 3 n m) (c : Fin 4) (n m : Fin 4096) :
    stack4 (F := Ideal)
        (broadcastInDim S1x4096x4096 ![1, 2] bcast_S4096x4096_S1x4096x4096_1_2 A0)
        (broadcastInDim S1x4096x4096 ![1, 2] bcast_S4096x4096_S1x4096x4096_1_2 A1)
        (broadcastInDim S1x4096x4096 ![1, 2] bcast_S4096x4096_S1x4096x4096_1_2 A2)
        (broadcastInDim S1x4096x4096 ![1, 2] bcast_S4096x4096_S1x4096x4096_1_2 A3) (ix3 c n m)
      = P c n m := by
  unfold stack4
  have hi : ∀ b : Fin 3, b.cast (rfl : S1x4096x4096.rank = S4x4096x4096.rank) ≠ (0 : Fin 3) →
      ((ix3 (0 : Fin 1) n m) b).val = ((ix3 c n m) (b.cast rfl)).val := by
    intro b hb
    match b, hb with
    | ⟨0, _⟩, hb => exact absurd rfl hb
    | ⟨1, _⟩, _ => rfl
    | ⟨2, _⟩, _ => rfl
  fin_cases c
  · exact ((concatenate_apply_piece _ _ _ (ix3 (0 : Fin 4) n m) 0 (by show (0 : ℕ) < 4; omega) S1x4096x4096 _ rfl rfl 0 rfl
      (ix3 (0 : Fin 1) n m) hi rfl).trans (lead_apply A0 n m)).trans (h0 n m)
  · exact ((concatenate_apply_piece _ _ _ (ix3 (1 : Fin 4) n m) 1 (by show (1 : ℕ) < 4; omega) S1x4096x4096 _ rfl rfl 1 rfl
      (ix3 (0 : Fin 1) n m) hi rfl).trans (lead_apply A1 n m)).trans (h1 n m)
  · exact ((concatenate_apply_piece _ _ _ (ix3 (2 : Fin 4) n m) 2 (by show (2 : ℕ) < 4; omega) S1x4096x4096 _ rfl rfl 2 rfl
      (ix3 (0 : Fin 1) n m) hi rfl).trans (lead_apply A2 n m)).trans (h2 n m)
  · exact ((concatenate_apply_piece _ _ _ (ix3 (3 : Fin 4) n m) 3 (by show (3 : ℕ) < 4; omega) S1x4096x4096 _ rfl rfl 3 rfl
      (ix3 (0 : Fin 1) n m) hi rfl).trans (lead_apply A3 n m)).trans (h3 n m)

/-! ## The second result at an index -/

section Final
variable (V : Valuation τ sig (Elt Ideal))

/-- An array that is channel c's, as the program spells it over the shared buffers, holds at (n, m) the summed weights
    of the edges from n to m over the divisor of n. -/
theorem chan_apply (c : Fin 4) (hs : S4x262144.Slices ![c.val, 0] S1x262144) (hd : S4x4096.Slices ![c.val, 0] S1x4096)
    (A : FVec Ideal S4096x4096 .f32)
    (hA : A = chanArr (F := Ideal) ![c.val, 0] hs hd (after ops V (Proc.devRef .tc main_v13))
      (after ops V (Proc.devRef .tc main_v2)) (after ops V (Proc.devRef .tc main_v4)) (after ops V (Proc.devRef .tc main_v20)))
    (hR : Cert.Spec.InRange (V (Proc.devRef .tc main_arg3))) (n m : Fin 4096) :
    A (ix2 n m) = Cert.Spec.attnR (V (Proc.devRef .tc main_arg2)) (V (Proc.devRef .tc main_arg3)) c n m := by
  subst hA
  refine (chanArr_apply c hs hd _ _ _ _ ?_ ?_ n m).trans ?_
  · intro e; rw [row_apply]; exact hR _
  · intro e; rw [col_apply]; exact hR _
  · unfold Cert.Spec.attnR
    rw [d_apply V hR]
    refine congrArg
      (fun s => Ideal.div s (Cert.Spec.dS (V (Proc.devRef .tc main_arg2)) (V (Proc.devRef .tc main_arg3)) c n)) ?_
    refine Finset.sum_congr (Finset.filter_congr fun e _ => ?_) (fun e _ => v_apply V c e)
    rw [row_apply, col_apply]
    rfl

end Final

end Attn

section Result
variable (V : Valuation τ sig (Elt Ideal))

/-- THE SECOND RESULT: at (c, n, m) the summed weights of channel c over the edges from n to m, over the divisor
    of n. -/
theorem ref_attn (hR : Cert.Spec.InRange (V (Proc.devRef .tc main_arg3))) :
    after ops V (Proc.devRef .tc main_v177)
      = fun i : S4x4096x4096.Idx => Cert.Spec.attnR (V (Proc.devRef .tc main_arg2)) (V (Proc.devRef .tc main_arg3)) (i 0) (i 1) (i 2) := by
  funext i
  obtain ⟨c, n, m, rfl⟩ : ∃ (c : Fin 4) (n m : Fin 4096), i = ix3 c n m := ⟨i 0, i 1, i 2, eq_ix3 i⟩
  show after ops V (Proc.devRef .tc main_v177) (ix3 c n m)
    = Cert.Spec.attnR (V (Proc.devRef .tc main_arg2)) (V (Proc.devRef .tc main_arg3)) c n m
  refine (congrFun (Attn.attn_eq V) (ix3 c n m)).trans ?_
  exact Attn.stack4_apply _ _ _ _
    (fun c n m => Cert.Spec.attnR (V (Proc.devRef .tc main_arg2)) (V (Proc.devRef .tc main_arg3)) c n m)
    (Attn.chan_apply V 0 _ _ _ (Attn.attn0_eq V) hR) (Attn.chan_apply V 1 _ _ _ (Attn.attn1_eq V) hR)
    (Attn.chan_apply V 2 _ _ _ (Attn.attn2_eq V) hR) (Attn.chan_apply V 3 _ _ _ (Attn.attn3_eq V) hR) c n m

end Result

end Cert.ReferenceIdeal.Read

end
-- ==== Proof.RefValue.lean ====
/-
  The reference program's run with its two results read: every weakly fair execution ends with the first result at
  the ELU of the summed weighted features over the row's divisor, the second at the summed edge weights over the
  row's divisor, and the four arguments as launched.
-/
import proofs.«412460_j8796093022366_3_alg».proof.Proof.RefRun
import proofs.«412460_j8796093022366_3_alg».proof.Proof.RefFeat
import proofs.«412460_j8796093022366_3_alg».proof.Proof.RefAttn

set_option maxRecDepth 65536

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- No operation writes the first argument. -/
theorem arg0_kept (V : Valuation τ sig (Elt F)) : after ops V (Proc.devRef .tc main_arg0) = V (Proc.devRef .tc main_arg0) := by
  after_results_simp
set_option maxHeartbeats 4000000 in
/-- No operation writes the second argument. -/
theorem arg1_kept (V : Valuation τ sig (Elt F)) : after ops V (Proc.devRef .tc main_arg1) = V (Proc.devRef .tc main_arg1) := by
  after_results_simp
set_option maxHeartbeats 4000000 in
/-- No operation writes the third argument. -/
theorem arg2_kept (V : Valuation τ sig (Elt F)) : after ops V (Proc.devRef .tc main_arg2) = V (Proc.devRef .tc main_arg2) := by
  after_results_simp
set_option maxHeartbeats 4000000 in
/-- No operation writes the fourth argument. -/
theorem arg3_kept (V : Valuation τ sig (Elt F)) : after ops V (Proc.devRef .tc main_arg3) = V (Proc.devRef .tc main_arg3) := by
  after_results_simp

/-- The run with the arguments kept: the frame. -/
theorem run_frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_arg0).trans (arg0_kept _), (h c main_arg1).trans (arg1_kept _),
      (h c main_arg2).trans (arg2_kept _), (h c main_arg3).trans (arg3_kept _)⟩)
    (run_ops m ρ)

/-- The run at the ideal instance with both results read, for an edge table whose entries are node numbers. -/
theorem run_values (m : (ℓ : Loc nD τ sig) → Buf (Elt Ideal) ℓ) (ρ : Dev nD → PrngReg)
    (hR : ∀ c : Dev nD, Cert.Spec.InRange (m ((c.tc : Thread nD τ).loc main_arg3))) :
    θ_run defs (onTc (τ := τ) (main (F := Ideal))) ⟨m, fun _ => 0, ρ⟩ fun r => ∀ c : Dev nD,
      r.2.mem ((c.tc : Thread nD τ).loc main_v172)
          = (fun i : S4096x512.Idx => Cert.Spec.eluS (Cert.Spec.aggR (m ((c.tc : Thread nD τ).loc main_arg0)) (m ((c.tc : Thread nD τ).loc main_arg1))
              (m ((c.tc : Thread nD τ).loc main_arg2)) (m ((c.tc : Thread nD τ).loc main_arg3)) (Cert.Spec.chanOf (i 1)) (i 0) (Cert.Spec.featOf (i 1))))
      ∧ r.2.mem ((c.tc : Thread nD τ).loc main_v177)
          = (fun i : S4x4096x4096.Idx => Cert.Spec.attnR (m ((c.tc : Thread nD τ).loc main_arg2)) (m ((c.tc : Thread nD τ).loc main_arg3)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v172).trans (Cert.ReferenceIdeal.Read.ref_out (launchContents m c) (hR c)),
      (h c main_v177).trans (Cert.ReferenceIdeal.Read.ref_attn (launchContents m c) (hR c)),
      (h c main_arg0).trans (arg0_kept _), (h c main_arg1).trans (arg1_kept _),
      (h c main_arg2).trans (arg2_kept _), (h c main_arg3).trans (arg3_kept _)⟩)
    (run_ops m ρ)

end Cert.ReferenceIdeal.Value

end
-- ==== Proof.lean ====
/-
  The certificate of a four-channel graph attention layer on 4096 nodes and 262144 edges against its jnp reference,
  over the extended reals, for finite features and weights and an edge table whose entries are node numbers.

  Both programs turn every edge logit into a weight `v` (leaky-relu, zeros sent far down, exponential, capped), sum the
  weights of the edges leaving a node into its divisor `d` (1 where the sum is 0), and project the features, `h = x · W`.
  The kernel program divides each edge weight by its row's divisor FIRST, scatters the quotients into the dense
  attention array at the flat position `row · 4096 + col`, and multiplies that array with `h` on the matrix unit, 256 rows
  at a time, before ELU. The reference gathers `h` along the edges, sums the weighted rows per node, and divides the sum
  by the divisor ONCE, and likewise for the dense array. With every weight a nonnegative real, every divisor a nonzero
  real and every entry of `h` a real (finite inputs), the two orders agree: a finite sum of quotients by one real is the
  quotient of the sum, and the sum over `m` of (the edges `n → m`) against `h m` is the sum over the edges leaving `n`.
  The frames of the two kernel programs are the generated ones; the reference's is its run as a straight line of host
  operations; the ideal pass rewrote nothing, so there is nothing to preserve.
-/
import proofs.«412460_j8796093022366_3_alg».proof.Defs
import proofs.«412460_j8796093022366_3_alg».proof.Proof.Gen.Kernel
import proofs.«412460_j8796093022366_3_alg».proof.Proof.Gen.Kernel.Skeleton
import proofs.«412460_j8796093022366_3_alg».proof.Proof.Gen.Kernel.Launch
import proofs.«412460_j8796093022366_3_alg».proof.Proof.Gen.Kernel.Points
import proofs.«412460_j8796093022366_3_alg».proof.Proof.Gen.Kernel.Frame
import proofs.«412460_j8796093022366_3_alg».proof.Proof.Gen.KernelIdeal
import proofs.«412460_j8796093022366_3_alg».proof.Proof.Gen.KernelIdeal.Skeleton
import proofs.«412460_j8796093022366_3_alg».proof.Proof.Gen.KernelIdeal.Launch
import proofs.«412460_j8796093022366_3_alg».proof.Proof.Gen.KernelIdeal.Points
import proofs.«412460_j8796093022366_3_alg».proof.Proof.Gen.KernelIdeal.Frame
import proofs.«412460_j8796093022366_3_alg».proof.Proof.Gen.ReferenceIdeal
import proofs.«412460_j8796093022366_3_alg».proof.Proof.Gen.Pre_finite_inputs
import proofs.«412460_j8796093022366_3_alg».proof.Proof.PreFacts
import proofs.«412460_j8796093022366_3_alg».proof.Proof.Bridge
import proofs.«412460_j8796093022366_3_alg».proof.Proof.KerRunV
import proofs.«412460_j8796093022366_3_alg».proof.Proof.KerValue
import proofs.«412460_j8796093022366_3_alg».proof.Proof.RefValue
import Idealize.ShloMosaic.Adequacy
import Idealize.ShloMosaic.Init

noncomputable section

namespace Cert.Proof

open Idealize.ShloMosaic Idealize.SL.Sem

/-- The kernel program as printed terminates without a fault and keeps its arguments. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations, none of which writes an argument. -/
theorem frame_ri : Cert.frame_ReferenceIdeal := fun m ρ _ => Cert.ReferenceIdeal.Value.run_frame (F := Ideal) m ρ

/-- The ideal pass rewrote no operation. -/
theorem preserves : Cert.preserves_Kernel_KernelIdeal := trivial

/-- Dividing every edge weight by its row's divisor before the sums, or the sums once after them: the same two arrays. -/
theorem algebraic : Cert.algebraic_KernelIdeal_ReferenceIdeal := by
  intro m ρ m' ρ' hpre hagree
  have hf := fun c => Cert.PreFacts.facts_of_pre _ _ _ _ (hpre c)
  have hR : ∀ c : Dev Cert.KernelIdeal.nD,
      Cert.Spec.InRange (m ((c.tc : Thread Cert.KernelIdeal.nD Cert.KernelIdeal.τ).loc Cert.KernelIdeal.main_arg3)) := fun c => (hf c).2.2
  have hR' : ∀ c : Dev Cert.ReferenceIdeal.nD,
      Cert.Spec.InRange (m' ((c.tc : Thread Cert.ReferenceIdeal.nD Cert.ReferenceIdeal.τ).loc Cert.ReferenceIdeal.main_arg3)) := fun c => by
    rw [(hagree c).2.2.2]; exact hR c
  refine ⟨fun c => fun i : Cert.KernelIdeal.S4096x512.Idx => Cert.Spec.eluS (Cert.Spec.aggR
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (Cert.Spec.chanOf (i 1)) (i 0) (Cert.Spec.featOf (i 1))),
    fun c => fun i : Cert.KernelIdeal.S4x4096x4096.Idx => Cert.Spec.attnR
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (i 0) (i 1) (i 2), ?_, ?_⟩
  · refine (θ_run Cert.KernelIdeal.defs _ _).mono (fun r h c => ⟨?_, ?_, (h c).2.2⟩) (Cert.KernelIdeal.GenV.run_values m ρ)
    · rw [(h c).1, Cert.KernelIdeal.Fold.out_value m ρ c (hR c)]
      funext i
      exact congrArg Cert.Spec.eluS (Cert.Bridge.agg_bridge _ _ _ _ (hf c).1 (hf c).2.1 (hR c) _ _ _)
    · rw [(h c).2.1, Cert.KernelIdeal.Fold.attn_value m ρ c (hR c)]
      funext i
      exact Cert.Bridge.attn_bridge _ _ (hR c) _ _ _
  · refine (θ_run Cert.ReferenceIdeal.defs _ _).mono (fun r h c => ⟨?_, ?_, (h c).2.2⟩) (Cert.ReferenceIdeal.Value.run_values m' ρ' hR')
    · rw [(h c).1, (hagree c).1, (hagree c).2.1, (hagree c).2.2.1, (hagree c).2.2.2]
    · rw [(h c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
